-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v113)) (v1 : (c : Dev Cert.KernelIdeal.nD) → Buf (Elt Ideal) ((c.tc : Thread Cert.KernelIdeal.nD Cert.KernelIdeal.τ).loc Cert.KernelIdeal.main_v97)) (v2 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_v61) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S500000x4 : Shape := ⟨2, ![500000, 4]⟩
abbrev S4000000x2 : Shape := ⟨2, ![4000000, 2]⟩
abbrev S500000 : Shape := ⟨1, ![500000]⟩
abbrev S_ : Shape := ⟨0, ![]⟩
abbrev S500000x1 : Shape := ⟨2, ![500000, 1]⟩

class Facts : Prop where
  bcast_S_S500000x3 : S_.BroadcastsInDim S500000x3 (![] : Fin 0 → Fin S500000x3.rank)
  reducesTo_S500000x3_S_d0_1 : S500000x3.ReducesTo [0, 1] S_
  h_S_ : 0 < S_.numel
  bcast_S_S500000 : S_.BroadcastsInDim S500000 (![] : Fin 0 → Fin S500000.rank)
  reducesTo_S500000_S_d0 : S500000.ReducesTo [0] S_
  bcast_S_S4000000x2 : S_.BroadcastsInDim S4000000x2 (![] : Fin 0 → Fin S4000000x2.rank)
  reducesTo_S4000000x2_S_d0_1 : S4000000x2.ReducesTo [0, 1] S_
  slices_S500000x4_S500000x1_0_1 : S500000x4.Slices ![0, 1] S500000x1
  shapeCasts_S500000x1_S500000 : S500000x1.ShapeCasts S500000

variable [Facts]

def fn_part1 {F : FTy → Type} [FloatOps F] (main_arg1 : IVec S500000x4 32) (main_v12 : IVec S_ 1) (main_v15 : IVec S_ 1) : IVec S_ 1 :=
  let main_v16 : IVec S_ 1 := andi main_v12 main_v15
  let main_v17 : IVec S500000x1 32 := (extractStridedSlice S500000x1 ![0, 1] · slices_S500000x4_S500000x1_0_1) main_arg1
  let main_v18 : IVec S500000 32 := shapeCast S500000 main_v17 shapeCasts_S500000x1_S500000
  let main_c_6 : IVec S_ 32 := constantI S_ 32 0#32
  let main_v19 : IVec S500000 32 := broadcastInDim S500000 ![] bcast_S_S500000 main_c_6
  let main_v20 : IVec S500000 1 := cmpi .sge main_v18 main_v19
  let main_c_7 : IVec S_ 1 := constantI S_ 1 1#1
  let main_v21 : IVec S_ 1 := (fun x v => Host.reduce IntOp.andi x v reducesTo_S500000_S_d0 h_S_) main_v20 main_c_7
  let main_v22 : IVec S_ 1 := andi main_v16 main_v21
  let main_v23 : IVec S500000x1 32 := (extractStridedSlice S500000x1 ![0, 1] · slices_S500000x4_S500000x1_0_1) main_arg1
  let main_v24 : IVec S500000 32 := shapeCast S500000 main_v23 shapeCasts_S500000x1_S500000
  let main_c_8 : IVec S_ 32 := constantI S_ 32 500#32
  let main_v25 : IVec S500000 32 := broadcastInDim S500000 ![] bcast_S_S500000 main_c_8
  let main_v26 : IVec S500000 1 := cmpi .slt main_v24 main_v25
  let main_c_9 : IVec S_ 1 := constantI S_ 1 1#1
  let main_v27 : IVec S_ 1 := (fun x v => Host.reduce IntOp.andi x v reducesTo_S500000_S_d0 h_S_) main_v26 main_c_9
  let main_v28 : IVec S_ 1 := andi main_v22 main_v27
  main_v28

def fn {F : FTy → Type} [FloatOps F] (main_arg0 : FVec F S500000x3 .f32) (main_arg1 : IVec S500000x4 32) (main_arg2 : IVec S4000000x2 32) (main_arg3 : IVec S500000x4 1) (main_arg4 : FVec F S500000 .f32) : IVec S_ 1 :=
  let main_v0 : FVec F S500000x3 .f32 := Host.absf main_arg0
  let main_cst : FVec F S_ .f32 := constant S_ .f32 0x7F800000#32
  let main_v1 : FVec F S500000x3 .f32 := broadcastInDim S500000x3 ![] bcast_S_S500000x3 main_cst
  let main_v2 : IVec S500000x3 1 := cmpf .olt main_v0 main_v1
  let main_c : IVec S_ 1 := constantI S_ 1 1#1
  let main_v3 : IVec S_ 1 := (fun x v => Host.reduce IntOp.andi x v reducesTo_S500000x3_S_d0_1 h_S_) main_v2 main_c
  let main_v4 : FVec F S500000 .f32 := Host.absf main_arg4
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_c_2 : IVec S_ 32 := constantI S_ 32 0#32
  let main_v9 : IVec S4000000x2 32 := broadcastInDim S4000000x2 ![] bcast_S_S4000000x2 main_c_2
  let main_v10 : IVec S4000000x2 1 := cmpi .sge main_arg2 main_v9
  let main_c_3 : IVec S_ 1 := constantI S_ 1 1#1
  let main_v11 : IVec S_ 1 := (fun x v => Host.reduce IntOp.andi x v reducesTo_S4000000x2_S_d0_1 h_S_) main_v10 main_c_3
  let main_v12 : IVec S_ 1 := andi main_v8 main_v11
  let main_c_4 : IVec S_ 32 := constantI S_ 32 500000#32
  let main_v13 : IVec S4000000x2 32 := broadcastInDim S4000000x2 ![] bcast_S_S4000000x2 main_c_4
  let main_v14 : IVec S4000000x2 1 := cmpi .slt main_arg2 main_v13
  let main_c_5 : IVec S_ 1 := constantI S_ 1 1#1
  let main_v15 : IVec S_ 1 := (fun x v => Host.reduce IntOp.andi x v reducesTo_S4000000x2_S_d0_1 h_S_) main_v14 main_c_5
  fn_part1 (F := F) main_arg1 main_v12 main_v15
-- ==== Kernel.lean ====
abbrev S500000x3 : Shape := ⟨2, ![500000, 3]⟩
abbrev S500000x4 : Shape := ⟨2, ![500000, 4]⟩
abbrev S4000000x2 : Shape := ⟨2, ![4000000, 2]⟩
abbrev S500000 : Shape := ⟨1, ![500000]⟩
abbrev S4000000x1 : Shape := ⟨2, ![4000000, 1]⟩
abbrev S4000000 : Shape := ⟨1, ![4000000]⟩
abbrev S500000x1 : Shape := ⟨2, ![500000, 1]⟩
abbrev S_ : Shape := ⟨0, ![]⟩
abbrev S3x500000 : Shape := ⟨2, ![3, 500000]⟩
abbrev S4063232 : Shape := ⟨1, ![4063232]⟩
abbrev S4063232x1 : Shape := ⟨2, ![4063232, 1]⟩
abbrev S1 : Shape := ⟨1, ![1]⟩
abbrev S1x1 : Shape := ⟨2, ![1, 1]⟩
abbrev S3x4063232 : Shape := ⟨2, ![3, 4063232]⟩
abbrev S31744x128 : Shape := ⟨2, ![31744, 128]⟩
abbrev S3x31744x128 : Shape := ⟨3, ![3, 31744, 128]⟩
abbrev S1024x128 : Shape := ⟨2, ![1024, 128]⟩
abbrev S3x1024x128 : Shape := ⟨3, ![3, 1024, 128]⟩
abbrev S4 : Shape := ⟨1, ![4]⟩
abbrev S1x4 : Shape := ⟨2, ![1, 4]⟩
abbrev S4000000x4 : Shape := ⟨2, ![4000000, 4]⟩
abbrev S8000000 : Shape := ⟨1, ![8000000]⟩
abbrev S8000000x4 : Shape := ⟨2, ![8000000, 4]⟩
abbrev S8000000x1 : Shape := ⟨2, ![8000000, 1]⟩
abbrev S16000x4 : Shape := ⟨2, ![16000, 4]⟩
abbrev S8x4x500x4 : Shape := ⟨4, ![8, 4, 500, 4]⟩

abbrev nBuf : Space → Nat
  | .hbm => 235
  | .vmem => 10
  | .smem => 0
  | _ => 0

abbrev hbmTy0_0 (i : Nat) : BufTy := match i % 128 with
  | 0 => ⟨S500000x3, .f32⟩
  | 1 => ⟨S500000x4, .i32⟩
  | 2 => ⟨S4000000x2, .i32⟩
  | 3 => ⟨S500000x4, .i1⟩
  | 4 => ⟨S500000, .f32⟩
  | 5 => ⟨S4000000x1, .i32⟩
  | 6 => ⟨S4000000, .i32⟩
  | 7 => ⟨S4000000x1, .i32⟩
  | 8 => ⟨S4000000, .i32⟩
  | 9 => ⟨S500000x1, .i32⟩
  | 10 => ⟨S500000, .i32⟩
  | 11 => ⟨S500000x1, .i32⟩
  | 12 => ⟨S500000, .i32⟩
  | 13 => ⟨S_, .i32⟩
  | 14 => ⟨S500000, .i32⟩
  | 15 => ⟨S500000, .i1⟩
  | 16 => ⟨S500000, .i32⟩
  | 17 => ⟨S_, .i32⟩
  | 18 => ⟨S500000, .i32⟩
  | 19 => ⟨S500000, .i32⟩
  | 20 => ⟨S500000, .i32⟩
  | 21 => ⟨S500000x4, .i32⟩
  | 22 => ⟨S500000x1, .i32⟩
  | 23 => ⟨S500000, .i32⟩
  | 24 => ⟨S_, .i32⟩
  | 25 => ⟨S500000, .i32⟩
  | 26 => ⟨S500000, .i32⟩
  | 27 => ⟨S500000, .i32⟩
  | 28 => ⟨S500000x1, .i32⟩
  | 29 => ⟨S500000, .i32⟩
  | 30 => ⟨S_, .i32⟩
  | 31 => ⟨S500000, .i32⟩
  | 32 => ⟨S500000, .i32⟩
  | 33 => ⟨S500000, .i32⟩
  | 34 => ⟨S500000x1, .i32⟩
  | 35 => ⟨S500000, .i32⟩
  | 36 => ⟨S_, .i32⟩
  | 37 => ⟨S500000, .i32⟩
  | 38 => ⟨S500000, .i32⟩
  | 39 => ⟨S500000, .i32⟩
  | 40 => ⟨S500000x1, .i32⟩
  | 41 => ⟨S500000, .i32⟩
  | 42 => ⟨S_, .i32⟩
  | 43 => ⟨S500000, .i32⟩
  | 44 => ⟨S500000, .i32⟩
  | 45 => ⟨S500000, .i32⟩
  | 46 => ⟨S3x500000, .f32⟩
  | 47 => ⟨S_, .i32⟩
  | 48 => ⟨S_, .i32⟩
  | 49 => ⟨S4063232, .i32⟩
  | 50 => ⟨S_, .i32⟩
  | 51 => ⟨S_, .i32⟩
  | 52 => ⟨S4063232, .i32⟩
  | 53 => ⟨S_, .i32⟩
  | 54 => ⟨S4063232, .i32⟩
  | 55 => ⟨S4063232, .i1⟩
  | 56 => ⟨S_, .i32⟩
  | 57 => ⟨S4063232, .i32⟩
  | 58 => ⟨S4063232, .i32⟩
  | 59 => ⟨S4063232, .i32⟩
  | 60 => ⟨S4063232x1, .i32⟩
  | 61 => ⟨S1, .i32⟩
  | 62 => ⟨S_, .i32⟩
  | 63 => ⟨S4063232x1, .i32⟩
  | 64 => ⟨S4063232x1, .i1⟩
  | 65 => ⟨S1x1, .i32⟩
  | 66 => ⟨S4063232x1, .i32⟩
  | 67 => ⟨S4063232x1, .i1⟩
  | 68 => ⟨S4063232x1, .i1⟩
  | 69 => ⟨S_, .i1⟩
  | 70 => ⟨S4063232, .i1⟩
  | 71 => ⟨S4063232, .i32⟩
  | 72 => ⟨S_, .i32⟩
  | 73 => ⟨S4063232, .i32⟩
  | 74 => ⟨S4063232, .i32⟩
  | 75 => ⟨S_, .i32⟩
  | 76 => ⟨S4063232, .i32⟩
  | 77 => ⟨S4063232, .i1⟩
  | 78 => ⟨S_, .i32⟩
  | 79 => ⟨S4063232, .i32⟩
  | 80 => ⟨S4063232, .i32⟩
  | 81 => ⟨S4063232, .i32⟩
  | 82 => ⟨S4063232x1, .i32⟩
  | 83 => ⟨S1, .i32⟩
  | 84 => ⟨S_, .i32⟩
  | 85 => ⟨S4063232x1, .i32⟩
  | 86 => ⟨S4063232x1, .i1⟩
  | 87 => ⟨S1x1, .i32⟩
  | 88 => ⟨S4063232x1, .i32⟩
  | 89 => ⟨S4063232x1, .i1⟩
  | 90 => ⟨S4063232x1, .i1⟩
  | 91 => ⟨S_, .i1⟩
  | 92 => ⟨S4063232, .i1⟩
  | 93 => ⟨S4063232, .i32⟩
  | 94 => ⟨S_, .i32⟩
  | 95 => ⟨S4063232, .i32⟩
  | 96 => ⟨S4063232, .i32⟩
  | 97 => ⟨S_, .i32⟩
  | 98 => ⟨S4063232, .i32⟩
  | 99 => ⟨S4063232, .i1⟩
  | 100 => ⟨S_, .i32⟩
  | 101 => ⟨S4063232, .i32⟩
  | 102 => ⟨S4063232, .i32⟩
  | 103 => ⟨S4063232, .i32⟩
  | 104 => ⟨S4063232x1, .i32⟩
  | 105 => ⟨S1, .i32⟩
  | 106 => ⟨S_, .i32⟩
  | 107 => ⟨S4063232x1, .i32⟩
  | 108 => ⟨S4063232x1, .i1⟩
  | 109 => ⟨S1x1, .i32⟩
  | 110 => ⟨S4063232x1, .i32⟩
  | 111 => ⟨S4063232x1, .i1⟩
  | 112 => ⟨S4063232x1, .i1⟩
  | 113 => ⟨S_, .i1⟩
  | 114 => ⟨S4063232, .i1⟩
  | 115 => ⟨S3x4063232, .f32⟩
  | 116 => ⟨S3x4063232, .i1⟩
  | 117 => ⟨S_, .f32⟩
  | 118 => ⟨S3x4063232, .f32⟩
  | 119 => ⟨S3x4063232, .f32⟩
  | 120 => ⟨S_, .i32⟩
  | 121 => ⟨S4063232, .i32⟩
  | 122 => ⟨S4063232, .i1⟩
  | 123 => ⟨S_, .i32⟩
  | 124 => ⟨S4063232, .i32⟩
  | 125 => ⟨S4063232, .i32⟩
  | 126 => ⟨S4063232, .i32⟩
  | 127 => ⟨S4063232x1, .i32⟩
  | _ => ⟨S500000x3, .f32⟩

abbrev hbmTy0_1 (i : Nat) : BufTy := match i % 128 with
  | 0 => ⟨S1, .i32⟩
  | 1 => ⟨S_, .i32⟩
  | 2 => ⟨S4063232x1, .i32⟩
  | 3 => ⟨S4063232x1, .i1⟩
  | 4 => ⟨S1x1, .i32⟩
  | 5 => ⟨S4063232x1, .i32⟩
  | 6 => ⟨S4063232x1, .i1⟩
  | 7 => ⟨S4063232x1, .i1⟩
  | 8 => ⟨S_, .i1⟩
  | 9 => ⟨S4063232, .i1⟩
  | 10 => ⟨S3x4063232, .f32⟩
  | 11 => ⟨S3x4063232, .i1⟩
  | 12 => ⟨S_, .f32⟩
  | 13 => ⟨S3x4063232, .f32⟩
  | 14 => ⟨S3x4063232, .f32⟩
  | 15 => ⟨S4000000, .i32⟩
  | 16 => ⟨S4000000, .i32⟩
  | 17 => ⟨S31744x128, .i32⟩
  | 18 => ⟨S31744x128, .i32⟩
  | 19 => ⟨S3x31744x128, .f32⟩
  | 20 => ⟨S3x31744x128, .f32⟩
  | 21 => ⟨S31744x128, .f32⟩
  | 22 => ⟨S4063232, .f32⟩
  | 23 => ⟨S4000000, .f32⟩
  | 24 => ⟨S_, .i32⟩
  | 25 => ⟨S4000000, .i32⟩
  | 26 => ⟨S4000000, .i32⟩
  | 27 => ⟨S_, .i32⟩
  | 28 => ⟨S4000000, .i32⟩
  | 29 => ⟨S4000000, .i32⟩
  | 30 => ⟨S_, .i32⟩
  | 31 => ⟨S4000000, .i32⟩
  | 32 => ⟨S4000000, .i32⟩
  | 33 => ⟨S_, .i32⟩
  | 34 => ⟨S4000000, .i32⟩
  | 35 => ⟨S4000000, .i32⟩
  | 36 => ⟨S4000000, .i32⟩
  | 37 => ⟨S_, .i32⟩
  | 38 => ⟨S4000000, .i32⟩
  | 39 => ⟨S4000000, .i1⟩
  | 40 => ⟨S4, .i32⟩
  | 41 => ⟨S_, .i32⟩
  | 42 => ⟨S4, .i32⟩
  | 43 => ⟨S4, .i32⟩
  | 44 => ⟨S1x4, .i32⟩
  | 45 => ⟨S4000000x1, .i32⟩
  | 46 => ⟨S4000000x4, .i32⟩
  | 47 => ⟨S4000000x4, .i32⟩
  | 48 => ⟨S4000000x4, .i32⟩
  | 49 => ⟨S_, .i32⟩
  | 50 => ⟨S4000000x4, .i32⟩
  | 51 => ⟨S4000000x4, .i32⟩
  | 52 => ⟨S_, .i32⟩
  | 53 => ⟨S4000000x4, .i32⟩
  | 54 => ⟨S4000000x4, .i1⟩
  | 55 => ⟨S4000000x1, .i32⟩
  | 56 => ⟨S4000000x4, .i32⟩
  | 57 => ⟨S4000000x4, .i32⟩
  | 58 => ⟨S4000000x4, .i32⟩
  | 59 => ⟨S_, .i32⟩
  | 60 => ⟨S4000000x4, .i32⟩
  | 61 => ⟨S4000000x4, .i32⟩
  | 62 => ⟨S_, .i32⟩
  | 63 => ⟨S4000000x4, .i32⟩
  | 64 => ⟨S4000000x4, .i1⟩
  | 65 => ⟨S4000000x1, .i1⟩
  | 66 => ⟨S4000000x4, .i1⟩
  | 67 => ⟨S4000000x4, .i1⟩
  | 68 => ⟨S4000000x4, .i1⟩
  | 69 => ⟨S4000000x1, .f32⟩
  | 70 => ⟨S_, .f32⟩
  | 71 => ⟨S_, .f32⟩
  | 72 => ⟨S4000000x4, .f32⟩
  | 73 => ⟨S4000000x4, .f32⟩
  | 74 => ⟨S4000000x4, .f32⟩
  | 75 => ⟨S8000000, .i32⟩
  | 76 => ⟨S8000000x4, .f32⟩
  | 77 => ⟨S_, .f32⟩
  | 78 => ⟨S500000x4, .f32⟩
  | 79 => ⟨S_, .i32⟩
  | 80 => ⟨S8000000, .i32⟩
  | 81 => ⟨S8000000, .i1⟩
  | 82 => ⟨S_, .i32⟩
  | 83 => ⟨S8000000, .i32⟩
  | 84 => ⟨S8000000, .i32⟩
  | 85 => ⟨S8000000, .i32⟩
  | 86 => ⟨S8000000x1, .i32⟩
  | 87 => ⟨S500000x4, .f32⟩
  | 88 => ⟨S500000x1, .i32⟩
  | 89 => ⟨S500000, .i32⟩
  | 90 => ⟨S_, .i32⟩
  | 91 => ⟨S500000, .i32⟩
  | 92 => ⟨S500000, .i32⟩
  | 93 => ⟨S500000x1, .i32⟩
  | 94 => ⟨S500000, .i32⟩
  | 95 => ⟨S500000, .i32⟩
  | 96 => ⟨S_, .i32⟩
  | 97 => ⟨S500000, .i32⟩
  | 98 => ⟨S500000, .i32⟩
  | 99 => ⟨S500000x1, .i32⟩
  | 100 => ⟨S500000, .i32⟩
  | 101 => ⟨S500000, .i32⟩
  | 102 => ⟨S_, .f32⟩
  | 103 => ⟨S16000x4, .f32⟩
  | 104 => ⟨S500000x1, .i32⟩
  | 105 => ⟨S16000x4, .f32⟩
  | 106 => ⟨S8x4x500x4, .f32⟩
  | _ => ⟨S500000x3, .f32⟩

abbrev hbmTy (i : Nat) : BufTy := match i / 128 with
  | 0 => hbmTy0_0 i
  | 1 => hbmTy0_1 i
  | _ => ⟨S500000x3, .f32⟩

abbrev bufTy : (tb : Table) → Fin (tcTables nBuf tb) → BufTy
  | .hbm, ⟨i, _⟩ => hbmTy i
  | .local _ .vmem, ⟨0, _⟩ => ⟨S1024x128, .i32⟩
  | .local _ .vmem, ⟨1, _⟩ => ⟨S1024x128, .i32⟩
  | .local _ .vmem, ⟨2, _⟩ => ⟨S1024x128, .i32⟩
  | .local _ .vmem, ⟨3, _⟩ => ⟨S1024x128, .i32⟩
  | .local _ .vmem, ⟨4, _⟩ => ⟨S3x1024x128, .f32⟩
  | .local _ .vmem, ⟨5, _⟩ => ⟨S3x1024x128, .f32⟩
  | .local _ .vmem, ⟨6, _⟩ => ⟨S3x1024x128, .f32⟩
  | .local _ .vmem, ⟨7, _⟩ => ⟨S3x1024x128, .f32⟩
  | .local _ .vmem, ⟨8, _⟩ => ⟨S1024x128, .f32⟩
  | .local _ .vmem, ⟨9, _⟩ => ⟨S1024x128, .f32⟩
  | _, _ => ⟨S500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_call0_v0 : Ref sig .tc := ⟨.hbm, 48, rfl⟩
abbrev main_v36 : Ref sig .tc := ⟨.hbm, 49, rfl⟩
abbrev main_c_6 : Ref sig .tc := ⟨.hbm, 50, rfl⟩
abbrev main_call1_v0 : Ref sig .tc := ⟨.hbm, 51, rfl⟩
abbrev main_v37 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_c_4 : Ref sig .tc := ⟨.hbm, 72, rfl⟩
abbrev main_call2_v14 : Ref sig .tc := ⟨.hbm, 73, rfl⟩
abbrev main_v38 : Ref sig .tc := ⟨.hbm, 74, rfl⟩
abbrev main_call3_c : Ref sig .tc := ⟨.hbm, 75, rfl⟩
abbrev main_call3_v0 : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_c_1 : Ref sig .tc := ⟨.hbm, 83, rfl⟩
abbrev main_call3_c_2 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_3 : Ref sig .tc := ⟨.hbm, 91, rfl⟩
abbrev main_call3_v12 : Ref sig .tc := ⟨.hbm, 92, rfl⟩
abbrev main_call3_v13 : Ref sig .tc := ⟨.hbm, 93, rfl⟩
abbrev main_call3_c_4 : Ref sig .tc := ⟨.hbm, 94, rfl⟩
abbrev main_call3_v14 : Ref sig .tc := ⟨.hbm, 95, rfl⟩
abbrev main_v39 : Ref sig .tc := ⟨.hbm, 96, rfl⟩
abbrev main_call4_c : Ref sig .tc := ⟨.hbm, 97, rfl⟩
abbrev main_call4_v0 : Ref sig .tc := ⟨.hbm, 98, rfl⟩
abbrev main_call4_v1 : Ref sig .tc := ⟨.hbm, 99, rfl⟩
abbrev main_call4_c_0 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_call4_v5 : Ref sig .tc := ⟨.hbm, 104, rfl⟩
abbrev main_call4_c_1 : Ref sig .tc := ⟨.hbm, 105, rfl⟩
abbrev main_call4_c_2 : Ref sig .tc := ⟨.hbm, 106, rfl⟩
abbrev main_call4_v6 : Ref sig .tc := ⟨.hbm, 107, rfl⟩
abbrev main_call4_v7 : Ref sig .tc := ⟨.hbm, 108, rfl⟩
abbrev main_call4_v8 : Ref sig .tc := ⟨.hbm, 109, rfl⟩
abbrev main_call4_v9 : Ref sig .tc := ⟨.hbm, 110, rfl⟩
abbrev main_call4_v10 : Ref sig .tc := ⟨.hbm, 111, rfl⟩
abbrev main_call4_v11 : Ref sig .tc := ⟨.hbm, 112, rfl⟩
abbrev main_call4_c_3 : Ref sig .tc := ⟨.hbm, 113, rfl⟩
abbrev main_call4_v12 : Ref sig .tc := ⟨.hbm, 114, rfl⟩
abbrev main_call4_v13 : Ref sig .tc := ⟨.hbm, 115, rfl⟩
abbrev main_call4_v14 : Ref sig .tc := ⟨.hbm, 116, rfl⟩
abbrev main_call4_cst : Ref sig .tc := ⟨.hbm, 117, rfl⟩
abbrev main_call4_v15 : Ref sig .tc := ⟨.hbm, 118, rfl⟩
abbrev main_v40 : Ref sig .tc := ⟨.hbm, 119, rfl⟩
abbrev main_call5_c : Ref sig .tc := ⟨.hbm, 120, rfl⟩
abbrev main_call5_v0 : Ref sig .tc := ⟨.hbm, 121, rfl⟩
abbrev main_call5_v1 : Ref sig .tc := ⟨.hbm, 122, rfl⟩
abbrev main_call5_c_0 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_call5_v5 : Ref sig .tc := ⟨.hbm, 127, rfl⟩
abbrev main_call5_c_1 : Ref sig .tc := ⟨.hbm, 128, rfl⟩
abbrev main_call5_c_2 : Ref sig .tc := ⟨.hbm, 129, rfl⟩
abbrev main_call5_v6 : Ref sig .tc := ⟨.hbm, 130, rfl⟩
abbrev main_call5_v7 : Ref sig .tc := ⟨.hbm, 131, rfl⟩
abbrev main_call5_v8 : Ref sig .tc := ⟨.hbm, 132, rfl⟩
abbrev main_call5_v9 : Ref sig .tc := ⟨.hbm, 133, rfl⟩
abbrev main_call5_v10 : Ref sig .tc := ⟨.hbm, 134, rfl⟩
abbrev main_call5_v11 : Ref sig .tc := ⟨.hbm, 135, rfl⟩
abbrev main_call5_c_3 : Ref sig .tc := ⟨.hbm, 136, rfl⟩
abbrev main_call5_v12 : Ref sig .tc := ⟨.hbm, 137, rfl⟩
abbrev main_call5_v13 : Ref sig .tc := ⟨.hbm, 138, rfl⟩
abbrev main_call5_v14 : Ref sig .tc := ⟨.hbm, 139, rfl⟩
abbrev main_call5_cst : Ref sig .tc := ⟨.hbm, 140, rfl⟩
abbrev main_call5_v15 : Ref sig .tc := ⟨.hbm, 141, rfl⟩
abbrev main_v41 : Ref sig .tc := ⟨.hbm, 142, rfl⟩
abbrev main_v42 : Ref sig .tc := ⟨.hbm, 143, rfl⟩
abbrev main_v43 : Ref sig .tc := ⟨.hbm, 144, rfl⟩
abbrev main_v44 : Ref sig .tc := ⟨.hbm, 145, rfl⟩
abbrev main_v45 : Ref sig .tc := ⟨.hbm, 146, rfl⟩
abbrev main_v46 : Ref sig .tc := ⟨.hbm, 147, rfl⟩
abbrev main_v47 : Ref sig .tc := ⟨.hbm, 148, rfl⟩
abbrev main_v48 : Ref sig .tc := ⟨.hbm, 149, rfl⟩
abbrev main_v49 : Ref sig .tc := ⟨.hbm, 150, rfl⟩
abbrev main_v50 : Ref sig .tc := ⟨.hbm, 151, rfl⟩
abbrev main_c_7 : Ref sig .tc := ⟨.hbm, 152, rfl⟩
abbrev main_v51 : Ref sig .tc := ⟨.hbm, 153, rfl⟩
abbrev main_v52 : Ref sig .tc := ⟨.hbm, 154, rfl⟩
abbrev main_c_8 : Ref sig .tc := ⟨.hbm, 155, rfl⟩
abbrev main_v53 : Ref sig .tc := ⟨.hbm, 156, rfl⟩
abbrev main_v54 : Ref sig .tc := ⟨.hbm, 157, rfl⟩
abbrev main_c_9 : Ref sig .tc := ⟨.hbm, 158, rfl⟩
abbrev main_v55 : Ref sig .tc := ⟨.hbm, 159, rfl⟩
abbrev main_v56 : Ref sig .tc := ⟨.hbm, 160, rfl⟩
abbrev main_c_10 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev main_c_11 : Ref sig .tc := ⟨.hbm, 165, rfl⟩
abbrev main_v60 : Ref sig .tc := ⟨.hbm, 166, rfl⟩
abbrev main_v61 : Ref sig .tc := ⟨.hbm, 167, rfl⟩
abbrev main_v62 : Ref sig .tc := ⟨.hbm, 168, rfl⟩
abbrev main_c_12 : Ref sig .tc := ⟨.hbm, 169, rfl⟩
abbrev main_v63 : Ref sig .tc := ⟨.hbm, 170, rfl⟩
abbrev main_v64 : Ref sig .tc := ⟨.hbm, 171, rfl⟩
abbrev main_v65 : Ref sig .tc := ⟨.hbm, 172, rfl⟩
abbrev main_v66 : Ref sig .tc := ⟨.hbm, 173, rfl⟩
abbrev main_v67 : Ref sig .tc := ⟨.hbm, 174, rfl⟩
abbrev main_v68 : Ref sig .tc := ⟨.hbm, 175, rfl⟩
abbrev main_v69 : Ref sig .tc := ⟨.hbm, 176, rfl⟩
abbrev main_c_13 : Ref sig .tc := ⟨.hbm, 177, rfl⟩
abbrev main_v70 : Ref sig .tc := ⟨.hbm, 178, rfl⟩
abbrev main_v71 : Ref sig .tc := ⟨.hbm, 179, rfl⟩
abbrev main_c_14 : Ref sig .tc := ⟨.hbm, 180, rfl⟩
abbrev main_v72 : Ref sig .tc := ⟨.hbm, 181, rfl⟩
abbrev main_v73 : Ref sig .tc := ⟨.hbm, 182, rfl⟩
abbrev main_v74 : Ref sig .tc := ⟨.hbm, 183, rfl⟩
abbrev main_v75 : Ref sig .tc := ⟨.hbm, 184, rfl⟩
abbrev main_v76 : Ref sig .tc := ⟨.hbm, 185, rfl⟩
abbrev main_v77 : Ref sig .tc := ⟨.hbm, 186, rfl⟩
abbrev main_c_15 : Ref sig .tc := ⟨.hbm, 187, rfl⟩
abbrev main_v78 : Ref sig .tc := ⟨.hbm, 188, rfl⟩
abbrev main_v79 : Ref sig .tc := ⟨.hbm, 189, rfl⟩
abbrev main_c_16 : Ref sig .tc := ⟨.hbm, 190, rfl⟩
abbrev main_v80 : Ref sig .tc := ⟨.hbm, 191, rfl⟩
abbrev main_v81 : Ref sig .tc := ⟨.hbm, 192, rfl⟩
abbrev main_v82 : Ref sig .tc := ⟨.hbm, 193, rfl⟩
abbrev main_v83 : Ref sig .tc := ⟨.hbm, 194, rfl⟩
abbrev main_v84 : Ref sig .tc := ⟨.hbm, 195, rfl⟩
abbrev main_v85 : Ref sig .tc := ⟨.hbm, 196, rfl⟩
abbrev main_v86 : Ref sig .tc := ⟨.hbm, 197, rfl⟩
abbrev main_cst : Ref sig .tc := ⟨.hbm, 198, rfl⟩
abbrev main_call6_v0 : Ref sig .tc := ⟨.hbm, 199, rfl⟩
abbrev main_call6_v1 : Ref sig .tc := ⟨.hbm, 200, rfl⟩
abbrev main_call6_v2 : Ref sig .tc := ⟨.hbm, 201, rfl⟩
abbrev main_v87 : Ref sig .tc := ⟨.hbm, 202, rfl⟩
abbrev main_v88 : Ref sig .tc := ⟨.hbm, 203, rfl⟩
abbrev main_v89 : Ref sig .tc := ⟨.hbm, 204, rfl⟩
abbrev main_cst_17 : Ref sig .tc := ⟨.hbm, 205, rfl⟩
abbrev main_v90 : Ref sig .tc := ⟨.hbm, 206, rfl⟩
abbrev main_c_18 : Ref sig .tc := ⟨.hbm, 207, rfl⟩
abbrev main_v91 : Ref sig .tc := ⟨.hbm, 208, rfl⟩
abbrev main_v92 : Ref sig .tc := ⟨.hbm, 209, rfl⟩
abbrev main_c_19 : Ref sig .tc := ⟨.hbm, 210, rfl⟩
abbrev main_v93 : Ref sig .tc := ⟨.hbm, 211, rfl⟩
abbrev main_v94 : Ref sig .tc := ⟨.hbm, 212, rfl⟩
abbrev main_v95 : Ref sig .tc := ⟨.hbm, 213, rfl⟩
abbrev main_v96 : Ref sig .tc := ⟨.hbm, 214, rfl⟩
abbrev main_v97 : Ref sig .tc := ⟨.hbm, 215, rfl⟩
abbrev main_v98 : Ref sig .tc := ⟨.hbm, 216, rfl⟩
abbrev main_v99 : Ref sig .tc := ⟨.hbm, 217, rfl⟩
abbrev main_c_20 : Ref sig .tc := ⟨.hbm, 218, rfl⟩
abbrev main_v100 : Ref sig .tc := ⟨.hbm, 219, rfl⟩
abbrev main_v101 : Ref sig .tc := ⟨.hbm, 220, rfl⟩
abbrev main_v102 : Ref sig .tc := ⟨.hbm, 221, rfl⟩
abbrev main_v103 : Ref sig .tc := ⟨.hbm, 222, rfl⟩
abbrev main_v104 : Ref sig .tc := ⟨.hbm, 223, rfl⟩
abbrev main_c_21 : Ref sig .tc := ⟨.hbm, 224, rfl⟩
abbrev main_v105 : Ref sig .tc := ⟨.hbm, 225, rfl⟩
abbrev main_v106 : Ref sig .tc := ⟨.hbm, 226, rfl⟩
abbrev main_v107 : Ref sig .tc := ⟨.hbm, 227, rfl⟩
abbrev main_v108 : Ref sig .tc := ⟨.hbm, 228, rfl⟩
abbrev main_v109 : Ref sig .tc := ⟨.hbm, 229, rfl⟩
abbrev main_cst_22 : Ref sig .tc := ⟨.hbm, 230, rfl⟩
abbrev main_v110 : Ref sig .tc := ⟨.hbm, 231, rfl⟩
abbrev main_v111 : Ref sig .tc := ⟨.hbm, 232, rfl⟩
abbrev main_v112 : Ref sig .tc := ⟨.hbm, 233, rfl⟩
abbrev main_v113 : Ref sig .tc := ⟨.hbm, 234, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S4000000x2_S4000000x1_0_0 : S4000000x2.Slices ![0, 0] S4000000x1
  shapeCasts_S4000000x1_S4000000 : S4000000x1.ShapeCasts S4000000
  slices_S4000000x2_S4000000x1_0_1 : S4000000x2.Slices ![0, 1] S4000000x1
  slices_S500000x4_S500000x1_0_1 : S500000x4.Slices ![0, 1] S500000x1
  shapeCasts_S500000x1_S500000 : S500000x1.ShapeCasts S500000
  slices_S500000x4_S500000x1_0_0 : S500000x4.Slices ![0, 0] S500000x1
  bcast_S_S500000 : S_.BroadcastsInDim S500000 (![] : Fin 0 → Fin S500000.rank)
  natLt_1_32 : 1 < 32
  slices_S500000x4_S500000x1_0_2 : S500000x4.Slices ![0, 2] S500000x1
  slices_S500000x4_S500000x1_0_3 : S500000x4.Slices ![0, 3] S500000x1
  transposes_S500000x3_S3x500000_1_0 : S500000x3.Transposes [1, 0] S3x500000
  pads_S4000000_S4063232_0632320 : S4000000.Pads (![0] : Fin 1 → Nat) ![63232] ![0] S4063232
  h_S_ : 0 < S_.numel
  bcast_S_S4063232 : S_.BroadcastsInDim S4063232 (![] : Fin 0 → Fin S4063232.rank)
  bcast_S4063232_S4063232x1_0 : S4063232.BroadcastsInDim S4063232x1 (![0] : Fin 1 → Fin S4063232x1.rank)
  bcast_S_S4063232x1 : S_.BroadcastsInDim S4063232x1 (![] : Fin 0 → Fin S4063232x1.rank)
  bcast_S1_S1x1_1 : S1.BroadcastsInDim S1x1 (![1] : Fin 1 → Fin S1x1.rank)
  bcast_S1x1_S4063232x1_0_1 : S1x1.BroadcastsInDim S4063232x1 (![0, 1] : Fin 2 → Fin S4063232x1.rank)
  reducesTo_S4063232x1_S4063232_d1 : S4063232x1.ReducesTo [1] S4063232
  bcast_S4063232_S3x4063232_1 : S4063232.BroadcastsInDim S3x4063232 (![1] : Fin 1 → Fin S3x4063232.rank)
  bcast_S_S3x4063232 : S_.BroadcastsInDim S3x4063232 (![] : Fin 0 → Fin S3x4063232.rank)
  slices_S4063232_S4000000_0 : S4063232.Slices ![0] S4000000
  shapeCasts_S4063232_S31744x128 : S4063232.ShapeCasts S31744x128
  shapeCasts_S3x4063232_S3x31744x128 : S3x4063232.ShapeCasts S3x31744x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S3x1024x128_S3x1024x128_0_0_0 : ∀ a, (![0, 0, 0] : Fin 3 → Nat) a + S3x1024x128.size a ≤ S3x1024x128.size a
  h_S3x1024x128 : 0 < S3x1024x128.numel
  shapeCasts_S3x1024x128_S3x1024x128 : S3x1024x128.ShapeCasts S3x1024x128
  reduces_S3x1024x128_S1024x128 : S3x1024x128.Reduces [0] S1024x128
  shapeCasts_S31744x128_S4063232 : S31744x128.ShapeCasts S4063232
  bcast_S_S4000000 : S_.BroadcastsInDim S4000000 (![] : Fin 0 → Fin S4000000.rank)
  bcast_S_S4 : S_.BroadcastsInDim S4 (![] : Fin 0 → Fin S4.rank)
  bcast_S4_S1x4_1 : S4.BroadcastsInDim S1x4 (![1] : Fin 1 → Fin S1x4.rank)
  bcast_S4000000_S4000000x1_0 : S4000000.BroadcastsInDim S4000000x1 (![0] : Fin 1 → Fin S4000000x1.rank)
  bcast_S4000000x1_S4000000x4_0_1 : S4000000x1.BroadcastsInDim S4000000x4 (![0, 1] : Fin 2 → Fin S4000000x4.rank)
  bcast_S1x4_S4000000x4_0_1 : S1x4.BroadcastsInDim S4000000x4 (![0, 1] : Fin 2 → Fin S4000000x4.rank)
  bcast_S_S4000000x4 : S_.BroadcastsInDim S4000000x4 (![] : Fin 0 → Fin S4000000x4.rank)
  concatenates_S4000000_S4000000_S8000000_d0 : Shape.Concatenates [S4000000, S4000000] S8000000 0
  concatenates_S4000000x4_S4000000x4_S8000000x4_d0 : Shape.Concatenates [S4000000x4, S4000000x4] S8000000x4 0
  bcast_S_S500000x4 : S_.BroadcastsInDim S500000x4 (![] : Fin 0 → Fin S500000x4.rank)
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S_S16000x4 : S_.BroadcastsInDim S16000x4 (![] : Fin 0 → Fin S16000x4.rank)
  bcast_S500000_S500000x1_0 : S500000.BroadcastsInDim S500000x1 (![0] : Fin 1 → Fin S500000x1.rank)
  shapeCasts_S16000x4_S8x4x500x4 : S16000x4.ShapeCasts S8x4x500x4
  gather_S500000_S4063232x1_S4063232_n_0_n_n_0_1_1_wf : GatherDims.WF S500000 S4063232x1 S4063232 [] [0] [] [0] [] 1 ![1]
  gather_S3x500000_S4063232x1_S3x4063232_0_1_n_n_1_1_31_wf : GatherDims.WF S3x500000 S4063232x1 S3x4063232 [0] [1] [] [1] [] 1 ![3, 1]
  scatter_S500000x4_S8000000x1_S8000000x4_1_0_0_1_wf : ScatterDims.WF S500000x4 S8000000x1 S8000000x4 [1] [0] [0] 1
  scatter_S16000x4_S500000x1_S500000x4_1_0_0_1_wf : ScatterDims.WF S16000x4 S500000x1 S500000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S31744x128.size a
  hwx0_0 : ∀ i : grid0.Coords, EltTy.bits .i32 = 32 ∨ (Rect.block (s := S31744x128) S1024x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S31744x128.size a
  hwx0_1 : ∀ i : grid0.Coords, EltTy.bits .i32 = 32 ∨ (Rect.block (s := S31744x128) S1024x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x1024x128.size a ≤ S3x31744x128.size a
  hwx0_2 : ∀ i : grid0.Coords, EltTy.bits .f32 = 32 ∨ (Rect.block (s := S3x31744x128) S3x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x1024x128.size a ≤ S3x31744x128.size a
  hwx0_3 : ∀ i : grid0.Coords, EltTy.bits .f32 = 32 ∨ (Rect.block (s := S3x31744x128) S3x1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S31744x128.size a
  hwx0_4 : ∀ i : grid0.Coords, EltTy.bits .f32 = 32 ∨ (Rect.block (s := S31744x128) S1024x128.size (cc0_transform_4 i) (hinb0_4 i)).WholeWords (EltTy.packing .f32)

variable [Facts₀]

def gather_S500000_S4063232x1_S4063232_n_0_n_n_0_1_1 : GatherDims S500000 S4063232x1 S4063232 where
  offsetDims := []
  collapsedSliceDims := [0]
  operandBatchingDims := []
  startIndicesBatchingDims := []
  startIndexMap := [0]
  indexVectorDim := 1
  sliceSizes := ![1]
  wf := gather_S500000_S4063232x1_S4063232_n_0_n_n_0_1_1_wf
def gather_S3x500000_S4063232x1_S3x4063232_0_1_n_n_1_1_31 : GatherDims S3x500000 S4063232x1 S3x4063232 where
  offsetDims := [0]
  collapsedSliceDims := [1]
  operandBatchingDims := []
  startIndicesBatchingDims := []
  startIndexMap := [1]
  indexVectorDim := 1
  sliceSizes := ![3, 1]
  wf := gather_S3x500000_S4063232x1_S3x4063232_0_1_n_n_1_1_31_wf
def scatter_S500000x4_S8000000x1_S8000000x4_1_0_0_1 : ScatterDims S500000x4 S8000000x1 S8000000x4 where
  updateWindowDims := [1]
  insertedWindowDims := [0]
  scatterDimsToOperandDims := [0]
  indexVectorDim := 1
  wf := scatter_S500000x4_S8000000x1_S8000000x4_1_0_0_1_wf
def scatter_S16000x4_S500000x1_S500000x4_1_0_0_1 : ScatterDims S16000x4 S500000x1 S500000x4 where
  updateWindowDims := [1]
  insertedWindowDims := [0]
  scatterDimsToOperandDims := [0]
  indexVectorDim := 1
  wf := scatter_S16000x4_S500000x1_S500000x4_1_0_0_1_wf

abbrev win0_0 : Pipeline.Window sig grid0 :=
  Pipeline.Window.ofSpec (Memref.whole main_v44) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S3x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S3x1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v48) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S500000x3 : Shape := ⟨2, ![500000, 3]⟩
abbrev S500000x4 : Shape := ⟨2, ![500000, 4]⟩
abbrev S4000000x2 : Shape := ⟨2, ![4000000, 2]⟩
abbrev S500000 : Shape := ⟨1, ![500000]⟩
abbrev S4000000x1 : Shape := ⟨2, ![4000000, 1]⟩
abbrev S4000000 : Shape := ⟨1, ![4000000]⟩
abbrev S_ : Shape := ⟨0, ![]⟩
abbrev S4000000x3 : Shape := ⟨2, ![4000000, 3]⟩
abbrev S4000000x4 : Shape := ⟨2, ![4000000, 4]⟩
abbrev S500000x1 : Shape := ⟨2, ![500000, 1]⟩
abbrev S16000x4 : Shape := ⟨2, ![16000, 4]⟩
abbrev S8x4x500x4 : Shape := ⟨4, ![8, 4, 500, 4]⟩

abbrev nBuf : Space → Nat
  | .hbm => 202
  | .vmem => 0
  | .smem => 0
  | _ => 0

abbrev hbmTy0_0 (i : Nat) : BufTy := match i % 128 with
  | 0 => ⟨S500000x3, .f32⟩
  | 1 => ⟨S500000x4, .i32⟩
  | 2 => ⟨S4000000x2, .i32⟩
  | 3 => ⟨S500000x4, .i1⟩
  | 4 => ⟨S500000, .f32⟩
  | 5 => ⟨S4000000x1, .i32⟩
  | 6 => ⟨S4000000, .i32⟩
  | 7 => ⟨S4000000x1, .i32⟩
  | 8 => ⟨S4000000, .i32⟩
  | 9 => ⟨S_, .i32⟩
  | 10 => ⟨S4000000, .i32⟩
  | 11 => ⟨S4000000, .i1⟩
  | 12 => ⟨S_, .i32⟩
  | 13 => ⟨S4000000, .i32⟩
  | 14 => ⟨S4000000, .i32⟩
  | 15 => ⟨S4000000, .i32⟩
  | 16 => ⟨S_, .i32⟩
  | 17 => ⟨S4000000, .i32⟩
  | 18 => ⟨S4000000, .i32⟩
  | 19 => ⟨S4000000x1, .i32⟩
  | 20 => ⟨S4000000x1, .i32⟩
  | 21 => ⟨S4000000x2, .i32⟩
  | 22 => ⟨S4000000, .i32⟩
  | 23 => ⟨S_, .i32⟩
  | 24 => ⟨S4000000, .i32⟩
  | 25 => ⟨S4000000, .i1⟩
  | 26 => ⟨S_, .i32⟩
  | 27 => ⟨S4000000, .i32⟩
  | 28 => ⟨S4000000, .i1⟩
  | 29 => ⟨S_, .i32⟩
  | 30 => ⟨S4000000, .i32⟩
  | 31 => ⟨S4000000, .i32⟩
  | 32 => ⟨S4000000, .i32⟩
  | 33 => ⟨S_, .i32⟩
  | 34 => ⟨S4000000, .i32⟩
  | 35 => ⟨S4000000, .i32⟩
  | 36 => ⟨S4000000x1, .i32⟩
  | 37 => ⟨S4000000x1, .i32⟩
  | 38 => ⟨S4000000x2, .i32⟩
  | 39 => ⟨S4000000, .i32⟩
  | 40 => ⟨S_, .i32⟩
  | 41 => ⟨S4000000, .i32⟩
  | 42 => ⟨S4000000, .i1⟩
  | 43 => ⟨S4000000, .i1⟩
  | 44 => ⟨S_, .i32⟩
  | 45 => ⟨S4000000, .i32⟩
  | 46 => ⟨S4000000, .i1⟩
  | 47 => ⟨S_, .i32⟩
  | 48 => ⟨S4000000, .i32⟩
  | 49 => ⟨S4000000, .i32⟩
  | 50 => ⟨S4000000, .i32⟩
  | 51 => ⟨S4000000x1, .i32⟩
  | 52 => ⟨S4000000x3, .f32⟩
  | 53 => ⟨S_, .i32⟩
  | 54 => ⟨S4000000, .i32⟩
  | 55 => ⟨S4000000, .i1⟩
  | 56 => ⟨S_, .i32⟩
  | 57 => ⟨S4000000, .i32⟩
  | 58 => ⟨S4000000, .i32⟩
  | 59 => ⟨S4000000, .i32⟩
  | 60 => ⟨S4000000x1, .i32⟩
  | 61 => ⟨S4000000x3, .f32⟩
  | 62 => ⟨S4000000x3, .f32⟩
  | 63 => ⟨S_, .f32⟩
  | 64 => ⟨S4000000x3, .f32⟩
  | 65 => ⟨S4000000x3, .f32⟩
  | 66 => ⟨S4000000x3, .f32⟩
  | 67 => ⟨S_, .f32⟩
  | 68 => ⟨S4000000, .f32⟩
  | 69 => ⟨S4000000, .f32⟩
  | 70 => ⟨S_, .i32⟩
  | 71 => ⟨S4000000, .i32⟩
  | 72 => ⟨S4000000, .i1⟩
  | 73 => ⟨S_, .i32⟩
  | 74 => ⟨S4000000, .i32⟩
  | 75 => ⟨S4000000, .i32⟩
  | 76 => ⟨S4000000, .i32⟩
  | 77 => ⟨S_, .i32⟩
  | 78 => ⟨S4000000, .i32⟩
  | 79 => ⟨S4000000, .i32⟩
  | 80 => ⟨S4000000x1, .i32⟩
  | 81 => ⟨S4000000x1, .i32⟩
  | 82 => ⟨S4000000x2, .i32⟩
  | 83 => ⟨S4000000, .i32⟩
  | 84 => ⟨S_, .i32⟩
  | 85 => ⟨S4000000, .i32⟩
  | 86 => ⟨S4000000, .i1⟩
  | 87 => ⟨S_, .i32⟩
  | 88 => ⟨S4000000, .i32⟩
  | 89 => ⟨S4000000, .i32⟩
  | 90 => ⟨S4000000, .i32⟩
  | 91 => ⟨S_, .i32⟩
  | 92 => ⟨S4000000, .i32⟩
  | 93 => ⟨S4000000, .i32⟩
  | 94 => ⟨S4000000x1, .i32⟩
  | 95 => ⟨S4000000x1, .i32⟩
  | 96 => ⟨S4000000x2, .i32⟩
  | 97 => ⟨S4000000, .i32⟩
  | 98 => ⟨S4000000, .i32⟩
  | 99 => ⟨S4000000, .i32⟩
  | 100 => ⟨S4000000, .f32⟩
  | 101 => ⟨S_, .f32⟩
  | 102 => ⟨S4000000, .f32⟩
  | 103 => ⟨S4000000, .i1⟩
  | 104 => ⟨S4000000, .i1⟩
  | 105 => ⟨S_, .f32⟩
  | 106 => ⟨S_, .f32⟩
  | 107 => ⟨S4000000, .f32⟩
  | 108 => ⟨S4000000, .f32⟩
  | 109 => ⟨S4000000, .f32⟩
  | 110 => ⟨S4000000, .f32⟩
  | 111 => ⟨S_, .f32⟩
  | 112 => ⟨S4000000, .f32⟩
  | 113 => ⟨S4000000, .f32⟩
  | 114 => ⟨S_, .f32⟩
  | 115 => ⟨S4000000, .f32⟩
  | 116 => ⟨S4000000, .f32⟩
  | 117 => ⟨S_, .f32⟩
  | 118 => ⟨S4000000, .f32⟩
  | 119 => ⟨S4000000, .f32⟩
  | 120 => ⟨S_, .f32⟩
  | 121 => ⟨S4000000, .f32⟩
  | 122 => ⟨S4000000, .f32⟩
  | 123 => ⟨S4000000, .f32⟩
  | 124 => ⟨S_, .f32⟩
  | 125 => ⟨S4000000, .f32⟩
  | 126 => ⟨S4000000, .f32⟩
  | 127 => ⟨S4000000, .f32⟩
  | _ => ⟨S500000x3, .f32⟩

abbrev hbmTy0_1 (i : Nat) : BufTy := match i % 128 with
  | 0 => ⟨S_, .f32⟩
  | 1 => ⟨S4000000, .f32⟩
  | 2 => ⟨S4000000, .f32⟩
  | 3 => ⟨S_, .f32⟩
  | 4 => ⟨S_, .f32⟩
  | 5 => ⟨S4000000, .f32⟩
  | 6 => ⟨S4000000, .f32⟩
  | 7 => ⟨S4000000x1, .i1⟩
  | 8 => ⟨S_, .i32⟩
  | 9 => ⟨S4000000, .i32⟩
  | 10 => ⟨S4000000, .i1⟩
  | 11 => ⟨S_, .i32⟩
  | 12 => ⟨S4000000, .i32⟩
  | 13 => ⟨S4000000, .i32⟩
  | 14 => ⟨S4000000, .i32⟩
  | 15 => ⟨S4000000x1, .i32⟩
  | 16 => ⟨S4000000x4, .i1⟩
  | 17 => ⟨S4000000x4, .i1⟩
  | 18 => ⟨S4000000x4, .i1⟩
  | 19 => ⟨S_, .i32⟩
  | 20 => ⟨S4000000, .i32⟩
  | 21 => ⟨S4000000, .i1⟩
  | 22 => ⟨S_, .i32⟩
  | 23 => ⟨S4000000, .i32⟩
  | 24 => ⟨S4000000, .i32⟩
  | 25 => ⟨S4000000, .i32⟩
  | 26 => ⟨S4000000x1, .i32⟩
  | 27 => ⟨S4000000x4, .i1⟩
  | 28 => ⟨S4000000x4, .i1⟩
  | 29 => ⟨S4000000x1, .f32⟩
  | 30 => ⟨S_, .f32⟩
  | 31 => ⟨S_, .f32⟩
  | 32 => ⟨S4000000x4, .f32⟩
  | 33 => ⟨S4000000x4, .f32⟩
  | 34 => ⟨S4000000x4, .f32⟩
  | 35 => ⟨S_, .f32⟩
  | 36 => ⟨S500000x4, .f32⟩
  | 37 => ⟨S_, .i32⟩
  | 38 => ⟨S4000000, .i32⟩
  | 39 => ⟨S4000000, .i1⟩
  | 40 => ⟨S_, .i32⟩
  | 41 => ⟨S4000000, .i32⟩
  | 42 => ⟨S4000000, .i32⟩
  | 43 => ⟨S4000000, .i32⟩
  | 44 => ⟨S4000000x1, .i32⟩
  | 45 => ⟨S500000x4, .f32⟩
  | 46 => ⟨S_, .i32⟩
  | 47 => ⟨S4000000, .i32⟩
  | 48 => ⟨S4000000, .i1⟩
  | 49 => ⟨S_, .i32⟩
  | 50 => ⟨S4000000, .i32⟩
  | 51 => ⟨S4000000, .i32⟩
  | 52 => ⟨S4000000, .i32⟩
  | 53 => ⟨S4000000x1, .i32⟩
  | 54 => ⟨S500000x4, .f32⟩
  | 55 => ⟨S500000x1, .i32⟩
  | 56 => ⟨S500000, .i32⟩
  | 57 => ⟨S_, .i32⟩
  | 58 => ⟨S500000, .i32⟩
  | 59 => ⟨S500000, .i32⟩
  | 60 => ⟨S500000x1, .i32⟩
  | 61 => ⟨S500000, .i32⟩
  | 62 => ⟨S500000, .i32⟩
  | 63 => ⟨S_, .i32⟩
  | 64 => ⟨S500000, .i32⟩
  | 65 => ⟨S500000, .i32⟩
  | 66 => ⟨S500000x1, .i32⟩
  | 67 => ⟨S500000, .i32⟩
  | 68 => ⟨S500000, .i32⟩
  | 69 => ⟨S_, .f32⟩
  | 70 => ⟨S16000x4, .f32⟩
  | 71 => ⟨S500000x1, .i32⟩
  | 72 => ⟨S16000x4, .f32⟩
  | 73 => ⟨S8x4x500x4, .f32⟩
  | _ => ⟨S500000x3, .f32⟩

abbrev hbmTy (i : Nat) : BufTy := match i / 128 with
  | 0 => hbmTy0_0 i
  | 1 => hbmTy0_1 i
  | _ => ⟨S500000x3, .f32⟩

abbrev bufTy : (tb : Table) → Fin (tcTables nBuf tb) → BufTy
  | .hbm, ⟨i, _⟩ => hbmTy i
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_9 : Ref sig .tc := ⟨.hbm, 53, rfl⟩
abbrev main_v38 : Ref sig .tc := ⟨.hbm, 54, rfl⟩
abbrev main_v39 : Ref sig .tc := ⟨.hbm, 55, rfl⟩
abbrev main_c_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst : Ref sig .tc := ⟨.hbm, 63, rfl⟩
abbrev main_v46 : Ref sig .tc := ⟨.hbm, 64, rfl⟩
abbrev main_v47 : Ref sig .tc := ⟨.hbm, 65, rfl⟩
abbrev main_call0_v0 : Ref sig .tc := ⟨.hbm, 66, rfl⟩
abbrev main_call0_cst : Ref sig .tc := ⟨.hbm, 67, rfl⟩
abbrev main_call0_v1 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_c_12 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_14 : Ref sig .tc := ⟨.hbm, 84, rfl⟩
abbrev main_v60 : Ref sig .tc := ⟨.hbm, 85, rfl⟩
abbrev main_v61 : Ref sig .tc := ⟨.hbm, 86, rfl⟩
abbrev main_c_15 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_16 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_17 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_18 : Ref sig .tc := ⟨.hbm, 105, rfl⟩
abbrev main_call1_v0 : Ref sig .tc := ⟨.hbm, 106, rfl⟩
abbrev main_call1_v1 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_19 : Ref sig .tc := ⟨.hbm, 111, rfl⟩
abbrev main_v80 : Ref sig .tc := ⟨.hbm, 112, rfl⟩
abbrev main_v81 : Ref sig .tc := ⟨.hbm, 113, rfl⟩
abbrev main_cst_20 : Ref sig .tc := ⟨.hbm, 114, rfl⟩
abbrev main_v82 : Ref sig .tc := ⟨.hbm, 115, rfl⟩
abbrev main_v83 : Ref sig .tc := ⟨.hbm, 116, rfl⟩
abbrev main_cst_21 : Ref sig .tc := ⟨.hbm, 117, rfl⟩
abbrev main_v84 : Ref sig .tc := ⟨.hbm, 118, rfl⟩
abbrev main_v85 : Ref sig .tc := ⟨.hbm, 119, rfl⟩
abbrev main_cst_22 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_23 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_24 : Ref sig .tc := ⟨.hbm, 128, rfl⟩
abbrev main_v92 : Ref sig .tc := ⟨.hbm, 129, rfl⟩
abbrev main_v93 : Ref sig .tc := ⟨.hbm, 130, rfl⟩
abbrev main_cst_25 : Ref sig .tc := ⟨.hbm, 131, rfl⟩
abbrev main_call2_v0 : Ref sig .tc := ⟨.hbm, 132, rfl⟩
abbrev main_call2_v1 : Ref sig .tc := ⟨.hbm, 133, rfl⟩
abbrev main_v94 : Ref sig .tc := ⟨.hbm, 134, rfl⟩
abbrev main_v95 : Ref sig .tc := ⟨.hbm, 135, rfl⟩
abbrev main_c_26 : Ref sig .tc := ⟨.hbm, 136, rfl⟩
abbrev main_v96 : Ref sig .tc := ⟨.hbm, 137, rfl⟩
abbrev main_v97 : Ref sig .tc := ⟨.hbm, 138, rfl⟩
abbrev main_c_27 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_c_28 : Ref sig .tc := ⟨.hbm, 147, rfl⟩
abbrev main_v105 : Ref sig .tc := ⟨.hbm, 148, rfl⟩
abbrev main_v106 : Ref sig .tc := ⟨.hbm, 149, rfl⟩
abbrev main_c_29 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_30 : Ref sig .tc := ⟨.hbm, 158, rfl⟩
abbrev main_call3_v0 : Ref sig .tc := ⟨.hbm, 159, rfl⟩
abbrev main_call3_v1 : Ref sig .tc := ⟨.hbm, 160, rfl⟩
abbrev main_call3_v2 : Ref sig .tc := ⟨.hbm, 161, rfl⟩
abbrev main_v114 : Ref sig .tc := ⟨.hbm, 162, rfl⟩
abbrev main_cst_31 : Ref sig .tc := ⟨.hbm, 163, rfl⟩
abbrev main_v115 : Ref sig .tc := ⟨.hbm, 164, rfl⟩
abbrev main_c_32 : Ref sig .tc := ⟨.hbm, 165, rfl⟩
abbrev main_v116 : Ref sig .tc := ⟨.hbm, 166, rfl⟩
abbrev main_v117 : Ref sig .tc := ⟨.hbm, 167, rfl⟩
abbrev main_c_33 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_c_34 : Ref sig .tc := ⟨.hbm, 174, rfl⟩
abbrev main_v123 : Ref sig .tc := ⟨.hbm, 175, rfl⟩
abbrev main_v124 : Ref sig .tc := ⟨.hbm, 176, rfl⟩
abbrev main_c_35 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_c_36 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_c_37 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_cst_38 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩

abbrev nD : Nat := 1
abbrev τ : Topo := Topo.v7x

variable {F : FTy → Type} [FloatOps F]

class Facts₀ : Prop where
  slices_S4000000x2_S4000000x1_0_0 : S4000000x2.Slices ![0, 0] S4000000x1
  shapeCasts_S4000000x1_S4000000 : S4000000x1.ShapeCasts S4000000
  slices_S4000000x2_S4000000x1_0_1 : S4000000x2.Slices ![0, 1] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x1_S4000000x1_S4000000x2_d1 : Shape.Concatenates [S4000000x1, S4000000x1] S4000000x2 1
  bcast_S_S4000000x3 : S_.BroadcastsInDim S4000000x3 (![] : Fin 0 → Fin S4000000x3.rank)
  reducesTo_S4000000x3_S4000000_d1 : S4000000x3.ReducesTo [1] S4000000
  h_S_ : 0 < S_.numel
  bcast_S4000000x1_S4000000x4_0_1 : S4000000x1.BroadcastsInDim S4000000x4 (![0, 1] : Fin 2 → Fin S4000000x4.rank)
  bcast_S_S4000000x4 : S_.BroadcastsInDim S4000000x4 (![] : Fin 0 → Fin S4000000x4.rank)
  bcast_S_S500000x4 : S_.BroadcastsInDim S500000x4 (![] : Fin 0 → Fin S500000x4.rank)
  slices_S500000x4_S500000x1_0_2 : S500000x4.Slices ![0, 2] S500000x1
  shapeCasts_S500000x1_S500000 : S500000x1.ShapeCasts S500000
  bcast_S_S500000 : S_.BroadcastsInDim S500000 (![] : Fin 0 → Fin S500000.rank)
  slices_S500000x4_S500000x1_0_3 : S500000x4.Slices ![0, 3] S500000x1
  slices_S500000x4_S500000x1_0_1 : S500000x4.Slices ![0, 1] S500000x1
  bcast_S_S16000x4 : S_.BroadcastsInDim S16000x4 (![] : Fin 0 → Fin S16000x4.rank)
  bcast_S500000_S500000x1_0 : S500000.BroadcastsInDim S500000x1 (![0] : Fin 1 → Fin S500000x1.rank)
  shapeCasts_S16000x4_S8x4x500x4 : S16000x4.ShapeCasts S8x4x500x4
  gather_S500000x4_S4000000x2_S4000000_n_01_n_n_01_1_11_wf : GatherDims.WF S500000x4 S4000000x2 S4000000 [] [0, 1] [] [0, 1] [] 1 ![1, 1]
  gather_S500000x3_S4000000x1_S4000000x3_1_0_n_n_0_1_13_wf : GatherDims.WF S500000x3 S4000000x1 S4000000x3 [1] [0] [] [0] [] 1 ![1, 3]
  gather_S500000x4_S4000000x1_S4000000x4_1_0_n_n_0_1_14_wf : GatherDims.WF S500000x4 S4000000x1 S4000000x4 [1] [0] [] [0] [] 1 ![1, 4]
  scatter_S500000x4_S4000000x1_S4000000x4_1_0_0_1_wf : ScatterDims.WF S500000x4 S4000000x1 S4000000x4 [1] [0] [0] 1
  scatter_S16000x4_S500000x1_S500000x4_1_0_0_1_wf : ScatterDims.WF S16000x4 S500000x1 S500000x4 [1] [0] [0] 1

variable [Facts₀]

def gather_S500000x4_S4000000x2_S4000000_n_01_n_n_01_1_11 : GatherDims S500000x4 S4000000x2 S4000000 where
  offsetDims := []
  collapsedSliceDims := [0, 1]
  operandBatchingDims := []
  startIndicesBatchingDims := []
  startIndexMap := [0, 1]
  indexVectorDim := 1
  sliceSizes := ![1, 1]
  wf := gather_S500000x4_S4000000x2_S4000000_n_01_n_n_01_1_11_wf
def gather_S500000x3_S4000000x1_S4000000x3_1_0_n_n_0_1_13 : GatherDims S500000x3 S4000000x1 S4000000x3 where
  offsetDims := [1]
  collapsedSliceDims := [0]
  operandBatchingDims := []
  startIndicesBatchingDims := []
  startIndexMap := [0]
  indexVectorDim := 1
  sliceSizes := ![1, 3]
  wf := gather_S500000x3_S4000000x1_S4000000x3_1_0_n_n_0_1_13_wf
def gather_S500000x4_S4000000x1_S4000000x4_1_0_n_n_0_1_14 : GatherDims S500000x4 S4000000x1 S4000000x4 where
  offsetDims := [1]
  collapsedSliceDims := [0]
  operandBatchingDims := []
  startIndicesBatchingDims := []
  startIndexMap := [0]
  indexVectorDim := 1
  sliceSizes := ![1, 4]
  wf := gather_S500000x4_S4000000x1_S4000000x4_1_0_n_n_0_1_14_wf
def scatter_S500000x4_S4000000x1_S4000000x4_1_0_0_1 : ScatterDims S500000x4 S4000000x1 S4000000x4 where
  updateWindowDims := [1]
  insertedWindowDims := [0]
  scatterDimsToOperandDims := [0]
  indexVectorDim := 1
  wf := scatter_S500000x4_S4000000x1_S4000000x4_1_0_0_1_wf
def scatter_S16000x4_S500000x1_S500000x4_1_0_0_1 : ScatterDims S16000x4 S500000x1 S500000x4 where
  updateWindowDims := [1]
  insertedWindowDims := [0]
  scatterDimsToOperandDims := [0]
  indexVectorDim := 1
  wf := scatter_S16000x4_S500000x1_S500000x4_1_0_0_1_wf

class Facts : Prop extends Facts₀ where

variable [Facts]
-- ==== Proof.KFrame.lean ====
/-
  The run of the pair-energy program around its one pipelined region, at any float instance.

  The program is a straight line: host operations that pack each atom's residue number, sulfur flag and
  alternative flags into one word and gather the words and the transposed coordinates at the padded pair
  indices; one region over 31 grid points, each point reading a 1024 x 128 block of the two gathered word
  arrays and a 3 x 1024 x 128 block of the two gathered coordinate arrays and writing one 1024 x 128 block of
  pair energies; then host operations that unpack the flags, mask the energies, scatter them onto both
  endpoints of every pair and sum the atoms into residues.

  At every grid point the body loads its four input blocks whole and stores one pointwise function of them
  over the whole output block, so the output's staging buffer after the body is that function of the
  point's input blocks (`blockOut`). The program's argument arrays are written by no host operation and
  staged by no window, so they end as launched; every other buffer ends at the value the later host
  operations compute from the region's result and the buffers the earlier ones wrote (`run_main`).
-/
import proofs.«400768_j49443663511892_3_alg».proof.Proof.Gen.Kernel.Launch
import proofs.«400768_j49443663511892_3_alg».proof.Proof.Gen.Kernel.Skeleton
import proofs.«400768_j49443663511892_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before and after the region -/

/-- Core `c`'s buffer contents when the region is entered: the launch contents after the host operations before it. -/
abbrev V0 (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is: the host operations before the region, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main
    [hostOps0, hostOps0_1, hostOps0_2, hostOps0_3, hostOps0_4, hostOps0_5, hostOps0_6, hostOps0_7, hostOps0_8]
    [hostOps1, hostOps1_1, hostOps1_2]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩)
    main_chain

/-- The operations after the region touch the region's arrays and the buffers that bypass it only. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Every host operation writes its own result buffer only; this closes "no operation before the region writes `b`"
    for a buffer `b` that is no operation's result, one inequality of references per operation. -/
macro "prefix_never_writes" : tactic => `(tactic| (
  simp only [hostOps0, hostOps0_1, hostOps0_2, hostOps0_3, hostOps0_4, hostOps0_5, hostOps0_6, hostOps0_7, hostOps0_8,
    List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))
/-- The same for the operations after the region. -/
macro "tail_never_writes" : tactic => `(tactic| (
  simp only [hostOps1, hostOps1_1, hostOps1_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

set_option maxHeartbeats 16000000 in
/-- No operation after the region writes an array the region stages. -/
theorem tail_keeps (w : Fin 5) : (List.flatten [hostOps1, hostOps1_1, hostOps1_2] : List (HloOp τ sig (Elt F))).Forall
    fun op => Proc.devRef .tc (Pipeline.arrRef spec0 w) ∉ op.writes := by
  fin_cases w
  · show (List.flatten [hostOps1, hostOps1_1, hostOps1_2] : List (HloOp τ sig (Elt F))).Forall fun op => Proc.devRef .tc main_v44 ∉ op.writes
    tail_never_writes
  · show (List.flatten [hostOps1, hostOps1_1, hostOps1_2] : List (HloOp τ sig (Elt F))).Forall fun op => Proc.devRef .tc main_v45 ∉ op.writes
    tail_never_writes
  · show (List.flatten [hostOps1, hostOps1_1, hostOps1_2] : List (HloOp τ sig (Elt F))).Forall fun op => Proc.devRef .tc main_v46 ∉ op.writes
    tail_never_writes
  · show (List.flatten [hostOps1, hostOps1_1, hostOps1_2] : List (HloOp τ sig (Elt F))).Forall fun op => Proc.devRef .tc main_v47 ∉ op.writes
    tail_never_writes
  · show (List.flatten [hostOps1, hostOps1_1, hostOps1_2] : List (HloOp τ sig (Elt F))).Forall fun op => Proc.devRef .tc main_v48 ∉ op.writes
    tail_never_writes

theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop w
  exact (List.forall_iff_forall_mem.mp (tail_keeps (F := F) w)) op (List.mem_flatten.mpr ⟨ops, hops, hop⟩)

/-! ## The argument arrays are written by no host operation -/

set_option maxHeartbeats 16000000 in
theorem pre_arg0 : (List.flatten [hostOps0, hostOps0_1, hostOps0_2, hostOps0_3, hostOps0_4, hostOps0_5, hostOps0_6, hostOps0_7, hostOps0_8] : List (HloOp τ sig (Elt F))).Forall
    fun op => Proc.devRef .tc main_arg0 ∉ op.writes := by prefix_never_writes
set_option maxHeartbeats 16000000 in
theorem pre_arg1 : (List.flatten [hostOps0, hostOps0_1, hostOps0_2, hostOps0_3, hostOps0_4, hostOps0_5, hostOps0_6, hostOps0_7, hostOps0_8] : List (HloOp τ sig (Elt F))).Forall
    fun op => Proc.devRef .tc main_arg1 ∉ op.writes := by prefix_never_writes
set_option maxHeartbeats 16000000 in
theorem pre_arg2 : (List.flatten [hostOps0, hostOps0_1, hostOps0_2, hostOps0_3, hostOps0_4, hostOps0_5, hostOps0_6, hostOps0_7, hostOps0_8] : List (HloOp τ sig (Elt F))).Forall
    fun op => Proc.devRef .tc main_arg2 ∉ op.writes := by prefix_never_writes
set_option maxHeartbeats 16000000 in
theorem pre_arg3 : (List.flatten [hostOps0, hostOps0_1, hostOps0_2, hostOps0_3, hostOps0_4, hostOps0_5, hostOps0_6, hostOps0_7, hostOps0_8] : List (HloOp τ sig (Elt F))).Forall
    fun op => Proc.devRef .tc main_arg3 ∉ op.writes := by prefix_never_writes
set_option maxHeartbeats 16000000 in
theorem pre_arg4 : (List.flatten [hostOps0, hostOps0_1, hostOps0_2, hostOps0_3, hostOps0_4, hostOps0_5, hostOps0_6, hostOps0_7, hostOps0_8] : List (HloOp τ sig (Elt F))).Forall
    fun op => Proc.devRef .tc main_arg4 ∉ op.writes := by prefix_never_writes
set_option maxHeartbeats 16000000 in
theorem tail_arg0 : (List.flatten [hostOps1, hostOps1_1, hostOps1_2] : List (HloOp τ sig (Elt F))).Forall
    fun op => Proc.devRef .tc main_arg0 ∉ op.writes := by tail_never_writes
set_option maxHeartbeats 16000000 in
theorem tail_arg1 : (List.flatten [hostOps1, hostOps1_1, hostOps1_2] : List (HloOp τ sig (Elt F))).Forall
    fun op => Proc.devRef .tc main_arg1 ∉ op.writes := by tail_never_writes
set_option maxHeartbeats 16000000 in
theorem tail_arg2 : (List.flatten [hostOps1, hostOps1_1, hostOps1_2] : List (HloOp τ sig (Elt F))).Forall
    fun op => Proc.devRef .tc main_arg2 ∉ op.writes := by tail_never_writes
set_option maxHeartbeats 16000000 in
theorem tail_arg3 : (List.flatten [hostOps1, hostOps1_1, hostOps1_2] : List (HloOp τ sig (Elt F))).Forall
    fun op => Proc.devRef .tc main_arg3 ∉ op.writes := by tail_never_writes
set_option maxHeartbeats 16000000 in
theorem tail_arg4 : (List.flatten [hostOps1, hostOps1_1, hostOps1_2] : List (HloOp τ sig (Elt F))).Forall
    fun op => Proc.devRef .tc main_arg4 ∉ op.writes := by tail_never_writes

theorem V_main_arg0 (c : Dev nD) : V m c main_arg0 = m ((c : Thread nD τ).loc main_arg0) :=
  StableHlo.after_of_forall_not_mem (b := Proc.devRef .tc main_arg0) _ _ (List.forall_iff_forall_mem.mp pre_arg0)
theorem V_main_arg1 (c : Dev nD) : V m c main_arg1 = m ((c : Thread nD τ).loc main_arg1) :=
  StableHlo.after_of_forall_not_mem (b := Proc.devRef .tc main_arg1) _ _ (List.forall_iff_forall_mem.mp pre_arg1)
theorem V_main_arg2 (c : Dev nD) : V m c main_arg2 = m ((c : Thread nD τ).loc main_arg2) :=
  StableHlo.after_of_forall_not_mem (b := Proc.devRef .tc main_arg2) _ _ (List.forall_iff_forall_mem.mp pre_arg2)
theorem V_main_arg3 (c : Dev nD) : V m c main_arg3 = m ((c : Thread nD τ).loc main_arg3) :=
  StableHlo.after_of_forall_not_mem (b := Proc.devRef .tc main_arg3) _ _ (List.forall_iff_forall_mem.mp pre_arg3)
theorem V_main_arg4 (c : Dev nD) : V m c main_arg4 = m ((c : Thread nD τ).loc main_arg4) :=
  StableHlo.after_of_forall_not_mem (b := Proc.devRef .tc main_arg4) _ _ (List.forall_iff_forall_mem.mp pre_arg4)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: every input window
    is fetched at every point and its index never stays put unfetched. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rWords : Rect S1024x128 := Rect.unit (s := S1024x128) ![0, 0] S1024x128.size inb_S1024x128_S1024x128_0_0
abbrev rCoords : Rect S3x1024x128 := Rect.unit (s := S3x1024x128) ![0, 0, 0] S3x1024x128.size inb_S3x1024x128_S3x1024x128_0_0_0

/-- The output window's staging buffer after the body, from the four input blocks: one store over the whole block. -/
def blockOut (x0 x1 : Vec F S1024x128 .i32) (x2 x3 : Vec F S3x1024x128 .f32) : Vec F S1024x128 .f32 :=
  View.canon [⟨rWords, k0_pay1 (k0_pay4 (View.ld x0 rWords) (View.ld x1 rWords)) (k0_pay5 (View.ld x2 rCoords) (View.ld x3 rCoords))
    (k0_pay6 (View.ld x0 rWords) (View.ld x1 rWords))⟩]

theorem coverOut (p0 : Vec F S1024x128 .f32) (y : S1024x128.Idx) :
    ∃ pc ∈ ([⟨rWords, p0⟩] : List (View.Piece (Elt F) S1024x128 .f32)), y ∈ pc.1.set :=
  View.cover_of_tiled [⟨rWords, p0⟩] S1024x128.size (by rfl) y

/-! ## The body's triple -/

set_option maxHeartbeats 8000000 in
/-- The body on whole staging memrefs, the inputs' at contents `x0 … x3` and the output's at anything, runs to the
    continuation holding the inputs' as they were and the output's at `blockOut` of the inputs'. -/
theorem sound_kernel (c : Dev nD) (E : Set ℕ) (i : grid0.Coords)
    (arg1 : Memref sig .tc .vmem S1024x128 .i32) (harg1 : arg1.IsWhole) (arg2 : Memref sig .tc .vmem S1024x128 .i32) (harg2 : arg2.IsWhole)
    (arg3 : Memref sig .tc .vmem S3x1024x128 .f32) (harg3 : arg3.IsWhole) (arg4 : Memref sig .tc .vmem S3x1024x128 .f32) (harg4 : arg4.IsWhole)
    (arg5 : Memref sig .tc .vmem S1024x128 .f32) (harg5 : arg5.IsWhole)
    (x0 x1 : Vec F S1024x128 .i32) (x2 x3 : Vec F S3x1024x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (blockOut x0 x1 x2 x3)) -∗ K ⟨⟩))
      ⊢ wp frame (wpE (defs₀ (F := F)) Variants.none c none) E (cc0__disulfide_kernel i arg1 harg1 arg2 harg2 arg3 harg3 arg4 harg4 arg5 harg5) K := by
  simp only [cc0__disulfide_kernel_eq_skeleton]; unfold cc0__disulfide_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverOut _)

/-! ## The pipeline's proof data -/

/-- The proof data of the pipeline on core `c`: the arrays as the region finds them; after the body at point `t` each
    input's buffer at its block and the output's at `blockOut` of the input blocks; the scoped rest untouched; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockOut (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = blockOut (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the region at
    what the proof data computes and every other unscoped buffer as the host operations after the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- An argument array after the whole program is what it was at the launch: no window stages it and no host
    operation writes it. -/
theorem tail_main_arg0 (c : Dev nD) :
    Pipeline.afterTail₀ cfgs (dats m) 0 (V0 m) [hostOps1, hostOps1_1, hostOps1_2] c main_arg0 = m ((c : Thread nD τ).loc main_arg0) := by
  unfold Pipeline.afterTail₀
  rw [StableHlo.after_of_forall_not_mem _ _ (List.forall_iff_forall_mem.mp tail_arg0),
    Pipeline.withArrays_of_ne _ c _ _ main_arg0 (by decide)]
  exact V_main_arg0 m c
theorem tail_main_arg1 (c : Dev nD) :
    Pipeline.afterTail₀ cfgs (dats m) 0 (V0 m) [hostOps1, hostOps1_1, hostOps1_2] c main_arg1 = m ((c : Thread nD τ).loc main_arg1) := by
  unfold Pipeline.afterTail₀
  rw [StableHlo.after_of_forall_not_mem _ _ (List.forall_iff_forall_mem.mp tail_arg1),
    Pipeline.withArrays_of_ne _ c _ _ main_arg1 (by decide)]
  exact V_main_arg1 m c
theorem tail_main_arg2 (c : Dev nD) :
    Pipeline.afterTail₀ cfgs (dats m) 0 (V0 m) [hostOps1, hostOps1_1, hostOps1_2] c main_arg2 = m ((c : Thread nD τ).loc main_arg2) := by
  unfold Pipeline.afterTail₀
  rw [StableHlo.after_of_forall_not_mem _ _ (List.forall_iff_forall_mem.mp tail_arg2),
    Pipeline.withArrays_of_ne _ c _ _ main_arg2 (by decide)]
  exact V_main_arg2 m c
theorem tail_main_arg3 (c : Dev nD) :
    Pipeline.afterTail₀ cfgs (dats m) 0 (V0 m) [hostOps1, hostOps1_1, hostOps1_2] c main_arg3 = m ((c : Thread nD τ).loc main_arg3) := by
  unfold Pipeline.afterTail₀
  rw [StableHlo.after_of_forall_not_mem _ _ (List.forall_iff_forall_mem.mp tail_arg3),
    Pipeline.withArrays_of_ne _ c _ _ main_arg3 (by decide)]
  exact V_main_arg3 m c
theorem tail_main_arg4 (c : Dev nD) :
    Pipeline.afterTail₀ cfgs (dats m) 0 (V0 m) [hostOps1, hostOps1_1, hostOps1_2] c main_arg4 = m ((c : Thread nD τ).loc main_arg4) := by
  unfold Pipeline.afterTail₀
  rw [StableHlo.after_of_forall_not_mem _ _ (List.forall_iff_forall_mem.mp tail_arg4),
    Pipeline.withArrays_of_ne _ c _ _ main_arg4 (by decide)]
  exact V_main_arg4 m c

/-- The program runs to the end, faults nowhere, and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (tail_main_arg0 m c),
     ((h c).2 main_arg1 (Pipeline.mem_restRefs_of main_arg1 (by decide) (by decide))).trans (tail_main_arg1 m c),
     ((h c).2 main_arg2 (Pipeline.mem_restRefs_of main_arg2 (by decide) (by decide))).trans (tail_main_arg2 m c),
     ((h c).2 main_arg3 (Pipeline.mem_restRefs_of main_arg3 (by decide) (by decide))).trans (tail_main_arg3 m c),
     ((h c).2 main_arg4 (Pipeline.mem_restRefs_of main_arg4 (by decide) (by decide))).trans (tail_main_arg4 m c)⟩) (run_main m ρ)

end Cert.Kernel.Hand

end
-- ==== Proof.KIFrame.lean ====
/-
  The run of the pair-energy program around its one pipelined region, at any float instance.

  The program is a straight line: host operations that pack each atom's residue number, sulfur flag and
  alternative flags into one word and gather the words and the transposed coordinates at the padded pair
  indices; one region over 31 grid points, each point reading a 1024 x 128 block of the two gathered word
  arrays and a 3 x 1024 x 128 block of the two gathered coordinate arrays and writing one 1024 x 128 block of
  pair energies; then host operations that unpack the flags, mask the energies, scatter them onto both
  endpoints of every pair and sum the atoms into residues.

  At every grid point the body loads its four input blocks whole and stores one pointwise function of them
  over the whole output block, so the output's staging buffer after the body is that function of the
  point's input blocks (`blockOut`). The program's argument arrays are written by no host operation and
  staged by no window, so they end as launched; every other buffer ends at the value the later host
  operations compute from the region's result and the buffers the earlier ones wrote (`run_main`).
-/
import proofs.«400768_j49443663511892_3_alg».proof.Proof.Gen.KernelIdeal.Launch
import proofs.«400768_j49443663511892_3_alg».proof.Proof.Gen.KernelIdeal.Skeleton
import proofs.«400768_j49443663511892_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before and after the region -/

/-- Core `c`'s buffer contents when the region is entered: the launch contents after the host operations before it. -/
abbrev V0 (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is: the host operations before the region, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main
    [hostOps0, hostOps0_1, hostOps0_2, hostOps0_3, hostOps0_4, hostOps0_5, hostOps0_6, hostOps0_7, hostOps0_8]
    [hostOps1, hostOps1_1, hostOps1_2]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩)
    main_chain

/-- The operations after the region touch the region's arrays and the buffers that bypass it only. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Every host operation writes its own result buffer only; this closes "no operation before the region writes `b`"
    for a buffer `b` that is no operation's result, one inequality of references per operation. -/
macro "prefix_never_writes" : tactic => `(tactic| (
  simp only [hostOps0, hostOps0_1, hostOps0_2, hostOps0_3, hostOps0_4, hostOps0_5, hostOps0_6, hostOps0_7, hostOps0_8,
    List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))
/-- The same for the operations after the region. -/
macro "tail_never_writes" : tactic => `(tactic| (
  simp only [hostOps1, hostOps1_1, hostOps1_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

set_option maxHeartbeats 16000000 in
/-- No operation after the region writes an array the region stages. -/
theorem tail_keeps (w : Fin 5) : (List.flatten [hostOps1, hostOps1_1, hostOps1_2] : List (HloOp τ sig (Elt F))).Forall
    fun op => Proc.devRef .tc (Pipeline.arrRef spec0 w) ∉ op.writes := by
  fin_cases w
  · show (List.flatten [hostOps1, hostOps1_1, hostOps1_2] : List (HloOp τ sig (Elt F))).Forall fun op => Proc.devRef .tc main_v44 ∉ op.writes
    tail_never_writes
  · show (List.flatten [hostOps1, hostOps1_1, hostOps1_2] : List (HloOp τ sig (Elt F))).Forall fun op => Proc.devRef .tc main_v45 ∉ op.writes
    tail_never_writes
  · show (List.flatten [hostOps1, hostOps1_1, hostOps1_2] : List (HloOp τ sig (Elt F))).Forall fun op => Proc.devRef .tc main_v46 ∉ op.writes
    tail_never_writes
  · show (List.flatten [hostOps1, hostOps1_1, hostOps1_2] : List (HloOp τ sig (Elt F))).Forall fun op => Proc.devRef .tc main_v47 ∉ op.writes
    tail_never_writes
  · show (List.flatten [hostOps1, hostOps1_1, hostOps1_2] : List (HloOp τ sig (Elt F))).Forall fun op => Proc.devRef .tc main_v48 ∉ op.writes
    tail_never_writes

theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop w
  exact (List.forall_iff_forall_mem.mp (tail_keeps (F := F) w)) op (List.mem_flatten.mpr ⟨ops, hops, hop⟩)

/-! ## The argument arrays are written by no host operation -/

set_option maxHeartbeats 16000000 in
theorem pre_arg0 : (List.flatten [hostOps0, hostOps0_1, hostOps0_2, hostOps0_3, hostOps0_4, hostOps0_5, hostOps0_6, hostOps0_7, hostOps0_8] : List (HloOp τ sig (Elt F))).Forall
    fun op => Proc.devRef .tc main_arg0 ∉ op.writes := by prefix_never_writes
set_option maxHeartbeats 16000000 in
theorem pre_arg1 : (List.flatten [hostOps0, hostOps0_1, hostOps0_2, hostOps0_3, hostOps0_4, hostOps0_5, hostOps0_6, hostOps0_7, hostOps0_8] : List (HloOp τ sig (Elt F))).Forall
    fun op => Proc.devRef .tc main_arg1 ∉ op.writes := by prefix_never_writes
set_option maxHeartbeats 16000000 in
theorem pre_arg2 : (List.flatten [hostOps0, hostOps0_1, hostOps0_2, hostOps0_3, hostOps0_4, hostOps0_5, hostOps0_6, hostOps0_7, hostOps0_8] : List (HloOp τ sig (Elt F))).Forall
    fun op => Proc.devRef .tc main_arg2 ∉ op.writes := by prefix_never_writes
set_option maxHeartbeats 16000000 in
theorem pre_arg3 : (List.flatten [hostOps0, hostOps0_1, hostOps0_2, hostOps0_3, hostOps0_4, hostOps0_5, hostOps0_6, hostOps0_7, hostOps0_8] : List (HloOp τ sig (Elt F))).Forall
    fun op => Proc.devRef .tc main_arg3 ∉ op.writes := by prefix_never_writes
set_option maxHeartbeats 16000000 in
theorem pre_arg4 : (List.flatten [hostOps0, hostOps0_1, hostOps0_2, hostOps0_3, hostOps0_4, hostOps0_5, hostOps0_6, hostOps0_7, hostOps0_8] : List (HloOp τ sig (Elt F))).Forall
    fun op => Proc.devRef .tc main_arg4 ∉ op.writes := by prefix_never_writes
set_option maxHeartbeats 16000000 in
theorem tail_arg0 : (List.flatten [hostOps1, hostOps1_1, hostOps1_2] : List (HloOp τ sig (Elt F))).Forall
    fun op => Proc.devRef .tc main_arg0 ∉ op.writes := by tail_never_writes
set_option maxHeartbeats 16000000 in
theorem tail_arg1 : (List.flatten [hostOps1, hostOps1_1, hostOps1_2] : List (HloOp τ sig (Elt F))).Forall
    fun op => Proc.devRef .tc main_arg1 ∉ op.writes := by tail_never_writes
set_option maxHeartbeats 16000000 in
theorem tail_arg2 : (List.flatten [hostOps1, hostOps1_1, hostOps1_2] : List (HloOp τ sig (Elt F))).Forall
    fun op => Proc.devRef .tc main_arg2 ∉ op.writes := by tail_never_writes
set_option maxHeartbeats 16000000 in
theorem tail_arg3 : (List.flatten [hostOps1, hostOps1_1, hostOps1_2] : List (HloOp τ sig (Elt F))).Forall
    fun op => Proc.devRef .tc main_arg3 ∉ op.writes := by tail_never_writes
set_option maxHeartbeats 16000000 in
theorem tail_arg4 : (List.flatten [hostOps1, hostOps1_1, hostOps1_2] : List (HloOp τ sig (Elt F))).Forall
    fun op => Proc.devRef .tc main_arg4 ∉ op.writes := by tail_never_writes

theorem V_main_arg0 (c : Dev nD) : V m c main_arg0 = m ((c : Thread nD τ).loc main_arg0) :=
  StableHlo.after_of_forall_not_mem (b := Proc.devRef .tc main_arg0) _ _ (List.forall_iff_forall_mem.mp pre_arg0)
theorem V_main_arg1 (c : Dev nD) : V m c main_arg1 = m ((c : Thread nD τ).loc main_arg1) :=
  StableHlo.after_of_forall_not_mem (b := Proc.devRef .tc main_arg1) _ _ (List.forall_iff_forall_mem.mp pre_arg1)
theorem V_main_arg2 (c : Dev nD) : V m c main_arg2 = m ((c : Thread nD τ).loc main_arg2) :=
  StableHlo.after_of_forall_not_mem (b := Proc.devRef .tc main_arg2) _ _ (List.forall_iff_forall_mem.mp pre_arg2)
theorem V_main_arg3 (c : Dev nD) : V m c main_arg3 = m ((c : Thread nD τ).loc main_arg3) :=
  StableHlo.after_of_forall_not_mem (b := Proc.devRef .tc main_arg3) _ _ (List.forall_iff_forall_mem.mp pre_arg3)
theorem V_main_arg4 (c : Dev nD) : V m c main_arg4 = m ((c : Thread nD τ).loc main_arg4) :=
  StableHlo.after_of_forall_not_mem (b := Proc.devRef .tc main_arg4) _ _ (List.forall_iff_forall_mem.mp pre_arg4)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: every input window
    is fetched at every point and its index never stays put unfetched. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rWords : Rect S1024x128 := Rect.unit (s := S1024x128) ![0, 0] S1024x128.size inb_S1024x128_S1024x128_0_0
abbrev rCoords : Rect S3x1024x128 := Rect.unit (s := S3x1024x128) ![0, 0, 0] S3x1024x128.size inb_S3x1024x128_S3x1024x128_0_0_0

/-- The output window's staging buffer after the body, from the four input blocks: one store over the whole block. -/
def blockOut (x0 x1 : Vec F S1024x128 .i32) (x2 x3 : Vec F S3x1024x128 .f32) : Vec F S1024x128 .f32 :=
  View.canon [⟨rWords, k0_pay1 (k0_pay4 (View.ld x0 rWords) (View.ld x1 rWords)) (k0_pay5 (View.ld x2 rCoords) (View.ld x3 rCoords))
    (k0_pay6 (View.ld x0 rWords) (View.ld x1 rWords))⟩]

theorem coverOut (p0 : Vec F S1024x128 .f32) (y : S1024x128.Idx) :
    ∃ pc ∈ ([⟨rWords, p0⟩] : List (View.Piece (Elt F) S1024x128 .f32)), y ∈ pc.1.set :=
  View.cover_of_tiled [⟨rWords, p0⟩] S1024x128.size (by rfl) y

/-! ## The body's triple -/

set_option maxHeartbeats 8000000 in
/-- The body on whole staging memrefs, the inputs' at contents `x0 … x3` and the output's at anything, runs to the
    continuation holding the inputs' as they were and the output's at `blockOut` of the inputs'. -/
theorem sound_kernel (c : Dev nD) (E : Set ℕ) (i : grid0.Coords)
    (arg1 : Memref sig .tc .vmem S1024x128 .i32) (harg1 : arg1.IsWhole) (arg2 : Memref sig .tc .vmem S1024x128 .i32) (harg2 : arg2.IsWhole)
    (arg3 : Memref sig .tc .vmem S3x1024x128 .f32) (harg3 : arg3.IsWhole) (arg4 : Memref sig .tc .vmem S3x1024x128 .f32) (harg4 : arg4.IsWhole)
    (arg5 : Memref sig .tc .vmem S1024x128 .f32) (harg5 : arg5.IsWhole)
    (x0 x1 : Vec F S1024x128 .i32) (x2 x3 : Vec F S3x1024x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (blockOut x0 x1 x2 x3)) -∗ K ⟨⟩))
      ⊢ wp frame (wpE (defs₀ (F := F)) Variants.none c none) E (cc0__disulfide_kernel i arg1 harg1 arg2 harg2 arg3 harg3 arg4 harg4 arg5 harg5) K := by
  simp only [cc0__disulfide_kernel_eq_skeleton]; unfold cc0__disulfide_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverOut _)

/-! ## The pipeline's proof data -/

/-- The proof data of the pipeline on core `c`: the arrays as the region finds them; after the body at point `t` each
    input's buffer at its block and the output's at `blockOut` of the input blocks; the scoped rest untouched; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockOut (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = blockOut (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the region at
    what the proof data computes and every other unscoped buffer as the host operations after the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- An argument array after the whole program is what it was at the launch: no window stages it and no host
    operation writes it. -/
theorem tail_main_arg0 (c : Dev nD) :
    Pipeline.afterTail₀ cfgs (dats m) 0 (V0 m) [hostOps1, hostOps1_1, hostOps1_2] c main_arg0 = m ((c : Thread nD τ).loc main_arg0) := by
  unfold Pipeline.afterTail₀
  rw [StableHlo.after_of_forall_not_mem _ _ (List.forall_iff_forall_mem.mp tail_arg0),
    Pipeline.withArrays_of_ne _ c _ _ main_arg0 (by decide)]
  exact V_main_arg0 m c
theorem tail_main_arg1 (c : Dev nD) :
    Pipeline.afterTail₀ cfgs (dats m) 0 (V0 m) [hostOps1, hostOps1_1, hostOps1_2] c main_arg1 = m ((c : Thread nD τ).loc main_arg1) := by
  unfold Pipeline.afterTail₀
  rw [StableHlo.after_of_forall_not_mem _ _ (List.forall_iff_forall_mem.mp tail_arg1),
    Pipeline.withArrays_of_ne _ c _ _ main_arg1 (by decide)]
  exact V_main_arg1 m c
theorem tail_main_arg2 (c : Dev nD) :
    Pipeline.afterTail₀ cfgs (dats m) 0 (V0 m) [hostOps1, hostOps1_1, hostOps1_2] c main_arg2 = m ((c : Thread nD τ).loc main_arg2) := by
  unfold Pipeline.afterTail₀
  rw [StableHlo.after_of_forall_not_mem _ _ (List.forall_iff_forall_mem.mp tail_arg2),
    Pipeline.withArrays_of_ne _ c _ _ main_arg2 (by decide)]
  exact V_main_arg2 m c
theorem tail_main_arg3 (c : Dev nD) :
    Pipeline.afterTail₀ cfgs (dats m) 0 (V0 m) [hostOps1, hostOps1_1, hostOps1_2] c main_arg3 = m ((c : Thread nD τ).loc main_arg3) := by
  unfold Pipeline.afterTail₀
  rw [StableHlo.after_of_forall_not_mem _ _ (List.forall_iff_forall_mem.mp tail_arg3),
    Pipeline.withArrays_of_ne _ c _ _ main_arg3 (by decide)]
  exact V_main_arg3 m c
theorem tail_main_arg4 (c : Dev nD) :
    Pipeline.afterTail₀ cfgs (dats m) 0 (V0 m) [hostOps1, hostOps1_1, hostOps1_2] c main_arg4 = m ((c : Thread nD τ).loc main_arg4) := by
  unfold Pipeline.afterTail₀
  rw [StableHlo.after_of_forall_not_mem _ _ (List.forall_iff_forall_mem.mp tail_arg4),
    Pipeline.withArrays_of_ne _ c _ _ main_arg4 (by decide)]
  exact V_main_arg4 m c

/-- The program runs to the end, faults nowhere, and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (tail_main_arg0 m c),
     ((h c).2 main_arg1 (Pipeline.mem_restRefs_of main_arg1 (by decide) (by decide))).trans (tail_main_arg1 m c),
     ((h c).2 main_arg2 (Pipeline.mem_restRefs_of main_arg2 (by decide) (by decide))).trans (tail_main_arg2 m c),
     ((h c).2 main_arg3 (Pipeline.mem_restRefs_of main_arg3 (by decide) (by decide))).trans (tail_main_arg3 m c),
     ((h c).2 main_arg4 (Pipeline.mem_restRefs_of main_arg4 (by decide) (by decide))).trans (tail_main_arg4 m c)⟩) (run_main m ρ)

end Cert.KernelIdeal.Hand

end
-- ==== Proof.KDefs.lean ====
/-
  The kernel program's host arithmetic as pure functions of arrays, one definition per stage, at any float instance.

  Before the region: `pairCol` takes a column of the pair table as a vector of 4,000,000 indices; `packed` makes each
  atom's word — residue number, or-ed with the sulfur flag shifted to bit 9 and the four alternative flags shifted to
  bits 10 to 13 —; `padIdx` appends 63,232 zeros; `takeWords` and `takeCoords` are jnp's `take` in fill mode: the index
  shifted by the table length where negative, the table read there, and a fill value (the least integer, a NaN) where
  the shifted index is outside the table. After the region: `bitAt` reads one bit of each word, `sulfurOf` the
  conjunction of the two sulfur bits, `altOf` the four alternative bits of a word vector as a [pairs, 4] mask,
  `netOf` the first 4,000,000 entries of the region's result read as a vector, `weights` the masked energies,
  `atomEnergy` their scatter onto both endpoints by ONE scatter over the concatenated indices, `resiEnergy` the sum of
  atoms into residues.
-/
import proofs.«400768_j49443663511892_3_alg».proof.Proof.Gen.KernelIdeal

noncomputable section

namespace Cert.KernelIdeal.Hand

open Cert.KernelIdeal Cert.KernelIdeal.Facts₀ Cert.KernelIdeal.Facts Idealize.ShloMosaic

variable {F : FTy → Type} [FloatOps F]

/-! ## Before the region -/

/-- Column 0 of the pair table. -/
def pairCol0 (a2 : IVec S4000000x2 32) : IVec S4000000 32 :=
  shapeCast S4000000 (extractStridedSlice S4000000x1 ![0, 0] a2 slices_S4000000x2_S4000000x1_0_0) shapeCasts_S4000000x1_S4000000
/-- Column 1 of the pair table. -/
def pairCol1 (a2 : IVec S4000000x2 32) : IVec S4000000 32 :=
  shapeCast S4000000 (extractStridedSlice S4000000x1 ![0, 1] a2 slices_S4000000x2_S4000000x1_0_1) shapeCasts_S4000000x1_S4000000

/-- A column of a [500000, 4] table of words as a vector. -/
def atomCol (k : Fin 4) (x : IVec S500000x4 32) (h : S500000x4.Slices ![0, k.val] S500000x1) : IVec S500000 32 :=
  shapeCast S500000 (extractStridedSlice S500000x1 ![0, k.val] x h) shapeCasts_S500000x1_S500000

/-- A flag vector shifted left to bit `n`. -/
def flagAt (n : BitVec 32) (x : IVec S500000 32) : IVec S500000 32 :=
  Host.shli x (broadcastInDim S500000 ![] bcast_S_S500000 (constantI S_ 32 n))

/-- Each atom's packed word. -/
def packed (a1 : IVec S500000x4 32) (a3 : IVec S500000x4 1) : IVec S500000 32 :=
  let res : IVec S500000 32 := shapeCast S500000 (extractStridedSlice S500000x1 ![0, 1] a1 slices_S500000x4_S500000x1_0_1) shapeCasts_S500000x1_S500000
  let name : IVec S500000 32 := shapeCast S500000 (extractStridedSlice S500000x1 ![0, 0] a1 slices_S500000x4_S500000x1_0_0) shapeCasts_S500000x1_S500000
  let sg : IVec S500000 32 := extui 32 (cmpi .eq name (broadcastInDim S500000 ![] bcast_S_S500000 (constantI S_ 32 7#32))) natLt_1_32
  let alt : IVec S500000x4 32 := extui 32 a3 natLt_1_32
  let alt0 : IVec S500000 32 := shapeCast S500000 (extractStridedSlice S500000x1 ![0, 0] alt slices_S500000x4_S500000x1_0_0) shapeCasts_S500000x1_S500000
  let alt1 : IVec S500000 32 := shapeCast S500000 (extractStridedSlice S500000x1 ![0, 1] alt slices_S500000x4_S500000x1_0_1) shapeCasts_S500000x1_S500000
  let alt2 : IVec S500000 32 := shapeCast S500000 (extractStridedSlice S500000x1 ![0, 2] alt slices_S500000x4_S500000x1_0_2) shapeCasts_S500000x1_S500000
  let alt3 : IVec S500000 32 := shapeCast S500000 (extractStridedSlice S500000x1 ![0, 3] alt slices_S500000x4_S500000x1_0_3) shapeCasts_S500000x1_S500000
  ori (ori (ori (ori (ori res (flagAt 9#32 sg)) (flagAt 10#32 alt0)) (flagAt 11#32 alt1)) (flagAt 12#32 alt2)) (flagAt 13#32 alt3)

/-- The coordinates with the axes exchanged: [3, atoms]. -/
def coordsT (a0 : FVec F S500000x3 .f32) : FVec F S3x500000 .f32 :=
  transpose S3x500000 [1, 0] a0 transposes_S500000x3_S3x500000_1_0

/-- An index vector padded with zeros to the grid's length. -/
def padIdx (x : IVec S4000000 32) : IVec S4063232 32 :=
  pad S4063232 ![0] ![63232] ![0] x (id (constantI S_ 32 0#32)) pads_S4000000_S4063232_0632320 h_S_

/-- An index shifted by the table's length where it is negative. -/
def wrapIdx (ids : IVec S4063232 32) : IVec S4063232 32 :=
  select (cmpi .slt ids (broadcastInDim S4063232 ![] bcast_S_S4063232 (constantI S_ 32 0#32)))
    (addi ids (broadcastInDim S4063232 ![] bcast_S_S4063232 (constantI S_ 32 500000#32))) ids

/-- The wrapped indices as a column of start indices. -/
def startCol (ids : IVec S4063232 32) : IVec S4063232x1 32 :=
  broadcastInDim S4063232x1 ![0] bcast_S4063232_S4063232x1_0 (wrapIdx ids)

/-- The wrapped index lies inside the table. -/
def inTable (ids : IVec S4063232 32) : IVec S4063232 1 :=
  Host.reduce IntOp.andi
    (andi (cmpi .sge (startCol ids) (broadcastInDim S4063232x1 ![] bcast_S_S4063232x1 (constantI S_ 32 0#32)))
      (cmpi .sle (startCol ids) (broadcastInDim S4063232x1 ![0, 1] bcast_S1x1_S4063232x1_0_1
        (broadcastInDim S1x1 ![1] bcast_S1_S1x1_1 (constantI S1 32 499999#32)))))
    (constantI S_ 1 1#1) reducesTo_S4063232x1_S4063232_d1 h_S_

/-- `take` of a vector of words in fill mode. -/
def takeWords (tbl : IVec S500000 32) (ids : IVec S4063232 32) : IVec S4063232 32 :=
  select (inTable ids) (Host.gather gather_S500000_S4063232x1_S4063232_n_0_n_n_0_1_1 tbl (startCol ids))
    (broadcastInDim S4063232 ![] bcast_S_S4063232 (constantI S_ 32 2147483648#32))

/-- `take` along axis 1 of the transposed coordinates in fill mode. -/
def takeCoords (tbl : FVec F S3x500000 .f32) (ids : IVec S4063232 32) : FVec F S3x4063232 .f32 :=
  select (broadcastInDim S3x4063232 ![1] bcast_S4063232_S3x4063232_1 (inTable ids))
    (Host.gather gather_S3x500000_S4063232x1_S3x4063232_0_1_n_n_1_1_31 tbl (startCol ids))
    (broadcastInDim S3x4063232 ![] bcast_S_S3x4063232 (constant S_ .f32 0x7FC00000#32))

/-! ## After the region -/

/-- Bit `n` of each word. -/
def bitAt (n : BitVec 32) (x : IVec S4000000 32) : IVec S4000000 32 :=
  andi (Host.shrsi x (broadcastInDim S4000000 ![] bcast_S_S4000000 (constantI S_ 32 n)))
    (broadcastInDim S4000000 ![] bcast_S_S4000000 (constantI S_ 32 1#32))

/-- Both words carry the sulfur bit. -/
def sulfurOf (pi pj : IVec S4000000 32) : IVec S4000000 1 :=
  cmpi .sgt (andi (bitAt 9#32 pi) (bitAt 9#32 pj)) (broadcastInDim S4000000 ![] bcast_S_S4000000 (constantI S_ 32 0#32))

/-- The four shift amounts 10, 11, 12, 13 as a row. -/
def altShifts : IVec S1x4 32 :=
  broadcastInDim S1x4 ![1] bcast_S4_S1x4_1 (addi (broadcastInDim S4 ![] bcast_S_S4 (constantI S_ 32 10#32)) (iotaInDim S4 32 0))

/-- The four alternative bits of each word. -/
def altOf (pw : IVec S4000000 32) : IVec S4000000x4 1 :=
  cmpi .sgt
    (andi (Host.shrsi (broadcastInDim S4000000x4 ![0, 1] bcast_S4000000x1_S4000000x4_0_1 (broadcastInDim S4000000x1 ![0] bcast_S4000000_S4000000x1_0 pw))
        (broadcastInDim S4000000x4 ![0, 1] bcast_S1x4_S4000000x4_0_1 altShifts))
      (broadcastInDim S4000000x4 ![] bcast_S_S4000000x4 (constantI S_ 32 1#32)))
    (broadcastInDim S4000000x4 ![] bcast_S_S4000000x4 (constantI S_ 32 0#32))

/-- Sulfur pair, and both atoms have the alternative. -/
def pairAlt (pi pj : IVec S4000000 32) : IVec S4000000x4 1 :=
  andi (andi (broadcastInDim S4000000x4 ![0, 1] bcast_S4000000x1_S4000000x4_0_1 (broadcastInDim S4000000x1 ![0] bcast_S4000000_S4000000x1_0 (sulfurOf pi pj)))
    (altOf pi)) (altOf pj)

/-- The region's result as a vector of pair energies. -/
def netOf (out : FVec F S31744x128 .f32) : FVec F S4000000 .f32 :=
  extractStridedSlice S4000000 ![0] (shapeCast S4063232 out shapeCasts_S31744x128_S4063232) slices_S4063232_S4000000_0

/-- The masked energies. -/
def weights (pa : IVec S4000000x4 1) (net : FVec F S4000000 .f32) : FVec F S4000000x4 .f32 :=
  select pa (broadcastInDim S4000000x4 ![0, 1] bcast_S4000000x1_S4000000x4_0_1 (broadcastInDim S4000000x1 ![0] bcast_S4000000_S4000000x1_0 net))
    (broadcastInDim S4000000x4 ![] bcast_S_S4000000x4 (id (constant S_ .f32 0x00000000#32)))

/-- The two index vectors one after the other. -/
def bothIdx (i j : IVec S4000000 32) : IVec S8000000 32 :=
  concatenate S8000000 0 [⟨S4000000, i⟩, ⟨S4000000, j⟩] concatenates_S4000000_S4000000_S8000000_d0

/-- Every atom's energy per alternative: the weights scattered onto both endpoints in one pass. -/
def atomEnergy (i j : IVec S4000000 32) (w : FVec F S4000000x4 .f32) : FVec F S500000x4 .f32 :=
  Host.scatterAdd scatter_S500000x4_S8000000x1_S8000000x4_1_0_0_1
    (broadcastInDim S500000x4 ![] bcast_S_S500000x4 (constant S_ .f32 0x00000000#32))
    (broadcastInDim S8000000x1 ![0] bcast_S8000000_S8000000x1_0
      (select (cmpi .slt (bothIdx i j) (broadcastInDim S8000000 ![] bcast_S_S8000000 (constantI S_ 32 0#32)))
        (addi (bothIdx i j) (broadcastInDim S8000000 ![] bcast_S_S8000000 (constantI S_ 32 500000#32))) (bothIdx i j)))
    (concatenate S8000000x4 0 [⟨S4000000x4, w⟩, ⟨S4000000x4, w⟩] concatenates_S4000000x4_S4000000x4_S8000000x4_d0)

/-- Each atom's residue slot: (batch · 4 + chain) · 500 + residue number. -/
def flatIdx (a1 : IVec S500000x4 32) : IVec S500000 32 :=
  let batch : IVec S500000 32 := shapeCast S500000 (extractStridedSlice S500000x1 ![0, 2] a1 slices_S500000x4_S500000x1_0_2) shapeCasts_S500000x1_S500000
  let chain : IVec S500000 32 := shapeCast S500000 (extractStridedSlice S500000x1 ![0, 3] a1 slices_S500000x4_S500000x1_0_3) shapeCasts_S500000x1_S500000
  let res : IVec S500000 32 := shapeCast S500000 (extractStridedSlice S500000x1 ![0, 1] a1 slices_S500000x4_S500000x1_0_1) shapeCasts_S500000x1_S500000
  addi (muli (addi (muli batch (broadcastInDim S500000 ![] bcast_S_S500000 (constantI S_ 32 4#32))) chain)
    (broadcastInDim S500000 ![] bcast_S_S500000 (constantI S_ 32 500#32))) res

/-- The atoms' energies summed into their residues, as [batch, chain, residue, alternative]. -/
def resiEnergy (a1 : IVec S500000x4 32) (atom : FVec F S500000x4 .f32) : FVec F S8x4x500x4 .f32 :=
  shapeCast S8x4x500x4
    (Host.scatterAdd scatter_S16000x4_S500000x1_S500000x4_1_0_0_1
      (broadcastInDim S16000x4 ![] bcast_S_S16000x4 (constant S_ .f32 0x00000000#32))
      (broadcastInDim S500000x1 ![0] bcast_S500000_S500000x1_0 (flatIdx a1)) atom)
    shapeCasts_S16000x4_S8x4x500x4

end Cert.KernelIdeal.Hand

end
-- ==== Proof.KStretch.lean ====
/-
  The kernel program's host stretches, one at a time, from ANY contents `W` of the buffers: what each stretch leaves in
  the buffers later stretches read, as the pure stage of KDefs applied to what `W` held, and which buffers it leaves
  alone. A stretch is a straight line of host operations (the part of @main, or of a function @main calls, between two
  calls); the program is their concatenation around the one region.
-/
import proofs.«400768_j49443663511892_3_alg».proof.Proof.Gen.KernelIdeal.Launch
import proofs.«400768_j49443663511892_3_alg».proof.Proof.KDefs
import Idealize.ShloMosaic.Lib.StableHlo.Run

set_option maxRecDepth 16384
set_option maxHeartbeats 4000000
-- the stretches are independent of one another and are taken in turn
set_option Elab.async false

noncomputable section

namespace Cert.KernelIdeal.Hand

open Cert.KernelIdeal Cert.KernelIdeal.Facts₀ Cert.KernelIdeal.Facts
open Cert.KernelIdeal.Gen (hostOps0 hostOps0_1 hostOps0_2 hostOps0_3 hostOps0_4 hostOps0_5 hostOps0_6 hostOps0_7 hostOps0_8 hostOps1 hostOps1_1 hostOps1_2)
open Idealize.ShloMosaic Idealize.ShloMosaic.TcCoe Idealize.ShloMosaic.StableHlo

variable {F : FTy → Type} [FloatOps F]
variable (W : Valuation τ sig (Elt F))

/-- Contents carried to a typed reference's buffer type and back are the contents. -/
theorem ofBuf_toBuf {T : BufTy} (x : StableHlo.TRef sig T) (v : T.Contents (Elt F)) : x.ofBuf (x.toBuf v) = v := by
  obtain ⟨r, h, h2, h3⟩ := x
  subst h
  rfl

/-! ## Before the region -/

theorem s0_v1 : (after hostOps0 W (Proc.devRef .tc main_v1) : IVec S4000000 32) = pairCol0 (W (Proc.devRef .tc main_arg2)) := by
  simp only [hostOps0]
  after_results_simp
  try simp only [ofBuf_toBuf]
  try simp only [TRef.ofBuf, TRef.toBuf, cast_eq]
  first | done | rfl
theorem s0_v3 : (after hostOps0 W (Proc.devRef .tc main_v3) : IVec S4000000 32) = pairCol1 (W (Proc.devRef .tc main_arg2)) := by
  simp only [hostOps0]
  after_results_simp
  try simp only [ofBuf_toBuf]
  try simp only [TRef.ofBuf, TRef.toBuf, cast_eq]
  first | done | rfl
theorem s0_v34 : (after hostOps0 W (Proc.devRef .tc main_v34) : IVec S500000 32) = packed (W (Proc.devRef .tc main_arg1)) (W (Proc.devRef .tc main_arg3)) := by
  simp only [hostOps0]
  after_results_simp
  try simp only [ofBuf_toBuf]
  try simp only [TRef.ofBuf, TRef.toBuf, cast_eq]
  first | done | rfl
theorem s0_v35 : (after hostOps0 W (Proc.devRef .tc main_v35) : FVec F S3x500000 .f32) = coordsT (W (Proc.devRef .tc main_arg0)) := by
  simp only [hostOps0]
  after_results_simp
  try simp only [ofBuf_toBuf]
  try simp only [TRef.ofBuf, TRef.toBuf, cast_eq]
  first | done | rfl
theorem s0_c5 : (after hostOps0 W (Proc.devRef .tc main_c_5) : IVec S_ 32) = constantI S_ 32 0#32 := by
  simp only [hostOps0]
  after_results_simp
  try simp only [ofBuf_toBuf]
  try simp only [TRef.ofBuf, TRef.toBuf, cast_eq]
  first | done | rfl
theorem s1_v36 (h : (W (Proc.devRef .tc main_c_5) : IVec S_ 32) = constantI S_ 32 0#32) :
    (after hostOps0_1 W (Proc.devRef .tc main_v36) : IVec S4063232 32) = padIdx (W (Proc.devRef .tc main_v1)) := by
  simp only [hostOps0_1]
  after_results_simp
  try simp only [ofBuf_toBuf]
  try simp only [TRef.ofBuf, TRef.toBuf, cast_eq]
  rw [h]
  first | done | rfl
theorem s2_c6 : (after hostOps0_2 W (Proc.devRef .tc main_c_6) : IVec S_ 32) = constantI S_ 32 0#32 := by
  simp only [hostOps0_2]
  after_results_simp
  try simp only [ofBuf_toBuf]
  try simp only [TRef.ofBuf, TRef.toBuf, cast_eq]
  first | done | rfl
theorem s3_v37 (h : (W (Proc.devRef .tc main_c_6) : IVec S_ 32) = constantI S_ 32 0#32) :
    (after hostOps0_3 W (Proc.devRef .tc main_v37) : IVec S4063232 32) = padIdx (W (Proc.devRef .tc main_v3)) := by
  simp only [hostOps0_3]
  after_results_simp
  try simp only [ofBuf_toBuf]
  try simp only [TRef.ofBuf, TRef.toBuf, cast_eq]
  rw [h]
  first | done | rfl
theorem s4_v38 : (after hostOps0_4 W (Proc.devRef .tc main_v38) : IVec S4063232 32) = takeWords (W (Proc.devRef .tc main_v34)) (W (Proc.devRef .tc main_v36)) := by
  simp only [hostOps0_4]
  after_results_simp
  try simp only [ofBuf_toBuf]
  try simp only [TRef.ofBuf, TRef.toBuf, cast_eq]
  first | done | rfl
theorem s5_v39 : (after hostOps0_5 W (Proc.devRef .tc main_v39) : IVec S4063232 32) = takeWords (W (Proc.devRef .tc main_v34)) (W (Proc.devRef .tc main_v37)) := by
  simp only [hostOps0_5]
  after_results_simp
  try simp only [ofBuf_toBuf]
  try simp only [TRef.ofBuf, TRef.toBuf, cast_eq]
  first | done | rfl
theorem s6_v40 : (after hostOps0_6 W (Proc.devRef .tc main_v40) : FVec F S3x4063232 .f32) = takeCoords (W (Proc.devRef .tc main_v35)) (W (Proc.devRef .tc main_v36)) := by
  simp only [hostOps0_6]
  after_results_simp
  try simp only [ofBuf_toBuf]
  try simp only [TRef.ofBuf, TRef.toBuf, cast_eq]
  first | done | rfl
theorem s7_v41 : (after hostOps0_7 W (Proc.devRef .tc main_v41) : FVec F S3x4063232 .f32) = takeCoords (W (Proc.devRef .tc main_v35)) (W (Proc.devRef .tc main_v37)) := by
  simp only [hostOps0_7]
  after_results_simp
  try simp only [ofBuf_toBuf]
  try simp only [TRef.ofBuf, TRef.toBuf, cast_eq]
  first | done | rfl
theorem s8_v42 : (after hostOps0_8 W (Proc.devRef .tc main_v42) : IVec S4000000 32) = extractStridedSlice S4000000 ![0] (W (Proc.devRef .tc main_v38) : IVec S4063232 32) slices_S4063232_S4000000_0 := by
  simp only [hostOps0_8]
  after_results_simp
  try simp only [ofBuf_toBuf]
  try simp only [TRef.ofBuf, TRef.toBuf, cast_eq]
  first | done | rfl
theorem s8_v43 : (after hostOps0_8 W (Proc.devRef .tc main_v43) : IVec S4000000 32) = extractStridedSlice S4000000 ![0] (W (Proc.devRef .tc main_v39) : IVec S4063232 32) slices_S4063232_S4000000_0 := by
  simp only [hostOps0_8]
  after_results_simp
  try simp only [ofBuf_toBuf]
  try simp only [TRef.ofBuf, TRef.toBuf, cast_eq]
  first | done | rfl
theorem s8_v44 : (after hostOps0_8 W (Proc.devRef .tc main_v44) : IVec S31744x128 32) = shapeCast S31744x128 (W (Proc.devRef .tc main_v38) : IVec S4063232 32) shapeCasts_S4063232_S31744x128 := by
  simp only [hostOps0_8]
  after_results_simp
  try simp only [ofBuf_toBuf]
  try simp only [TRef.ofBuf, TRef.toBuf, cast_eq]
  first | done | rfl
theorem s8_v45 : (after hostOps0_8 W (Proc.devRef .tc main_v45) : IVec S31744x128 32) = shapeCast S31744x128 (W (Proc.devRef .tc main_v39) : IVec S4063232 32) shapeCasts_S4063232_S31744x128 := by
  simp only [hostOps0_8]
  after_results_simp
  try simp only [ofBuf_toBuf]
  try simp only [TRef.ofBuf, TRef.toBuf, cast_eq]
  first | done | rfl
theorem s8_v46 : (after hostOps0_8 W (Proc.devRef .tc main_v46) : FVec F S3x31744x128 .f32) = shapeCast S3x31744x128 (W (Proc.devRef .tc main_v40) : FVec F S3x4063232 .f32) shapeCasts_S3x4063232_S3x31744x128 := by
  simp only [hostOps0_8]
  after_results_simp
  try simp only [ofBuf_toBuf]
  try simp only [TRef.ofBuf, TRef.toBuf, cast_eq]
  first | done | rfl
theorem s8_v47 : (after hostOps0_8 W (Proc.devRef .tc main_v47) : FVec F S3x31744x128 .f32) = shapeCast S3x31744x128 (W (Proc.devRef .tc main_v41) : FVec F S3x4063232 .f32) shapeCasts_S3x4063232_S3x31744x128 := by
  simp only [hostOps0_8]
  after_results_simp
  try simp only [ofBuf_toBuf]
  try simp only [TRef.ofBuf, TRef.toBuf, cast_eq]
  first | done | rfl

/-! ## What each stretch before the region leaves alone -/

theorem keep1_v1 : after hostOps0_1 W (Proc.devRef .tc main_v1) = W (Proc.devRef .tc main_v1) := by
  simp only [hostOps0_1]
  after_results_simp
theorem keep1_v3 : after hostOps0_1 W (Proc.devRef .tc main_v3) = W (Proc.devRef .tc main_v3) := by
  simp only [hostOps0_1]
  after_results_simp
theorem keep1_v34 : after hostOps0_1 W (Proc.devRef .tc main_v34) = W (Proc.devRef .tc main_v34) := by
  simp only [hostOps0_1]
  after_results_simp
theorem keep1_v35 : after hostOps0_1 W (Proc.devRef .tc main_v35) = W (Proc.devRef .tc main_v35) := by
  simp only [hostOps0_1]
  after_results_simp
theorem keep2_v1 : after hostOps0_2 W (Proc.devRef .tc main_v1) = W (Proc.devRef .tc main_v1) := by
  simp only [hostOps0_2]
  after_results_simp
theorem keep2_v3 : after hostOps0_2 W (Proc.devRef .tc main_v3) = W (Proc.devRef .tc main_v3) := by
  simp only [hostOps0_2]
  after_results_simp
theorem keep2_v34 : after hostOps0_2 W (Proc.devRef .tc main_v34) = W (Proc.devRef .tc main_v34) := by
  simp only [hostOps0_2]
  after_results_simp
theorem keep2_v35 : after hostOps0_2 W (Proc.devRef .tc main_v35) = W (Proc.devRef .tc main_v35) := by
  simp only [hostOps0_2]
  after_results_simp
theorem keep2_v36 : after hostOps0_2 W (Proc.devRef .tc main_v36) = W (Proc.devRef .tc main_v36) := by
  simp only [hostOps0_2]
  after_results_simp
theorem keep3_v1 : after hostOps0_3 W (Proc.devRef .tc main_v1) = W (Proc.devRef .tc main_v1) := by
  simp only [hostOps0_3]
  after_results_simp
theorem keep3_v3 : after hostOps0_3 W (Proc.devRef .tc main_v3) = W (Proc.devRef .tc main_v3) := by
  simp only [hostOps0_3]
  after_results_simp
theorem keep3_v34 : after hostOps0_3 W (Proc.devRef .tc main_v34) = W (Proc.devRef .tc main_v34) := by
  simp only [hostOps0_3]
  after_results_simp
theorem keep3_v35 : after hostOps0_3 W (Proc.devRef .tc main_v35) = W (Proc.devRef .tc main_v35) := by
  simp only [hostOps0_3]
  after_results_simp
theorem keep3_v36 : after hostOps0_3 W (Proc.devRef .tc main_v36) = W (Proc.devRef .tc main_v36) := by
  simp only [hostOps0_3]
  after_results_simp
theorem keep4_v1 : after hostOps0_4 W (Proc.devRef .tc main_v1) = W (Proc.devRef .tc main_v1) := by
  simp only [hostOps0_4]
  after_results_simp
theorem keep4_v3 : after hostOps0_4 W (Proc.devRef .tc main_v3) = W (Proc.devRef .tc main_v3) := by
  simp only [hostOps0_4]
  after_results_simp
theorem keep4_v34 : after hostOps0_4 W (Proc.devRef .tc main_v34) = W (Proc.devRef .tc main_v34) := by
  simp only [hostOps0_4]
  after_results_simp
theorem keep4_v35 : after hostOps0_4 W (Proc.devRef .tc main_v35) = W (Proc.devRef .tc main_v35) := by
  simp only [hostOps0_4]
  after_results_simp
theorem keep4_v36 : after hostOps0_4 W (Proc.devRef .tc main_v36) = W (Proc.devRef .tc main_v36) := by
  simp only [hostOps0_4]
  after_results_simp
theorem keep4_v37 : after hostOps0_4 W (Proc.devRef .tc main_v37) = W (Proc.devRef .tc main_v37) := by
  simp only [hostOps0_4]
  after_results_simp
theorem keep5_v1 : after hostOps0_5 W (Proc.devRef .tc main_v1) = W (Proc.devRef .tc main_v1) := by
  simp only [hostOps0_5]
  after_results_simp
theorem keep5_v3 : after hostOps0_5 W (Proc.devRef .tc main_v3) = W (Proc.devRef .tc main_v3) := by
  simp only [hostOps0_5]
  after_results_simp
theorem keep5_v35 : after hostOps0_5 W (Proc.devRef .tc main_v35) = W (Proc.devRef .tc main_v35) := by
  simp only [hostOps0_5]
  after_results_simp
theorem keep5_v36 : after hostOps0_5 W (Proc.devRef .tc main_v36) = W (Proc.devRef .tc main_v36) := by
  simp only [hostOps0_5]
  after_results_simp
theorem keep5_v37 : after hostOps0_5 W (Proc.devRef .tc main_v37) = W (Proc.devRef .tc main_v37) := by
  simp only [hostOps0_5]
  after_results_simp
theorem keep5_v38 : after hostOps0_5 W (Proc.devRef .tc main_v38) = W (Proc.devRef .tc main_v38) := by
  simp only [hostOps0_5]
  after_results_simp
theorem keep6_v1 : after hostOps0_6 W (Proc.devRef .tc main_v1) = W (Proc.devRef .tc main_v1) := by
  simp only [hostOps0_6]
  after_results_simp
theorem keep6_v3 : after hostOps0_6 W (Proc.devRef .tc main_v3) = W (Proc.devRef .tc main_v3) := by
  simp only [hostOps0_6]
  after_results_simp
theorem keep6_v35 : after hostOps0_6 W (Proc.devRef .tc main_v35) = W (Proc.devRef .tc main_v35) := by
  simp only [hostOps0_6]
  after_results_simp
theorem keep6_v37 : after hostOps0_6 W (Proc.devRef .tc main_v37) = W (Proc.devRef .tc main_v37) := by
  simp only [hostOps0_6]
  after_results_simp
theorem keep6_v38 : after hostOps0_6 W (Proc.devRef .tc main_v38) = W (Proc.devRef .tc main_v38) := by
  simp only [hostOps0_6]
  after_results_simp
theorem keep6_v39 : after hostOps0_6 W (Proc.devRef .tc main_v39) = W (Proc.devRef .tc main_v39) := by
  simp only [hostOps0_6]
  after_results_simp
theorem keep7_v1 : after hostOps0_7 W (Proc.devRef .tc main_v1) = W (Proc.devRef .tc main_v1) := by
  simp only [hostOps0_7]
  after_results_simp
theorem keep7_v3 : after hostOps0_7 W (Proc.devRef .tc main_v3) = W (Proc.devRef .tc main_v3) := by
  simp only [hostOps0_7]
  after_results_simp
theorem keep7_v38 : after hostOps0_7 W (Proc.devRef .tc main_v38) = W (Proc.devRef .tc main_v38) := by
  simp only [hostOps0_7]
  after_results_simp
theorem keep7_v39 : after hostOps0_7 W (Proc.devRef .tc main_v39) = W (Proc.devRef .tc main_v39) := by
  simp only [hostOps0_7]
  after_results_simp
theorem keep7_v40 : after hostOps0_7 W (Proc.devRef .tc main_v40) = W (Proc.devRef .tc main_v40) := by
  simp only [hostOps0_7]
  after_results_simp
theorem keep8_v1 : after hostOps0_8 W (Proc.devRef .tc main_v1) = W (Proc.devRef .tc main_v1) := by
  simp only [hostOps0_8]
  after_results_simp
theorem keep8_v3 : after hostOps0_8 W (Proc.devRef .tc main_v3) = W (Proc.devRef .tc main_v3) := by
  simp only [hostOps0_8]
  after_results_simp

/-! ## After the region -/

theorem t1_v61 : (after hostOps1 W (Proc.devRef .tc main_v61) : IVec S4000000 1) = sulfurOf (W (Proc.devRef .tc main_v42)) (W (Proc.devRef .tc main_v43)) := by
  simp only [hostOps1]
  after_results_simp
  try simp only [ofBuf_toBuf]
  try simp only [TRef.ofBuf, TRef.toBuf, cast_eq]
  first | done | rfl
theorem t1_v85 : (after hostOps1 W (Proc.devRef .tc main_v85) : IVec S4000000x4 1) = pairAlt (W (Proc.devRef .tc main_v42)) (W (Proc.devRef .tc main_v43)) := by
  simp only [hostOps1]
  after_results_simp
  try simp only [ofBuf_toBuf]
  try simp only [TRef.ofBuf, TRef.toBuf, cast_eq]
  first | done | rfl
theorem t1_v86 : (after hostOps1 W (Proc.devRef .tc main_v86) : FVec F S4000000x1 .f32)
    = broadcastInDim S4000000x1 ![0] bcast_S4000000_S4000000x1_0 (netOf (W (Proc.devRef .tc main_v48) : FVec F S31744x128 .f32)) := by
  simp only [hostOps1]
  after_results_simp
  try simp only [ofBuf_toBuf]
  try simp only [TRef.ofBuf, TRef.toBuf, cast_eq]
  first | done | rfl
theorem t1_cst : (after hostOps1 W (Proc.devRef .tc main_cst) : FVec F S_ .f32) = constant S_ .f32 0x00000000#32 := by
  simp only [hostOps1]
  after_results_simp
  try simp only [ofBuf_toBuf]
  try simp only [TRef.ofBuf, TRef.toBuf, cast_eq]
  first | done | rfl
theorem t2_v87 : (after hostOps1_1 W (Proc.devRef .tc main_v87) : FVec F S4000000x4 .f32)
    = select (W (Proc.devRef .tc main_v85) : IVec S4000000x4 1) (broadcastInDim S4000000x4 ![0, 1] bcast_S4000000x1_S4000000x4_0_1 (W (Proc.devRef .tc main_v86) : FVec F S4000000x1 .f32))
        (broadcastInDim S4000000x4 ![] bcast_S_S4000000x4 (id (W (Proc.devRef .tc main_cst) : FVec F S_ .f32))) := by
  simp only [hostOps1_1]
  after_results_simp
  try simp only [ofBuf_toBuf]
  try simp only [TRef.ofBuf, TRef.toBuf, cast_eq]
  first | done | rfl
theorem t3_v97 : (after hostOps1_2 W (Proc.devRef .tc main_v97) : FVec F S500000x4 .f32)
    = atomEnergy (W (Proc.devRef .tc main_v1)) (W (Proc.devRef .tc main_v3)) (W (Proc.devRef .tc main_v87)) := by
  simp only [hostOps1_2]
  after_results_simp
  try simp only [ofBuf_toBuf]
  try simp only [TRef.ofBuf, TRef.toBuf, cast_eq]
  first | done | rfl
theorem t3_v113 : (after hostOps1_2 W (Proc.devRef .tc main_v113) : FVec F S8x4x500x4 .f32)
    = resiEnergy (W (Proc.devRef .tc main_arg1)) (atomEnergy (W (Proc.devRef .tc main_v1)) (W (Proc.devRef .tc main_v3)) (W (Proc.devRef .tc main_v87))) := by
  simp only [hostOps1_2]
  after_results_simp
  try simp only [ofBuf_toBuf]
  try simp only [TRef.ofBuf, TRef.toBuf, cast_eq]
  first | done | rfl

/-! ## What each stretch after the region leaves alone -/

theorem keepT1_v1 : after hostOps1 W (Proc.devRef .tc main_v1) = W (Proc.devRef .tc main_v1) := by
  simp only [hostOps1]
  after_results_simp
theorem keepT1_v3 : after hostOps1 W (Proc.devRef .tc main_v3) = W (Proc.devRef .tc main_v3) := by
  simp only [hostOps1]
  after_results_simp
theorem keepT1_arg1 : after hostOps1 W (Proc.devRef .tc main_arg1) = W (Proc.devRef .tc main_arg1) := by
  simp only [hostOps1]
  after_results_simp
theorem keepT2_v1 : after hostOps1_1 W (Proc.devRef .tc main_v1) = W (Proc.devRef .tc main_v1) := by
  simp only [hostOps1_1]
  after_results_simp
theorem keepT2_v3 : after hostOps1_1 W (Proc.devRef .tc main_v3) = W (Proc.devRef .tc main_v3) := by
  simp only [hostOps1_1]
  after_results_simp
theorem keepT2_arg1 : after hostOps1_1 W (Proc.devRef .tc main_arg1) = W (Proc.devRef .tc main_arg1) := by
  simp only [hostOps1_1]
  after_results_simp
theorem keepT2_v61 : after hostOps1_1 W (Proc.devRef .tc main_v61) = W (Proc.devRef .tc main_v61) := by
  simp only [hostOps1_1]
  after_results_simp
theorem keepT3_v61 : after hostOps1_2 W (Proc.devRef .tc main_v61) = W (Proc.devRef .tc main_v61) := by
  simp only [hostOps1_2]
  after_results_simp

end Cert.KernelIdeal.Hand

end
-- ==== Proof.KTerm.lean ====
/-
  What the kernel program's buffers hold, as pure terms of the argument arrays.

  When the region is entered, the two gathered word arrays and the two gathered coordinate arrays are jnp's fill-mode
  `take` of the packed atom words and of the transposed coordinates at the zero-padded pair indices, re-laid as
  [31744, 128] and [3, 31744, 128]. When the program ends, the sulfur mask is the conjunction of the two gathered
  words' sulfur bits over the first 4,000,000 pairs; the atoms' energies are the masked pair energies — the region's
  result read back as a vector — scattered onto both endpoints; the residues' energies are their sums over atoms.
  The program's host operations are nine stretches before the region and three after it; each buffer is followed
  back through the stretches that leave it alone to the stretch that wrote it.
-/
import proofs.«400768_j49443663511892_3_alg».proof.Proof.KIFrame
import proofs.«400768_j49443663511892_3_alg».proof.Proof.KStretch

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## The argument arrays -/

abbrev inCoords (c : Dev nD) : FVec F S500000x3 .f32 := m ((c : Thread nD τ).loc main_arg0)
abbrev inAtoms (c : Dev nD) : IVec S500000x4 32 := m ((c : Thread nD τ).loc main_arg1)
abbrev inPairs (c : Dev nD) : IVec S4000000x2 32 := m ((c : Thread nD τ).loc main_arg2)
abbrev inAlts (c : Dev nD) : IVec S500000x4 1 := m ((c : Thread nD τ).loc main_arg3)

/-- The first atoms' packed words, the second atoms', and their coordinates, over the padded pairs. -/
abbrev wordsI (c : Dev nD) : IVec S4063232 32 := takeWords (packed (inAtoms m c) (inAlts m c)) (padIdx (pairCol0 (inPairs m c)))
abbrev wordsJ (c : Dev nD) : IVec S4063232 32 := takeWords (packed (inAtoms m c) (inAlts m c)) (padIdx (pairCol1 (inPairs m c)))
abbrev ptsI (c : Dev nD) : FVec F S3x4063232 .f32 := takeCoords (coordsT (inCoords m c)) (padIdx (pairCol0 (inPairs m c)))
abbrev ptsJ (c : Dev nD) : FVec F S3x4063232 .f32 := takeCoords (coordsT (inCoords m c)) (padIdx (pairCol1 (inPairs m c)))

/-! ## The buffers when the region is entered -/

/-- The buffers before the last stretch before the region. -/
abbrev U7 (c : Dev nD) : Valuation τ sig (Elt F) :=
  after hostOps0_7 (after hostOps0_6 (after hostOps0_5 (after hostOps0_4 (after hostOps0_3 (after hostOps0_2 (after hostOps0_1
    (after hostOps0 (fun b => m (c, b)))))))))

theorem V0_eq (c : Dev nD) : V0 m c = after hostOps0_8 (U7 m c) := by
  dsimp only [V0, U7]
  simp only [List.flatten_cons, List.flatten_nil, List.append_nil, StableHlo.after_append]

theorem U7_v38 (c : Dev nD) : (U7 m c (Proc.devRef .tc main_v38) : IVec S4063232 32) = wordsI m c := by
  dsimp only [U7]
  rw [keep7_v38, keep6_v38, keep5_v38, s4_v38, keep3_v34, keep2_v34, keep1_v34, s0_v34, keep3_v36, keep2_v36,
    s1_v36 _ (s0_c5 _), s0_v1]
theorem U7_v39 (c : Dev nD) : (U7 m c (Proc.devRef .tc main_v39) : IVec S4063232 32) = wordsJ m c := by
  dsimp only [U7]
  rw [keep7_v39, keep6_v39, s5_v39, keep4_v34, keep3_v34, keep2_v34, keep1_v34, s0_v34, keep4_v37,
    s3_v37 _ (s2_c6 _), keep2_v3, keep1_v3, s0_v3]
theorem U7_v40 (c : Dev nD) : (U7 m c (Proc.devRef .tc main_v40) : FVec F S3x4063232 .f32) = ptsI m c := by
  dsimp only [U7]
  rw [keep7_v40, s6_v40, keep5_v35, keep4_v35, keep3_v35, keep2_v35, keep1_v35, s0_v35, keep5_v36, keep4_v36, keep3_v36,
    keep2_v36, s1_v36 _ (s0_c5 _), s0_v1]
theorem U7_v41 (c : Dev nD) : (U7 m c (Proc.devRef .tc main_v41) : FVec F S3x4063232 .f32) = ptsJ m c := by
  dsimp only [U7]
  rw [s7_v41, keep6_v35, keep5_v35, keep4_v35, keep3_v35, keep2_v35, keep1_v35, s0_v35, keep6_v37, keep5_v37, keep4_v37,
    s3_v37 _ (s2_c6 _), keep2_v3, keep1_v3, s0_v3]

theorem V_v1 (c : Dev nD) : (V m c main_v1 : IVec S4000000 32) = pairCol0 (inPairs m c) := by
  show V0 m c (Proc.devRef .tc main_v1) = _
  rw [V0_eq]; dsimp only [U7]
  rw [keep8_v1, keep7_v1, keep6_v1, keep5_v1, keep4_v1, keep3_v1, keep2_v1, keep1_v1, s0_v1]
theorem V_v3 (c : Dev nD) : (V m c main_v3 : IVec S4000000 32) = pairCol1 (inPairs m c) := by
  show V0 m c (Proc.devRef .tc main_v3) = _
  rw [V0_eq]; dsimp only [U7]
  rw [keep8_v3, keep7_v3, keep6_v3, keep5_v3, keep4_v3, keep3_v3, keep2_v3, keep1_v3, s0_v3]
theorem V_v42 (c : Dev nD) : (V m c main_v42 : IVec S4000000 32) = extractStridedSlice S4000000 ![0] (wordsI m c) Gen.slices_S4063232_S4000000_0 := by
  show V0 m c (Proc.devRef .tc main_v42) = _
  rw [V0_eq, s8_v42, U7_v38]
theorem V_v43 (c : Dev nD) : (V m c main_v43 : IVec S4000000 32) = extractStridedSlice S4000000 ![0] (wordsJ m c) Gen.slices_S4063232_S4000000_0 := by
  show V0 m c (Proc.devRef .tc main_v43) = _
  rw [V0_eq, s8_v43, U7_v39]
theorem V_v44 (c : Dev nD) : (V m c main_v44 : IVec S31744x128 32) = shapeCast S31744x128 (wordsI m c) Gen.shapeCasts_S4063232_S31744x128 := by
  show V0 m c (Proc.devRef .tc main_v44) = _
  rw [V0_eq, s8_v44, U7_v38]
theorem V_v45 (c : Dev nD) : (V m c main_v45 : IVec S31744x128 32) = shapeCast S31744x128 (wordsJ m c) Gen.shapeCasts_S4063232_S31744x128 := by
  show V0 m c (Proc.devRef .tc main_v45) = _
  rw [V0_eq, s8_v45, U7_v39]
theorem V_v46 (c : Dev nD) : (V m c main_v46 : FVec F S3x31744x128 .f32) = shapeCast S3x31744x128 (ptsI m c) Gen.shapeCasts_S3x4063232_S3x31744x128 := by
  show V0 m c (Proc.devRef .tc main_v46) = _
  rw [V0_eq, s8_v46, U7_v40]
theorem V_v47 (c : Dev nD) : (V m c main_v47 : FVec F S3x31744x128 .f32) = shapeCast S3x31744x128 (ptsJ m c) Gen.shapeCasts_S3x4063232_S3x31744x128 := by
  show V0 m c (Proc.devRef .tc main_v47) = _
  rw [V0_eq, s8_v47, U7_v41]

/-! ## The buffers when the program ends -/

/-- The buffers when the region is left: its arrays as the proof data computes them, every other buffer as entered. -/
abbrev X (c : Dev nD) : Valuation τ sig (Elt F) :=
  Pipeline.withArrays spec0 c (V0 m c) fun w => (dats m 0 c).arrAt w cfg0.N

theorem tail_eq (c : Dev nD) (b : Ref sig .tc) :
    Pipeline.afterTail₀ cfgs (dats m) 0 (V0 m) [hostOps1, hostOps1_1, hostOps1_2] c b
      = after hostOps1_2 (after hostOps1_1 (after hostOps1 (X m c))) (Proc.devRef .tc b) := by
  unfold Pipeline.afterTail₀
  simp only [List.flatten_cons, List.flatten_nil, List.append_nil, StableHlo.after_append]

theorem X_v1 (c : Dev nD) : X m c (Proc.devRef .tc main_v1) = V m c main_v1 := Pipeline.withArrays_of_ne spec0 c _ _ main_v1 (by decide)
theorem X_v3 (c : Dev nD) : X m c (Proc.devRef .tc main_v3) = V m c main_v3 := Pipeline.withArrays_of_ne spec0 c _ _ main_v3 (by decide)
theorem X_v42 (c : Dev nD) : X m c (Proc.devRef .tc main_v42) = V m c main_v42 := Pipeline.withArrays_of_ne spec0 c _ _ main_v42 (by decide)
theorem X_v43 (c : Dev nD) : X m c (Proc.devRef .tc main_v43) = V m c main_v43 := Pipeline.withArrays_of_ne spec0 c _ _ main_v43 (by decide)
theorem X_arg1 (c : Dev nD) : X m c (Proc.devRef .tc main_arg1) = V m c main_arg1 := Pipeline.withArrays_of_ne spec0 c _ _ main_arg1 (by decide)
theorem X_v48 (c : Dev nD) : X m c (Proc.devRef .tc main_v48) = (dats m 0 c).arrAt 4 cfg0.N :=
  Pipeline.withArrays_arr spec0 launch0.win.arr_inj c _ _ 4

/-- The masked energies the program scatters: the region's result read as a vector, kept where the pair is a sulfur pair
    whose two atoms have the alternative. -/
abbrev pairWeights (c : Dev nD) : FVec F S4000000x4 .f32 :=
  weights (pairAlt (V m c main_v42) (V m c main_v43)) (netOf ((dats m 0 c).arrAt 4 cfg0.N))

theorem T_v61 (c : Dev nD) : (Pipeline.afterTail₀ cfgs (dats m) 0 (V0 m) [hostOps1, hostOps1_1, hostOps1_2] c main_v61 : IVec S4000000 1)
    = sulfurOf (V m c main_v42) (V m c main_v43) := by
  rw [tail_eq, keepT3_v61, keepT2_v61, t1_v61, X_v42, X_v43]

theorem T_v97 (c : Dev nD) : (Pipeline.afterTail₀ cfgs (dats m) 0 (V0 m) [hostOps1, hostOps1_1, hostOps1_2] c main_v97 : FVec F S500000x4 .f32)
    = atomEnergy (V m c main_v1) (V m c main_v3) (pairWeights m c) := by
  rw [tail_eq, t3_v97, keepT2_v1, keepT1_v1, X_v1, keepT2_v3, keepT1_v3, X_v3, t2_v87, t1_v85, t1_v86, t1_cst, X_v42, X_v43, X_v48]
  rfl

theorem T_v113 (c : Dev nD) : (Pipeline.afterTail₀ cfgs (dats m) 0 (V0 m) [hostOps1, hostOps1_1, hostOps1_2] c main_v113 : FVec F S8x4x500x4 .f32)
    = resiEnergy (inAtoms m c) (atomEnergy (V m c main_v1) (V m c main_v3) (pairWeights m c)) := by
  rw [tail_eq, t3_v113, keepT2_arg1, keepT1_arg1, X_arg1, V_main_arg1, keepT2_v1, keepT1_v1, X_v1, keepT2_v3, keepT1_v3, X_v3,
    t2_v87, t1_v85, t1_v86, t1_cst, X_v42, X_v43, X_v48]
  rfl

/-! ## The run with its results named -/

/-- Every weakly fair execution of the program terminates with the residues' energies, the atoms' energies and the sulfur
    mask at the stages' values, and the five argument arrays as launched. -/
theorem run_values : θ_run defs (onTc (τ := τ) (main (F := F))) ⟨m, fun _ => 0, ρ⟩ (fun r => ∀ c : Dev nD,
      r.2.mem ((c.tc : Thread nD τ).loc main_v113) = resiEnergy (inAtoms m c) (atomEnergy (V m c main_v1) (V m c main_v3) (pairWeights m c))
      ∧ r.2.mem ((c.tc : Thread nD τ).loc main_v97) = atomEnergy (V m c main_v1) (V m c main_v3) (pairWeights m c)
      ∧ r.2.mem ((c.tc : Thread nD τ).loc main_v61) = sulfurOf (V m c main_v42) (V m c main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v113 (Pipeline.mem_restRefs_of main_v113 (by decide) (by decide))).trans (T_v113 m c),
     ((h c).2 main_v97 (Pipeline.mem_restRefs_of main_v97 (by decide) (by decide))).trans (T_v97 m c),
     ((h c).2 main_v61 (Pipeline.mem_restRefs_of main_v61 (by decide) (by decide))).trans (T_v61 m c),
     ((h c).2 main_arg0 (Pipeline.mem_restRefs_of main_arg0 (by decide) (by decide))).trans (tail_main_arg0 m c),
     ((h c).2 main_arg1 (Pipeline.mem_restRefs_of main_arg1 (by decide) (by decide))).trans (tail_main_arg1 m c),
     ((h c).2 main_arg2 (Pipeline.mem_restRefs_of main_arg2 (by decide) (by decide))).trans (tail_main_arg2 m c),
     ((h c).2 main_arg3 (Pipeline.mem_restRefs_of main_arg3 (by decide) (by decide))).trans (tail_main_arg3 m c),
     ((h c).2 main_arg4 (Pipeline.mem_restRefs_of main_arg4 (by decide) (by decide))).trans (tail_main_arg4 m c)⟩) (run_main m ρ)

end Cert.KernelIdeal.Hand

end
-- ==== Proof.Spec.lean ====
/-
  What both programs compute, pair by pair, as plain functions of the four input arrays at the ideal instance.

  A pair `p` names two atoms `i`, `j` (the two columns of the pair table, read as row numbers of the atom tables).
  * `bothSulfur`: both atoms carry the sulfur name code 7.
  * `resGap`: the distance between their residue numbers, as a real number.
  * `dist`: the Euclidean norm of the coordinate difference shifted by the pairwise-distance epsilon on each axis.
  * `pairEnergy`: for a sulfur pair, half of  -0.298 · (2.1 + 2.9823825 · log |g|) + 5 · |d - 2.04|, where `g` is the
    residue gap when it is positive and 1 otherwise; zero for any other pair.
  * `weightOf`: the pair's energy where the pair is a sulfur pair and both atoms have the alternative, zero elsewhere.
  The float literals stay the binary words both programs print; the same word on both sides is never evaluated.
-/
import Idealize.ShloMosaic.PureOps.Ideal
import Idealize.ShloMosaic.Lib.ValueIdx

noncomputable section

namespace Cert.Spec

open Idealize.ShloMosaic Idealize.ShloMosaic.ValueIdx

/-- The absolute value of an extended real, as both programs compute it. -/
def absE (x : EReal) : EReal := max x (-x)

/-- Both atoms' name codes are the sulfur code. -/
def bothSulfur (ni nj : BitVec 32) : BitVec 1 := IntOp.andi (IntOp.cmpi .eq ni 7#32) (IntOp.cmpi .eq nj 7#32)

/-- The gap between two residue numbers, a real number. -/
def resGap (ri rj : BitVec 32) : EReal := (((|ri.toInt - rj.toInt| : Int) : ℝ) : EReal)

/-- The shifted Euclidean distance of two points. -/
def dist (x y : Fin 3 → EReal) : EReal :=
  Ideal.sqrt (∑ k : Fin 3, (x k - y k + Ideal.ofBits .f32 0x358637BD#32) * (x k - y k + Ideal.ofBits .f32 0x358637BD#32))

/-- The residue gap where the pair is a sulfur pair with a positive gap, one elsewhere: the logarithm's argument. -/
def gapOrOne (s : BitVec 1) (g : EReal) : EReal :=
  Scalar.select (IntOp.andi s (FloatOps.cmpf (F := Ideal) (φ := .f32) .ogt g (Ideal.ofBits .f32 0x00000000#32))) g (Ideal.ofBits .f32 0x3F800000#32)

/-- One pair's energy from its sulfur flag, residue gap and distance. -/
def pairEnergy (s : BitVec 1) (g d : EReal) : EReal :=
  Scalar.select s
    (Ideal.ofBits .f32 0x3F000000#32 *
      (Ideal.ofBits .f32 0xBE989375#32 *
          (Ideal.ofBits .f32 0x40066666#32 + Ideal.ofBits .f32 0x403EDF5B#32 * Ideal.log (absE (gapOrOne s g)))
        + Ideal.ofBits .f32 0x40A00000#32 * absE (d - Ideal.ofBits .f32 0x40028F5C#32)))
    (Ideal.ofBits .f32 0x00000000#32)

/-- The energy a pair contributes to one alternative of its two atoms. -/
def weightOf (s mi mj : BitVec 1) (e : EReal) : EReal :=
  Scalar.select (IntOp.andi (IntOp.andi s mi) mj) e (Ideal.ofBits .f32 0x00000000#32)

section Arrays

variable (A0 : (⟨2, ![500000, 3]⟩ : Shape).Idx → EReal) (A1 : IVec ⟨2, ![500000, 4]⟩ 32)
  (A2 : IVec ⟨2, ![4000000, 2]⟩ 32) (A3 : IVec ⟨2, ![500000, 4]⟩ 1)

/-- The atom a pair-table word names: the word read signed and kept inside the table. -/
def atomOf (x : BitVec 32) : Fin 500000 := ⟨min x.toInt.toNat 499999, by omega⟩

/-- The first and second atom of pair `p`. -/
def iAt (p : Fin 4000000) : Fin 500000 := atomOf (A2 (ix2 p (0 : Fin 2)))
def jAt (p : Fin 4000000) : Fin 500000 := atomOf (A2 (ix2 p (1 : Fin 2)))

/-- Pair `p` joins two sulfurs. -/
def sulfurAt (p : Fin 4000000) : BitVec 1 :=
  bothSulfur (A1 (ix2 (iAt A2 p) (0 : Fin 4))) (A1 (ix2 (jAt A2 p) (0 : Fin 4)))

/-- Pair `p`'s residue gap. -/
def gapAt (p : Fin 4000000) : EReal := resGap (A1 (ix2 (iAt A2 p) (1 : Fin 4))) (A1 (ix2 (jAt A2 p) (1 : Fin 4)))

/-- Pair `p`'s distance. -/
def distAt (p : Fin 4000000) : EReal := dist (fun k => A0 (ix2 (iAt A2 p) k)) (fun k => A0 (ix2 (jAt A2 p) k))

/-- Pair `p`'s energy. -/
def netAt (p : Fin 4000000) : EReal := pairEnergy (sulfurAt A1 A2 p) (gapAt A1 A2 p) (distAt A0 A2 p)

/-- What pair `p` adds to alternative `a` of each of its atoms. -/
def wAt (p : Fin 4000000) (a : Fin 4) : EReal :=
  weightOf (sulfurAt A1 A2 p) (A3 (ix2 (iAt A2 p) a)) (A3 (ix2 (jAt A2 p) a)) (netAt A0 A1 A2 p)

end Arrays

end Cert.Spec

end
-- ==== Proof.KGrid.lean ====
/-
  The region's result as ONE function of its four whole input arrays, at the ideal instance.

  The region reads two [31744, 128] arrays of packed atom words (the first and second atom of every padded pair, pair
  `128·R + l` at row `R`, lane `l`) and two [3, 31744, 128] arrays of their coordinates. At every cell it computes the
  pair energy of the specification from what the words and coordinates there say: the sulfur flag is bit 9 of both
  words, the residue gap the distance between the words' low nine bits read as numbers.
-/
import proofs.«400768_j49443663511892_3_alg».proof.Proof.Spec

noncomputable section

namespace Cert.KernelIdeal.Hand

open Idealize.ShloMosaic Idealize.ShloMosaic.ValueIdx

/-- Both packed words carry the sulfur bit (bit 9), as the body tests it. -/
def wordsSulfur (x y : BitVec 32) : BitVec 1 :=
  IntOp.cmpi .sgt (IntOp.andi (IntOp.andi (IntOp.shrsi .vector x 9#32) 1#32) (IntOp.andi (IntOp.shrsi .vector y 9#32) 1#32)) 0#32

/-- The distance between the two words' low nine bits, read as numbers. -/
def wordsGap (x y : BitVec 32) : EReal :=
  Cert.Spec.absE ((((IntOp.andi x 511#32).toInt : ℝ) : EReal) - (((IntOp.andi y 511#32).toInt : ℝ) : EReal))

/-- One cell of the region's result from the two words and the two points there. -/
def netCell (x y : BitVec 32) (p q : Fin 3 → EReal) : EReal :=
  Cert.Spec.pairEnergy (wordsSulfur x y) (wordsGap x y) (Cert.Spec.dist p q)

/-- The region's whole result from its four whole input arrays. -/
def netGrid (W0 W1 : IVec ⟨2, ![31744, 128]⟩ 32) (C0 C1 : (⟨3, ![3, 31744, 128]⟩ : Shape).Idx → EReal) :
    (⟨2, ![31744, 128]⟩ : Shape).Idx → EReal :=
  fun j => netCell (W0 j) (W1 j)
    (fun k => C0 (ix3 k (⟨(j 0).val, idx2_lt0 j⟩ : Fin 31744) (⟨(j 1).val, idx2_lt1 j⟩ : Fin 128)))
    (fun k => C1 (ix3 k (⟨(j 0).val, idx2_lt0 j⟩ : Fin 31744) (⟨(j 1).val, idx2_lt1 j⟩ : Fin 128)))

/-- `netGrid` at row `R`, lane `l`. -/
theorem netGrid_apply (W0 W1 : IVec ⟨2, ![31744, 128]⟩ 32) (C0 C1 : (⟨3, ![3, 31744, 128]⟩ : Shape).Idx → EReal)
    (R : Fin 31744) (l : Fin 128) :
    netGrid W0 W1 C0 C1 (ix2 R l)
      = netCell (W0 (ix2 R l)) (W1 (ix2 R l)) (fun k => C0 (ix3 k R l)) (fun k => C1 (ix3 k R l)) := rfl

end Cert.KernelIdeal.Hand

end
-- ==== Proof.KRegion.lean ====
/-
  From the blocks the grid points write to the whole result array of the region, at the ideal instance.

  The region has 31 grid points. Point t reads rows [1024 t, 1024 t + 1024) of the two word arrays and all three
  planes of those rows of the two coordinate arrays, and writes back those rows of the result. Given that the body's
  output block is, cell by cell, netCell of the input blocks' cells, the block point t writes back is block t of
  netGrid of the four whole input arrays; the 31 row blocks tile the 31744 rows, so the result array ends at netGrid.
-/
import proofs.«400768_j49443663511892_3_alg».proof.Proof.KIFrame
import proofs.«400768_j49443663511892_3_alg».proof.Proof.KGrid
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-! ## The index maps, decided over the grid -/

/-- Every window's block index at point t is t on the row axis and 0 on every other axis. -/
theorem blockIndex : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0) :=
  (by decide +kernel : ∀ t : Fin grid0.N, _)

/-- A grid point is below 31. -/
theorem point_lt (t : Fin cfg0.N) : t.val < 31 := lt_of_lt_of_eq t.isLt N_0

/-- Row r of point t's block is row 1024 t + r of the array. -/
def rowOf (t : Fin cfg0.N) (r : Fin 1024) : Fin 31744 :=
  ⟨1024 * t.val + r.val, by have := point_lt t; have := r.isLt; omega⟩

/-! ## Each input block, read off its array

Reading an array through point t's block of a window: an element of the block sits in the array, on every axis, at the
block index times the block's size plus its coordinate inside the block. Stated over any contents of the array. -/

/-- The first word array through point t's block: rows [1024 t, 1024 t + 1024). -/
theorem read_words0 (A : IVec S31744x128 32) (t : Fin cfg0.N) (r : Fin 1024) (l : Fin 128) :
    (((cfg0.win 0).blk t).view.read (Elt Ideal) A : Vec Ideal S1024x128 .i32) (ix2 r l) = A (ix2 (rowOf t r) l) := by
  obtain ⟨⟨e0, e1⟩, -⟩ := blockIndex t
  show A (((cfg0.win 0).blk t).view.emb (ix2 r l)) = A (ix2 (rowOf t r) l)
  refine congrArg A ?_
  funext a; apply Fin.ext
  match a with
  | ⟨0, _⟩ => show win0_0.index t (0 : Fin 2) * 1024 + 1 * r.val = 1024 * t.val + r.val; omega
  | ⟨1, _⟩ => show win0_0.index t (1 : Fin 2) * 128 + 1 * l.val = l.val; omega

/-- The second word array through point t's block. -/
theorem read_words1 (A : IVec S31744x128 32) (t : Fin cfg0.N) (r : Fin 1024) (l : Fin 128) :
    (((cfg0.win 1).blk t).view.read (Elt Ideal) A : Vec Ideal S1024x128 .i32) (ix2 r l) = A (ix2 (rowOf t r) l) := by
  obtain ⟨-, ⟨e0, e1⟩, -⟩ := blockIndex t
  show A (((cfg0.win 1).blk t).view.emb (ix2 r l)) = A (ix2 (rowOf t r) l)
  refine congrArg A ?_
  funext a; apply Fin.ext
  match a with
  | ⟨0, _⟩ => show win0_1.index t (0 : Fin 2) * 1024 + 1 * r.val = 1024 * t.val + r.val; omega
  | ⟨1, _⟩ => show win0_1.index t (1 : Fin 2) * 128 + 1 * l.val = l.val; omega

/-- The first coordinate array through point t's block: all three planes of rows [1024 t, 1024 t + 1024). -/
theorem read_coords2 (A : S3x31744x128.Idx → EReal) (t : Fin cfg0.N) (k : Fin 3) (r : Fin 1024) (l : Fin 128) :
    (((cfg0.win 2).blk t).view.read (Elt Ideal) A : Vec Ideal S3x1024x128 .f32) (ix3 k r l) = A (ix3 k (rowOf t r) l) := by
  obtain ⟨-, -, ⟨e0, e1, e2⟩, -⟩ := blockIndex t
  show A (((cfg0.win 2).blk t).view.emb (ix3 k r l)) = A (ix3 k (rowOf t r) l)
  refine congrArg A ?_
  funext a; apply Fin.ext
  match a with
  | ⟨0, _⟩ => show win0_2.index t (0 : Fin 3) * 3 + 1 * k.val = k.val; omega
  | ⟨1, _⟩ => show win0_2.index t (1 : Fin 3) * 1024 + 1 * r.val = 1024 * t.val + r.val; omega
  | ⟨2, _⟩ => show win0_2.index t (2 : Fin 3) * 128 + 1 * l.val = l.val; omega

/-- The second coordinate array through point t's block. -/
theorem read_coords3 (A : S3x31744x128.Idx → EReal) (t : Fin cfg0.N) (k : Fin 3) (r : Fin 1024) (l : Fin 128) :
    (((cfg0.win 3).blk t).view.read (Elt Ideal) A : Vec Ideal S3x1024x128 .f32) (ix3 k r l) = A (ix3 k (rowOf t r) l) := by
  obtain ⟨-, -, -, ⟨e0, e1, e2⟩, -⟩ := blockIndex t
  show A (((cfg0.win 3).blk t).view.emb (ix3 k r l)) = A (ix3 k (rowOf t r) l)
  refine congrArg A ?_
  funext a; apply Fin.ext
  match a with
  | ⟨0, _⟩ => show win0_3.index t (0 : Fin 3) * 3 + 1 * k.val = k.val; omega
  | ⟨1, _⟩ => show win0_3.index t (1 : Fin 3) * 1024 + 1 * r.val = 1024 * t.val + r.val; omega
  | ⟨2, _⟩ => show win0_3.index t (2 : Fin 3) * 128 + 1 * l.val = l.val; omega

/-- The result array through point t's block. -/
theorem read_out4 (A : S31744x128.Idx → EReal) (t : Fin cfg0.N) (r : Fin 1024) (l : Fin 128) :
    (((cfg0.win 4).blk t).view.read (Elt Ideal) A : Vec Ideal S1024x128 .f32) (ix2 r l) = A (ix2 (rowOf t r) l) := by
  obtain ⟨-, -, -, -, ⟨e0, e1⟩⟩ := blockIndex t
  show A (((cfg0.win 4).blk t).view.emb (ix2 r l)) = A (ix2 (rowOf t r) l)
  refine congrArg A ?_
  funext a; apply Fin.ext
  match a with
  | ⟨0, _⟩ => show win0_4.index t (0 : Fin 2) * 1024 + 1 * r.val = 1024 * t.val + r.val; omega
  | ⟨1, _⟩ => show win0_4.index t (1 : Fin 2) * 128 + 1 * l.val = l.val; omega

/-- The blocks the body sees at point t, as rows of the arrays the region finds. -/
theorem wordBlock0 (c : Dev nD) (t : Fin cfg0.N) (r : Fin 1024) (l : Fin 128) :
    (iblk m c 0 t : Vec Ideal S1024x128 .i32) (ix2 r l) = (V m c main_v44 : IVec S31744x128 32) (ix2 (rowOf t r) l) :=
  read_words0 (V m c main_v44) t r l
theorem wordBlock1 (c : Dev nD) (t : Fin cfg0.N) (r : Fin 1024) (l : Fin 128) :
    (iblk m c 1 t : Vec Ideal S1024x128 .i32) (ix2 r l) = (V m c main_v45 : IVec S31744x128 32) (ix2 (rowOf t r) l) :=
  read_words1 (V m c main_v45) t r l
theorem coordBlock2 (c : Dev nD) (t : Fin cfg0.N) (k : Fin 3) (r : Fin 1024) (l : Fin 128) :
    (iblk m c 2 t : Vec Ideal S3x1024x128 .f32) (ix3 k r l) = (V m c main_v46 : S3x31744x128.Idx → EReal) (ix3 k (rowOf t r) l) :=
  read_coords2 (V m c main_v46) t k r l
theorem coordBlock3 (c : Dev nD) (t : Fin cfg0.N) (k : Fin 3) (r : Fin 1024) (l : Fin 128) :
    (iblk m c 3 t : Vec Ideal S3x1024x128 .f32) (ix3 k r l) = (V m c main_v47 : S3x31744x128.Idx → EReal) (ix3 k (rowOf t r) l) :=
  read_coords3 (V m c main_v47) t k r l

/-! ## What a point writes back -/

/-- A cell's energy depends on the two words and the two points only. -/
theorem netCell_congr {x x' y y' : BitVec 32} {p p' q q' : Fin 3 → EReal} (hx : x = x') (hy : y = y')
    (hp : ∀ k, p k = p' k) (hq : ∀ k, q k = q' k) : netCell x y p q = netCell x' y' p' q' := by
  obtain rfl := hx
  obtain rfl := hy
  obtain rfl : p = p' := funext hp
  obtain rfl : q = q' := funext hq
  rfl

/-- Point t writes back block t of the grid of pair energies of the four whole arrays: the body's output block is, cell
    by cell, the pair energy of the input blocks' cells, and those cells are the arrays' cells at rows 1024 t + r. -/
theorem flushed_eq
    (hcell : ∀ (x0 x1 : Vec Ideal S1024x128 .i32) (x2 x3 : Vec Ideal S3x1024x128 .f32) (r : Fin 1024) (l : Fin 128),
      blockOut (F := Ideal) x0 x1 x2 x3 (ix2 r l) = netCell (x0 (ix2 r l)) (x1 (ix2 r l)) (fun k => x2 (ix3 k r l)) (fun k => x3 (ix3 k r l)))
    (c : Dev nD) (t : Fin cfg0.N) :
    (dats m 0 c).flushed 4 t = ((cfg0.win 4).blk t).view.read (Elt Ideal)
      (netGrid (V m c main_v44) (V m c main_v45) (V m c main_v46) (V m c main_v47)) := by
  show (cfg0.win 4).cut (grid0.coords t) ((dats m 0 c).after 4 t) = _
  rw [after0_4]
  funext j
  obtain ⟨r, l, rfl⟩ : ∃ (r : Fin 1024) (l : Fin 128), j = ix2 r l := ⟨j 0, j 1, eq_ix2 (n0 := 1024) (n1 := 128) j⟩
  refine Eq.trans ?_ (read_out4 _ t r l).symm
  rw [netGrid_apply]
  refine (hcell (iblk m c 0 t) (iblk m c 1 t) (iblk m c 2 t) (iblk m c 3 t) r l).trans ?_
  exact netCell_congr (wordBlock0 m c t r l) (wordBlock1 m c t r l) (fun k => coordBlock2 m c t k r l)
    (fun k => coordBlock3 m c t k r l)

/-! ## The blocks tile the array -/

/-- An index of the result array is in point t's block iff each coordinate is in the block's range on its axis. -/
theorem mem_block (t : Fin cfg0.N) (i : S31744x128.Idx) :
    i ∈ ((cfg0.win 4).blk t).view.set ↔ ∀ a : Fin 2, win0_4.index t a * S1024x128.size a ≤ (i a).val
      ∧ (i a).val < win0_4.index t a * S1024x128.size a + S1024x128.size a := by
  show i ∈ ((View.whole main_v48).slice (win0_4.rect t)).set ↔ _
  rw [View.set_slice_whole, Rect.mem_set_unit]
  exact Iff.rfl

/-- Row R of the result array is in the block of point R / 1024, which writes back: 31 blocks of 1024 rows are the 31744
    rows. -/
theorem covered (i : S31744x128.Idx) :
    ∃ t : Fin cfg0.N, (cfg0.win 4).flush t = true ∧ i ∈ ((cfg0.win 4).blk t).view.set := by
  have hi0 : (i 0).val < 31744 := idx2_lt0 i
  have hi1 : (i 1).val < 128 := idx2_lt1 i
  obtain ⟨t, ht⟩ : ∃ t : Fin cfg0.N, t.val = (i 0).val / 1024 :=
    ⟨⟨(i 0).val / 1024, lt_of_lt_of_eq (by omega : (i 0).val / 1024 < 31) N_0.symm⟩, rfl⟩
  obtain ⟨-, -, -, -, ⟨e0, e1⟩⟩ := blockIndex t
  refine ⟨t, flush0_4 t, ?_⟩
  rw [mem_block]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 128 ≤ (i 1).val ∧ (i 1).val < win0_4.index t (1 : Fin 2) * 128 + 128
    omega

/-! ## The result array -/

/-- The region leaves its result array at the grid of pair energies of its four input arrays as it finds them. -/
theorem region_value
    (hcell : ∀ (x0 x1 : Vec Ideal S1024x128 .i32) (x2 x3 : Vec Ideal S3x1024x128 .f32) (r : Fin 1024) (l : Fin 128),
      blockOut (F := Ideal) x0 x1 x2 x3 (ix2 r l) = netCell (x0 (ix2 r l)) (x1 (ix2 r l)) (fun k => x2 (ix3 k r l)) (fun k => x3 (ix3 k r l)))
    (c : Dev nD) :
    (dats m 0 c).arrAt 4 cfg0.N = netGrid (V m c main_v44) (V m c main_v45) (V m c main_v46) (V m c main_v47) :=
  (dats m 0 c).arrAt_eq_of_cover 4 (netGrid (V m c main_v44) (V m c main_v45) (V m c main_v46) (V m c main_v47))
    (fun t _ => flushed_eq m hcell c t) covered

end Cert.KernelIdeal.Hand

end
-- ==== Proof.KBlock.lean ====
/-
  One output block of the pair-energy body read at an index.

  The body stores one pointwise function of its four whole input blocks over the whole output block. At row `r`, lane
  `l` that function is the pair energy of the specification computed from the two packed words and the two points
  there: the sulfur flag from bit 9 of both words, the residue gap from their low nine bits, the distance from the
  sum over the three coordinate axes of the squared shifted differences.
-/
import proofs.«400768_j49443663511892_3_alg».proof.Proof.KIFrame
import proofs.«400768_j49443663511892_3_alg».proof.Proof.KGrid
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- The word block's rectangle sits at offset zero. -/
theorem offWords_zero : (![0, 0] : Fin 2 → Nat) = fun _ => 0 := funext fun a => by fin_cases a <;> rfl
/-- The coordinate block's rectangle sits at offset zero. -/
theorem offCoords_zero : (![0, 0, 0] : Fin 3 → Nat) = fun _ => 0 := funext fun a => by fin_cases a <;> rfl

/-- The sulfur test of the body at a cell: bit 9 of both words. -/
theorem sulfurBlock_apply (x0 x1 : Vec Ideal S1024x128 .i32) (r : Fin 1024) (l : Fin 128) :
    k0_pay4 (F := Ideal) x0 x1 (ix2 r l) = wordsSulfur (x0 (ix2 r l)) (x1 (ix2 r l)) := by
  unfold k0_pay4 k0_pay2 k0_pay3
  simp only [shapeCast_self]
  rfl

/-- The logarithm's argument of the body at a cell: the residue gap where the pair is a sulfur pair with a positive
    gap, one elsewhere. -/
theorem gapBlock_apply (x0 x1 : Vec Ideal S1024x128 .i32) (r : Fin 1024) (l : Fin 128) :
    k0_pay6 (F := Ideal) x0 x1 (ix2 r l)
      = Cert.Spec.gapOrOne (wordsSulfur (x0 (ix2 r l)) (x1 (ix2 r l))) (wordsGap (x0 (ix2 r l)) (x1 (ix2 r l))) := by
  unfold k0_pay6
  simp only [select_apply, ← sulfurBlock_apply]
  unfold k0_pay2 k0_pay3
  simp only [shapeCast_self]
  rfl

/-- The energy the body stores at a cell from the sulfur flag, the distance and the logarithm's argument there. -/
theorem energyBlock_apply (s : IVec S1024x128 1) (d g : FVec Ideal S1024x128 .f32) (i : S1024x128.Idx) :
    k0_pay1 (F := Ideal) s d g i
      = Scalar.select (s i)
          (Ideal.ofBits .f32 0x3F000000#32 *
            (Ideal.ofBits .f32 0xBE989375#32 *
                (Ideal.ofBits .f32 0x40066666#32 + Ideal.ofBits .f32 0x403EDF5B#32 * Ideal.log (Cert.Spec.absE (g i)))
              + Ideal.ofBits .f32 0x40A00000#32 * Cert.Spec.absE (d i - Ideal.ofBits .f32 0x40028F5C#32)))
          (Ideal.ofBits .f32 0x00000000#32) := by
  unfold k0_pay1
  rfl

/-- The index the reduction over the leading axis reads at coordinate `k` over the cell `(r, l)`. -/
theorem lift_cell (h : S3x1024x128.Reduces [0] S1024x128) (r : Fin 1024) (l : Fin 128) (k : Fin 3) :
    h.lift (ix2 r l) k = ix3 k r l := by
  funext a; refine Fin.ext ?_
  match a with
  | ⟨0, _⟩ => rfl
  | ⟨1, _⟩ => rfl
  | ⟨2, _⟩ => rfl

/-- The squared shifted difference of the two coordinate blocks at an index. -/
theorem sqShift_at (x2 x3 : Vec Ideal S3x1024x128 .f32) {i j : S3x1024x128.Idx} (h : i = j) :
    mulf (addf (subf x2 x3) (broadcast S3x1024x128 (Scalar.ofBits (F := Ideal) .f32 0x358637BD#32)))
        (addf (subf x2 x3) (broadcast S3x1024x128 (Scalar.ofBits (F := Ideal) .f32 0x358637BD#32))) i
      = (x2 j - x3 j + Ideal.ofBits .f32 0x358637BD#32) * (x2 j - x3 j + Ideal.ofBits .f32 0x358637BD#32) := by
  subst h; rfl

/-- The distance of the body at a cell: the root of the sum over the three axes of the squared shifted differences. -/
theorem distBlock_apply (x2 x3 : Vec Ideal S3x1024x128 .f32) (r : Fin 1024) (l : Fin 128) :
    k0_pay5 (F := Ideal) x2 x3 (ix2 r l) = Cert.Spec.dist (fun k => x2 (ix3 k r l)) (fun k => x3 (ix3 k r l)) := by
  unfold k0_pay5
  simp only [shapeCast_self]
  unfold Cert.Spec.dist
  refine congrArg Ideal.sqrt ?_
  refine (Ideal.multiReduction_add_single _ _ _ _ _ (ix2 r l)).trans ?_
  exact Finset.sum_congr rfl fun k _ => sqShift_at x2 x3 (lift_cell _ r l k)

/-- One output block of the body at row `r`, lane `l`: the pair energy of the two words and the two points there. -/
theorem blockOut_apply (x0 x1 : Vec Ideal S1024x128 .i32) (x2 x3 : Vec Ideal S3x1024x128 .f32) (r : Fin 1024) (l : Fin 128) :
    blockOut (F := Ideal) x0 x1 x2 x3 (ix2 r l)
      = netCell (x0 (ix2 r l)) (x1 (ix2 r l)) (fun k => x2 (ix3 k r l)) (fun k => x3 (ix3 k r l)) := by
  unfold blockOut
  rw [View.canon_unit_zero offWords_zero]
  simp only [View.ld_unit_zero (S := S1024x128) offWords_zero, View.ld_unit_zero (S := S3x1024x128) offCoords_zero]
  rw [energyBlock_apply, sulfurBlock_apply, gapBlock_apply, distBlock_apply]
  rfl

end Cert.KernelIdeal.Hand

end
-- ==== Proof.KReadPre.lean ====
/-
  The kernel program's host stages before the region, each read at one index.

  A column of the pair table is the table at that column; the padded index vector is the vector inside its first
  4,000,000 entries and zero after; a fill-mode `take` at an index inside the table is the table there; each atom's
  packed word is the residue number or-ed with the shifted flags; the transposed coordinates exchange the two
  coordinates; and the re-layings into [31744, 128] rows of lanes read the vector at position 128·row + lane.
-/
import proofs.«400768_j49443663511892_3_alg».proof.Proof.KDefs
import Idealize.ShloMosaic.Lib.ValueIdx
import Idealize.ShloMosaic.Lib.Pipeline.Value
import Idealize.ShloMosaic.Lib.ValueLayout
import Idealize.ShloMosaic.Lib.StableHlo.Predicate
import Idealize.ShloMosaic.Lib.KernelVsHost

noncomputable section

namespace Cert.KernelIdeal.Hand

open Cert.KernelIdeal Cert.KernelIdeal.Facts₀ Cert.KernelIdeal.Facts Idealize.ShloMosaic Idealize.ShloMosaic.ValueIdx

variable {F : FTy → Type} [FloatOps F]

/-! ## Re-layings -/

/-- A vector laid out as 31744 rows of 128 lanes reads position `128·R + l` at row `R`, lane `l`. -/
theorem shapeCast_rows_apply {α : Type} (x : S4063232.Idx → α) (R : Fin 31744) (l : Fin 128) :
    shapeCast S31744x128 x shapeCasts_S4063232_S31744x128 (ix2 R l)
      = x (ix1 ⟨128 * R.val + l.val, by have := R.isLt; have := l.isLt; omega⟩) := by
  refine shapeCast_apply _ _ _ _ ?_
  rw [Shape.rowMajor_val_one, Shape.rowMajor_val_two]
  show 128 * R.val + l.val = R.val * 128 + l.val
  omega

/-- Three such vectors laid out as [3, 31744, 128]. -/
theorem shapeCast_rows3_apply {α : Type} (y : S3x4063232.Idx → α) (k : Fin 3) (R : Fin 31744) (l : Fin 128) :
    shapeCast S3x31744x128 y shapeCasts_S3x4063232_S3x31744x128 (ix3 k R l)
      = y (ix2 k ⟨128 * R.val + l.val, by have := R.isLt; have := l.isLt; omega⟩) := by
  refine shapeCast_apply _ _ _ _ ?_
  rw [Shape.rowMajor_val_two, Shape.rowMajor_val_three]
  show k.val * 4063232 + (128 * R.val + l.val) = (k.val * 31744 + R.val) * 128 + l.val
  omega

/-- The first 4,000,000 entries of a padded vector. -/
theorem slice_head_apply {α : Type} (x : S4063232.Idx → α) (p : Fin 4000000) :
    extractStridedSlice S4000000 ![0] x slices_S4063232_S4000000_0 (ix1 p)
      = x (ix1 ⟨p.val, by have := p.isLt; omega⟩) := by
  refine extractStridedSlice_apply _ _ _ _ _ ?_
  intro a
  match a with
  | ⟨0, _⟩ => show p.val = 0 + p.val; omega

/-! ## Columns of the pair table -/

theorem pairCol0_apply (a2 : IVec S4000000x2 32) (p : Fin 4000000) :
    pairCol0 a2 (ix1 p) = a2 (ix2 p (0 : Fin 2)) := by
  unfold pairCol0
  refine (shapeCast_apply _ _ _ (ix2 p (0 : Fin 1)) ?_).trans ?_
  · rw [Shape.rowMajor_val_one, Shape.rowMajor_val_two]
    show p.val * 1 + 0 = p.val
    omega
  · refine extractStridedSlice_apply _ _ _ _ _ ?_
    intro a
    match a with
    | ⟨0, _⟩ => show p.val = 0 + p.val; omega
    | ⟨1, _⟩ => rfl

theorem pairCol1_apply (a2 : IVec S4000000x2 32) (p : Fin 4000000) :
    pairCol1 a2 (ix1 p) = a2 (ix2 p (1 : Fin 2)) := by
  unfold pairCol1
  refine (shapeCast_apply _ _ _ (ix2 p (0 : Fin 1)) ?_).trans ?_
  · rw [Shape.rowMajor_val_one, Shape.rowMajor_val_two]
    show p.val * 1 + 0 = p.val
    omega
  · refine extractStridedSlice_apply _ _ _ _ _ ?_
    intro a
    match a with
    | ⟨0, _⟩ => show p.val = 0 + p.val; omega
    | ⟨1, _⟩ => rfl

/-! ## The transposed coordinates -/

theorem coordsT_apply (a0 : FVec F S500000x3 .f32) (k : Fin 3) (a : Fin 500000) :
    coordsT a0 (ix2 k a) = a0 (ix2 a k) := by
  unfold coordsT
  refine transpose_apply _ _ _ _ _ ?_
  intro b
  match b with
  | ⟨0, _⟩ => rfl
  | ⟨1, _⟩ => rfl

/-! ## The packed word -/

/-- Column `k` of a [500000, 4] table, taken as a vector, at atom `a`. -/
theorem col4_apply {α : Type} (k : Fin 4) (x : S500000x4.Idx → α) (h : S500000x4.Slices ![0, k.val] S500000x1)
    (a : Fin 500000) :
    shapeCast S500000 (extractStridedSlice S500000x1 ![0, k.val] x h) shapeCasts_S500000x1_S500000 (ix1 a)
      = x (ix2 a k) := by
  refine (shapeCast_apply _ _ _ (ix2 a (0 : Fin 1)) ?_).trans ?_
  · rw [Shape.rowMajor_val_one, Shape.rowMajor_val_two]
    show a.val * 1 + 0 = a.val
    omega
  · refine extractStridedSlice_apply _ _ _ _ _ ?_
    intro b
    match b with
    | ⟨0, _⟩ => show a.val = 0 + a.val; omega
    | ⟨1, _⟩ => show k.val = k.val + 0; omega

/-- Each atom's packed word: its residue number, the sulfur flag at bit 9 and the four alternative flags at bits 10
    to 13. -/
theorem packed_apply (a1 : IVec S500000x4 32) (a3 : IVec S500000x4 1) (a : Fin 500000) :
    packed a1 a3 (ix1 a)
      = IntOp.ori (IntOp.ori (IntOp.ori (IntOp.ori (IntOp.ori (a1 (ix2 a (1 : Fin 4)))
          (IntOp.shli .host ((IntOp.cmpi .eq (a1 (ix2 a (0 : Fin 4))) 7#32).setWidth 32) 9#32))
          (IntOp.shli .host ((a3 (ix2 a (0 : Fin 4))).setWidth 32) 10#32))
          (IntOp.shli .host ((a3 (ix2 a (1 : Fin 4))).setWidth 32) 11#32))
          (IntOp.shli .host ((a3 (ix2 a (2 : Fin 4))).setWidth 32) 12#32))
          (IntOp.shli .host ((a3 (ix2 a (3 : Fin 4))).setWidth 32) 13#32) := by
  have r1 : shapeCast S500000 (extractStridedSlice S500000x1 ![0, 1] a1 slices_S500000x4_S500000x1_0_1) shapeCasts_S500000x1_S500000 (ix1 a)
      = a1 (ix2 a (1 : Fin 4)) := col4_apply (1 : Fin 4) a1 slices_S500000x4_S500000x1_0_1 a
  have r0 : shapeCast S500000 (extractStridedSlice S500000x1 ![0, 0] a1 slices_S500000x4_S500000x1_0_0) shapeCasts_S500000x1_S500000 (ix1 a)
      = a1 (ix2 a (0 : Fin 4)) := col4_apply (0 : Fin 4) a1 slices_S500000x4_S500000x1_0_0 a
  have e0 : shapeCast S500000 (extractStridedSlice S500000x1 ![0, 0] (extui 32 a3 natLt_1_32) slices_S500000x4_S500000x1_0_0) shapeCasts_S500000x1_S500000 (ix1 a)
      = (a3 (ix2 a (0 : Fin 4))).setWidth 32 := col4_apply (0 : Fin 4) (extui 32 a3 natLt_1_32) slices_S500000x4_S500000x1_0_0 a
  have e1 : shapeCast S500000 (extractStridedSlice S500000x1 ![0, 1] (extui 32 a3 natLt_1_32) slices_S500000x4_S500000x1_0_1) shapeCasts_S500000x1_S500000 (ix1 a)
      = (a3 (ix2 a (1 : Fin 4))).setWidth 32 := col4_apply (1 : Fin 4) (extui 32 a3 natLt_1_32) slices_S500000x4_S500000x1_0_1 a
  have e2 : shapeCast S500000 (extractStridedSlice S500000x1 ![0, 2] (extui 32 a3 natLt_1_32) slices_S500000x4_S500000x1_0_2) shapeCasts_S500000x1_S500000 (ix1 a)
      = (a3 (ix2 a (2 : Fin 4))).setWidth 32 := col4_apply (2 : Fin 4) (extui 32 a3 natLt_1_32) slices_S500000x4_S500000x1_0_2 a
  have e3 : shapeCast S500000 (extractStridedSlice S500000x1 ![0, 3] (extui 32 a3 natLt_1_32) slices_S500000x4_S500000x1_0_3) shapeCasts_S500000x1_S500000 (ix1 a)
      = (a3 (ix2 a (3 : Fin 4))).setWidth 32 := col4_apply (3 : Fin 4) (extui 32 a3 natLt_1_32) slices_S500000x4_S500000x1_0_3 a
  show IntOp.ori (IntOp.ori (IntOp.ori (IntOp.ori (IntOp.ori
      (shapeCast S500000 (extractStridedSlice S500000x1 ![0, 1] a1 slices_S500000x4_S500000x1_0_1) shapeCasts_S500000x1_S500000 (ix1 a))
      (IntOp.shli .host ((IntOp.cmpi .eq
        (shapeCast S500000 (extractStridedSlice S500000x1 ![0, 0] a1 slices_S500000x4_S500000x1_0_0) shapeCasts_S500000x1_S500000 (ix1 a))
        7#32).setWidth 32) 9#32))
      (IntOp.shli .host
        (shapeCast S500000 (extractStridedSlice S500000x1 ![0, 0] (extui 32 a3 natLt_1_32) slices_S500000x4_S500000x1_0_0) shapeCasts_S500000x1_S500000 (ix1 a))
        10#32))
      (IntOp.shli .host
        (shapeCast S500000 (extractStridedSlice S500000x1 ![0, 1] (extui 32 a3 natLt_1_32) slices_S500000x4_S500000x1_0_1) shapeCasts_S500000x1_S500000 (ix1 a))
        11#32))
      (IntOp.shli .host
        (shapeCast S500000 (extractStridedSlice S500000x1 ![0, 2] (extui 32 a3 natLt_1_32) slices_S500000x4_S500000x1_0_2) shapeCasts_S500000x1_S500000 (ix1 a))
        12#32))
      (IntOp.shli .host
        (shapeCast S500000 (extractStridedSlice S500000x1 ![0, 3] (extui 32 a3 natLt_1_32) slices_S500000x4_S500000x1_0_3) shapeCasts_S500000x1_S500000 (ix1 a))
        13#32) = _
  rw [r1, r0, e0, e1, e2, e3]

/-! ## The padded index vector -/

/-- The padded vector is the vector on its first 4,000,000 entries and zero on the 63,232 appended ones. -/
theorem padIdx_apply (x : IVec S4000000 32) (q : Fin 4063232) :
    padIdx x (ix1 q) = if h : q.val < 4000000 then x (ix1 ⟨q.val, h⟩) else 0#32 := by
  unfold padIdx
  by_cases h : q.val < 4000000
  · rw [dif_pos h]
    refine pad_apply_of_inside _ _ _ _ _ _ _ _ (ix1 ⟨q.val, h⟩) ?_
    intro a
    match a with
    | ⟨0, _⟩ => show q.val = 0 + q.val * (0 + 1); omega
  · rw [dif_neg h]
    refine (pad_apply_of_not_inside _ _ _ _ _ _ _ _ (0 : Fin 1) ?_).trans rfl
    intro h3
    have h4 : (q.val - 0) / (0 + 1) < 4000000 := h3.2.2
    exact h (by omega)

/-! ## `take` in fill mode at an index inside the table -/

/-- The rank-1 index at a coordinate, written both ways. -/
theorem ofFin_eq_ix1 {n : Nat} (k : Fin n) : Shape.Idx.ofFin k = ix1 k := by
  funext a
  match a with
  | ⟨0, _⟩ => rfl

/-- A non-negative index is not shifted. -/
theorem wrapIdx_apply (ids : IVec S4063232 32) (q : Fin 4063232) (h0 : 0 ≤ (ids (ix1 q)).toInt) :
    wrapIdx ids (ix1 q) = ids (ix1 q) := by
  show Scalar.select (IntOp.cmpi .slt (ids (ix1 q)) 0#32) (IntOp.addi (ids (ix1 q)) 500000#32) (ids (ix1 q)) = _
  have hc : IntOp.cmpi .slt (ids (ix1 q)) 0#32 = 0#1 := by
    refine eq_zero_of_ne_one (fun h => ?_)
    have h2 := IntOp.cmpi_slt.mp h
    have hz : (0#32 : BitVec 32).toInt = 0 := by decide
    omega
  rw [hc, select_zero]

/-- The column of start indices at row `q` holds the index itself. -/
theorem startCol_apply (ids : IVec S4063232 32) (q : Fin 4063232) (h0 : 0 ≤ (ids (ix1 q)).toInt)
    (j : S4063232x1.Idx) (hj : (j 0).val = q.val) : startCol ids j = ids (ix1 q) := by
  unfold startCol
  refine (broadcastInDim_apply _ _ _ j (ix1 q) ?_).trans (wrapIdx_apply ids q h0)
  intro a
  match a with
  | ⟨0, _⟩ => show q.val = (j 0).val; exact hj.symm

/-- A fold over the one coordinate of an axis of extent 1. -/
theorem fold_fin_one {α : Type} (f : α → α → α) [Std.Commutative f] [Std.Associative f] (b : α) (g : Fin 1 → α) :
    (Finset.univ : Finset (Fin 1)).fold f b g = f (g 0) b := by
  rw [show (Finset.univ : Finset (Fin 1)) = {0} from rfl, Finset.fold_singleton]

/-- An index inside the table passes the range test. -/
theorem inTable_apply (ids : IVec S4063232 32) (q : Fin 4063232) (h0 : 0 ≤ (ids (ix1 q)).toInt)
    (h1 : (ids (ix1 q)).toInt < 500000) : inTable ids (ix1 q) = 1#1 := by
  unfold inTable
  have hR : S4063232x1.Reduces [1] S4063232 := by decide
  rw [Host.reduce_eq_fold_single IntOp.andi _ _ reducesTo_S4063232x1_S4063232_d1 hR h_S_ (ix1 q)]
  refine (fold_fin_one IntOp.andi _ _).trans ?_
  have hs := startCol_apply ids q h0 (hR.lift (ix1 q) (0 : Fin 1)) rfl
  show IntOp.andi (IntOp.andi (IntOp.cmpi .sge (startCol ids (hR.lift (ix1 q) (0 : Fin 1))) 0#32)
      (IntOp.cmpi .sle (startCol ids (hR.lift (ix1 q) (0 : Fin 1))) 499999#32)) 1#1 = 1#1
  rw [hs]
  have hz : (0#32 : BitVec 32).toInt = 0 := by decide
  have hm : (499999#32 : BitVec 32).toInt = 499999 := by decide
  have c1 : IntOp.cmpi .sge (ids (ix1 q)) 0#32 = 1#1 := IntOp.cmpi_sge.mpr (by omega)
  have c2 : IntOp.cmpi .sle (ids (ix1 q)) 499999#32 = 1#1 := IntOp.cmpi_sle.mpr (by omega)
  rw [c1, c2]
  decide

/-- `take` of the word table at an index inside it is the table there. -/
theorem takeWords_apply (tbl : IVec S500000 32) (ids : IVec S4063232 32) (q : Fin 4063232)
    (h0 : 0 ≤ (ids (ix1 q)).toInt) (h1 : (ids (ix1 q)).toInt < 500000) :
    takeWords tbl ids (ix1 q) = tbl (ix1 ⟨(ids (ix1 q)).toInt.toNat, by omega⟩) := by
  show Scalar.select (inTable ids (ix1 q))
      (Host.gather gather_S500000_S4063232x1_S4063232_n_0_n_n_0_1_1 tbl (startCol ids) (ix1 q)) 2147483648#32 = _
  rw [inTable_apply ids q h0 h1, select_one]
  have hg := StableHlo.Predicate.gather_take gather_S500000_S4063232x1_S4063232_n_0_n_n_0_1_1 rfl rfl rfl rfl
    tbl (startCol ids) q (by decide)
  refine ((congrArg _ (ofFin_eq_ix1 q).symm).trans hg).trans ?_
  refine congrArg tbl (funext fun a => ?_)
  match a with
  | ⟨0, _⟩ =>
    refine Fin.ext ?_
    show min (startCol ids (StableHlo.Predicate.ixP q)).toInt.toNat (500000 - 1) = (ids (ix1 q)).toInt.toNat
    rw [startCol_apply ids q h0 _ rfl]
    omega

/-- The gather along axis 1 of a [3, 500000] table at `(k, q)`: row `k` of the table at the start index of row `q`,
    read signed and clamped into the table. -/
theorem gatherCoords_apply {α : Type} (tbl : S3x500000.Idx → α) (idx : IVec S4063232x1 32) (k : Fin 3) (q : Fin 4063232) :
    Host.gather gather_S3x500000_S4063232x1_S3x4063232_0_1_n_n_1_1_31 tbl idx (ix2 k q)
      = tbl (ix2 k ⟨min (idx (ix2 q (0 : Fin 1))).toInt.toNat (500000 - 1), by omega⟩) := by
  unfold Host.gather
  refine congrArg tbl (funext fun a => Fin.ext ?_)
  match a with
  | ⟨0, _⟩ =>
    -- axis 0 is the offset axis: no start index, the result's own row
    show gather_S3x500000_S4063232x1_S3x4063232_0_1_n_n_1_1_31.start (ix2 k q) idx 0
        + gather_S3x500000_S4063232x1_S3x4063232_0_1_n_n_1_1_31.batchCoord (ix2 k q) 0
        + gather_S3x500000_S4063232x1_S3x4063232_0_1_n_n_1_1_31.offCoord (ix2 k q) 0 = k.val
    rw [GatherDims.batchCoord_eq_zero _ _ _ List.not_mem_nil]
    have hs : gather_S3x500000_S4063232x1_S3x4063232_0_1_n_n_1_1_31.start (ix2 k q) idx 0 = 0 := by
      unfold GatherDims.start
      rw [dif_neg (by decide)]
    have ho : gather_S3x500000_S4063232x1_S3x4063232_0_1_n_n_1_1_31.offCoord (ix2 k q) 0 = k.val := by
      unfold GatherDims.offCoord
      rw [dif_pos (by decide)]
      rfl
    rw [hs, ho]
    omega
  | ⟨1, _⟩ =>
    -- axis 1 is collapsed and start-indexed: the clamped start index alone
    show gather_S3x500000_S4063232x1_S3x4063232_0_1_n_n_1_1_31.start (ix2 k q) idx 1
        + gather_S3x500000_S4063232x1_S3x4063232_0_1_n_n_1_1_31.batchCoord (ix2 k q) 1
        + gather_S3x500000_S4063232x1_S3x4063232_0_1_n_n_1_1_31.offCoord (ix2 k q) 1
        = min (idx (ix2 q (0 : Fin 1))).toInt.toNat (500000 - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S3x500000_S4063232x1_S3x4063232_0_1_n_n_1_1_31.startIndexMap from
      List.mem_singleton.mpr rfl)]
    have hsi : gather_S3x500000_S4063232x1_S3x4063232_0_1_n_n_1_1_31.siIdx (ix2 k q)
        ⟨List.idxOf (1 : Fin 2) gather_S3x500000_S4063232x1_S3x4063232_0_1_n_n_1_1_31.startIndexMap,
          List.idxOf_lt_length_iff.2 (List.mem_singleton.mpr rfl)⟩ = ix2 q (0 : Fin 1) := by
      funext b; refine Fin.ext ?_
      match b with
      | ⟨0, _⟩ => rfl
      | ⟨1, _⟩ => rfl
    rw [hsi]
    rfl

/-- `take` along axis 1 of the transposed coordinates at an index inside the table is the table's column there. -/
theorem takeCoords_apply (tbl : FVec F S3x500000 .f32) (ids : IVec S4063232 32) (k : Fin 3) (q : Fin 4063232)
    (h0 : 0 ≤ (ids (ix1 q)).toInt) (h1 : (ids (ix1 q)).toInt < 500000) :
    takeCoords tbl ids (ix2 k q) = tbl (ix2 k ⟨(ids (ix1 q)).toInt.toNat, by omega⟩) := by
  show Scalar.select (broadcastInDim S3x4063232 ![1] bcast_S4063232_S3x4063232_1 (inTable ids) (ix2 k q))
      (Host.gather gather_S3x500000_S4063232x1_S3x4063232_0_1_n_n_1_1_31 tbl (startCol ids) (ix2 k q))
      (FloatOps.ofBits .f32 0x7FC00000#32) = _
  have hb : broadcastInDim S3x4063232 ![1] bcast_S4063232_S3x4063232_1 (inTable ids) (ix2 k q) = inTable ids (ix1 q) := by
    refine broadcastInDim_apply _ _ _ _ (ix1 q) ?_
    intro a
    match a with
    | ⟨0, _⟩ => rfl
  rw [hb, inTable_apply ids q h0 h1, select_one, gatherCoords_apply]
  refine congrArg tbl (funext fun a => ?_)
  match a with
  | ⟨0, _⟩ => rfl
  | ⟨1, _⟩ =>
    refine Fin.ext ?_
    show min (startCol ids (ix2 q (0 : Fin 1))).toInt.toNat (500000 - 1) = (ids (ix1 q)).toInt.toNat
    rw [startCol_apply ids q h0 _ rfl]
    omega

end Cert.KernelIdeal.Hand

end
-- ==== Proof.KReadPost.lean ====
/-
  The kernel program's host stages after the region, each read at one index: a bit of a word, the sulfur conjunction,
  the four alternative bits, their conjunction per pair and alternative, the masked energies, the region's result as a
  vector of pair energies, and the two index vectors laid one after the other.
-/
import proofs.«400768_j49443663511892_3_alg».proof.Proof.KDefs
import Idealize.ShloMosaic.Lib.ValueIdx
import Idealize.ShloMosaic.Lib.Pipeline.Value
import Idealize.ShloMosaic.Lib.ValueLayout
import Idealize.ShloMosaic.Lib.StableHlo.Predicate

noncomputable section

namespace Cert.KernelIdeal.Hand

open Cert.KernelIdeal Cert.KernelIdeal.Facts₀ Cert.KernelIdeal.Facts Idealize.ShloMosaic Idealize.ShloMosaic.ValueIdx

/-! ## Broadcasts of a vector over the pairs' four alternatives -/

/-- A vector of pairs laid down the rows of the [pairs, 4] rectangle reads, at (p, a), the vector at p. -/
theorem bcastPairs_apply {α : Type} (v : S4000000.Idx → α) (p : Fin 4000000) (a : Fin 4) :
    broadcastInDim S4000000x4 ![0, 1] bcast_S4000000x1_S4000000x4_0_1
      (broadcastInDim S4000000x1 ![0] bcast_S4000000_S4000000x1_0 v) (ix2 p a) = v (ix1 p) := by
  refine (broadcastInDim_apply _ _ _ (ix2 p a) (ix2 p (0 : Fin 1)) (fun b => match b with
    | ⟨0, _⟩ => rfl
    | ⟨1, _⟩ => rfl)).trans ?_
  exact broadcastInDim_apply _ _ _ (ix2 p (0 : Fin 1)) (ix1 p) (fun b => match b with
    | ⟨0, _⟩ => rfl)

/-- The row of four shift amounts laid across the pairs reads, at (p, a), the word 10 + a. -/
theorem altShifts_apply (p : Fin 4000000) (a : Fin 4) :
    broadcastInDim S4000000x4 ![0, 1] bcast_S1x4_S4000000x4_0_1 altShifts (ix2 p a) = BitVec.ofNat 32 (10 + a.val) := by
  refine (broadcastInDim_apply _ _ _ (ix2 p a) (ix2 (0 : Fin 1) a) (fun b => match b with
    | ⟨0, _⟩ => rfl
    | ⟨1, _⟩ => rfl)).trans ?_
  unfold altShifts
  refine (broadcastInDim_apply _ _ _ (ix2 (0 : Fin 1) a) (ix1 a) (fun b => match b with
    | ⟨0, _⟩ => rfl)).trans ?_
  show IntOp.addi 10#32 (BitVec.ofNat 32 a.val) = BitVec.ofNat 32 (10 + a.val)
  exact (BitVec.ofNat_add 10 a.val).symm

/-! ## The stages at an index -/

/-- Bit n of the word at p. -/
theorem bitAt_apply (n : BitVec 32) (x : IVec S4000000 32) (p : Fin 4000000) :
    bitAt n x (ix1 p) = IntOp.andi (IntOp.shrsi .host (x (ix1 p)) n) 1#32 := rfl

/-- Both words at p carry bit 9. -/
theorem sulfurOf_apply (pi pj : IVec S4000000 32) (p : Fin 4000000) :
    sulfurOf pi pj (ix1 p) = IntOp.cmpi .sgt (IntOp.andi (IntOp.andi (IntOp.shrsi .host (pi (ix1 p)) 9#32) 1#32)
      (IntOp.andi (IntOp.shrsi .host (pj (ix1 p)) 9#32) 1#32)) 0#32 := rfl

/-- Alternative a of the word at p is its bit 10 + a. -/
theorem altOf_apply (pw : IVec S4000000 32) (p : Fin 4000000) (a : Fin 4) :
    altOf pw (ix2 p a) = IntOp.cmpi .sgt (IntOp.andi (IntOp.shrsi .host (pw (ix1 p)) (BitVec.ofNat 32 (10 + a.val))) 1#32) 0#32 := by
  show IntOp.cmpi .sgt (IntOp.andi (IntOp.shrsi .host
    (broadcastInDim S4000000x4 ![0, 1] bcast_S4000000x1_S4000000x4_0_1 (broadcastInDim S4000000x1 ![0] bcast_S4000000_S4000000x1_0 pw) (ix2 p a))
    (broadcastInDim S4000000x4 ![0, 1] bcast_S1x4_S4000000x4_0_1 altShifts (ix2 p a))) 1#32) 0#32 = _
  rw [bcastPairs_apply, altShifts_apply]

/-- Sulfur pair and both atoms have alternative a. -/
theorem pairAlt_apply (pi pj : IVec S4000000 32) (p : Fin 4000000) (a : Fin 4) :
    pairAlt pi pj (ix2 p a) = IntOp.andi (IntOp.andi (sulfurOf pi pj (ix1 p)) (altOf pi (ix2 p a))) (altOf pj (ix2 p a)) := by
  show IntOp.andi (IntOp.andi
    (broadcastInDim S4000000x4 ![0, 1] bcast_S4000000x1_S4000000x4_0_1 (broadcastInDim S4000000x1 ![0] bcast_S4000000_S4000000x1_0 (sulfurOf pi pj)) (ix2 p a))
    (altOf pi (ix2 p a))) (altOf pj (ix2 p a)) = _
  rw [bcastPairs_apply]

/-- The masked energy at (p, a): the pair's energy where the mask is set, zero's word elsewhere. -/
theorem weights_apply {F : FTy → Type} [FloatOps F] (pa : IVec S4000000x4 1) (net : FVec F S4000000 .f32) (p : Fin 4000000) (a : Fin 4) :
    weights (F := F) pa net (ix2 p a) = Scalar.select (pa (ix2 p a)) (net (ix1 p)) (FloatOps.ofBits .f32 0x00000000#32) := by
  show Scalar.select (pa (ix2 p a))
    (broadcastInDim S4000000x4 ![0, 1] bcast_S4000000x1_S4000000x4_0_1 (broadcastInDim S4000000x1 ![0] bcast_S4000000_S4000000x1_0 net) (ix2 p a))
    (FloatOps.ofBits .f32 0x00000000#32) = _
  rw [bcastPairs_apply]

/-- Pair p's energy is the region's result at row p / 128, lane p % 128. -/
theorem netOf_apply {F : FTy → Type} [FloatOps F] (out : FVec F S31744x128 .f32) (p : Fin 4000000) :
    netOf out (ix1 p) = out (ix2 (⟨p.val / 128, by omega⟩ : Fin 31744) (⟨p.val % 128, Nat.mod_lt _ (by decide)⟩ : Fin 128)) := by
  unfold netOf
  refine (extractStridedSlice_apply _ _ _ (ix1 p) (ix1 (⟨p.val, by omega⟩ : Fin 4063232)) (fun b => match b with
    | ⟨0, _⟩ => by show p.val = 0 + p.val; omega)).trans ?_
  refine shapeCast_apply _ _ _ _ ?_
  rw [Shape.rowMajor_val_two, Shape.rowMajor_val_one]
  show p.val / 128 * 128 + p.val % 128 = p.val
  omega

/-- The two index vectors one after the other: the first 4,000,000 entries are i's, the rest j's. -/
theorem bothIdx_apply (i j : IVec S4000000 32) (q : Fin 8000000) :
    bothIdx i j (ix1 q) = if h : q.val < 4000000 then i (ix1 ⟨q.val, h⟩) else j (ix1 ⟨q.val - 4000000, by omega⟩) := by
  unfold bothIdx
  by_cases h : q.val < 4000000
  · rw [dif_pos h]
    exact concatenate_pair_apply_left (t := S8000000) (s₁ := S4000000) (s₂ := S4000000) (0 : Fin 1) i j _ (ix1 q) rfl
      (ix1 (⟨q.val, h⟩ : Fin 4000000)) (fun b => match b with
      | ⟨0, _⟩ => rfl)
  · rw [dif_neg h]
    exact concatenate_pair_apply_right (t := S8000000) (s₁ := S4000000) (s₂ := S4000000) (0 : Fin 1) i j _ (ix1 q) rfl rfl
      (ix1 (⟨q.val - 4000000, by omega⟩ : Fin 4000000))
      (fun b hb => match b, hb with
        | ⟨0, _⟩, hb => absurd (Fin.ext rfl) hb)
      (by show q.val - 4000000 + 4000000 = q.val; omega)

end Cert.KernelIdeal.Hand

end
-- ==== Proof.LibPackedWord.lean ====
/-
  One 32-bit word that packs a small non-negative number (below 512, in bits 0 to 8) together with five one-bit
  flags (in bits 9 to 13), and the reading of each part back out of the word: the flag in bit k is the word shifted
  right by k and masked with 1, the number is the word masked with 511. Every shift amount is a literal below 32, so
  the arithmetic unit that shifts does not matter. Also: a one-bit word widened to 32 bits is positive exactly when the
  bit is set, and the difference of two such small numbers does not wrap, so its absolute value is the distance.
-/
import Idealize.ShloMosaic.PureOps.Float
import Idealize.ShloMosaic.Lib.ValueIdx

namespace Idealize.ShloMosaic.PackedWord

/-- The packed word: `r` in the low bits, then the flags `s, a0, a1, a2, a3` at bits 9, 10, 11, 12, 13. -/
def pack (r : BitVec 32) (s a0 a1 a2 a3 : BitVec 1) (u : ArithUnit) : BitVec 32 :=
  IntOp.ori (IntOp.ori (IntOp.ori (IntOp.ori (IntOp.ori r (IntOp.shli u (s.setWidth 32) 9#32)) (IntOp.shli u (a0.setWidth 32) 10#32)) (IntOp.shli u (a1.setWidth 32) 11#32)) (IntOp.shli u (a2.setWidth 32) 12#32)) (IntOp.shli u (a3.setWidth 32) 13#32)

/-- A left shift by an amount below the width is the plain shift, on every unit. -/
theorem shli_of_lt (u : ArithUnit) {w : Nat} (x y : BitVec w) (h : y.toNat < w) : IntOp.shli u x y = x <<< y :=
  if_pos h

/-- An arithmetic right shift by an amount below the width is the plain arithmetic shift, on every unit. -/
theorem shrsi_of_lt (u : ArithUnit) {w : Nat} (x y : BitVec w) (h : y.toNat < w) :
    IntOp.shrsi u x y = x.sshiftRight' y :=
  if_pos h

/-- The packed word with the shifts written plainly (no unit). -/
def packBits (r : BitVec 32) (s a0 a1 a2 a3 : BitVec 1) : BitVec 32 :=
  r ||| (s.setWidth 32 <<< 9#32) ||| (a0.setWidth 32 <<< 10#32) ||| (a1.setWidth 32 <<< 11#32)
    ||| (a2.setWidth 32 <<< 12#32) ||| (a3.setWidth 32 <<< 13#32)

/-- Every shift amount in the packed word is below 32, so the unit drops out. -/
theorem pack_eq_packBits (r : BitVec 32) (s a0 a1 a2 a3 : BitVec 1) (u : ArithUnit) :
    pack r s a0 a1 a2 a3 u = packBits r s a0 a1 a2 a3 := by
  unfold pack packBits IntOp.ori
  rw [shli_of_lt u _ 9#32 (by decide), shli_of_lt u _ 10#32 (by decide), shli_of_lt u _ 11#32 (by decide),
    shli_of_lt u _ 12#32 (by decide), shli_of_lt u _ 13#32 (by decide)]

/-- Every field of the packed word reads back: bit `9 + k` is the k-th flag, the low nine bits are the number. -/
def Reads (r : BitVec 32) (s a0 a1 a2 a3 : BitVec 1) : Prop :=
  ((packBits r s a0 a1 a2 a3).sshiftRight' 9#32 &&& 1#32 = s.setWidth 32)
  ∧ (packBits r s a0 a1 a2 a3 &&& 511#32 = r)
  ∧ ((packBits r s a0 a1 a2 a3).sshiftRight' 10#32 &&& 1#32 = a0.setWidth 32)
  ∧ ((packBits r s a0 a1 a2 a3).sshiftRight' 11#32 &&& 1#32 = a1.setWidth 32)
  ∧ ((packBits r s a0 a1 a2 a3).sshiftRight' 12#32 &&& 1#32 = a2.setWidth 32)
  ∧ ((packBits r s a0 a1 a2 a3).sshiftRight' 13#32 &&& 1#32 = a3.setWidth 32)

instance (r : BitVec 32) (s a0 a1 a2 a3 : BitVec 1) : Decidable (Reads r s a0 a1 a2 a3) :=
  inferInstanceAs (Decidable (_ ∧ _))

/-- The finite statement: for every number below 512 and every choice of the five bits, each field reads back
    (512 · 32 cases, each by evaluation). -/
private theorem reads_fin : ∀ (n : Fin 512) (s a0 a1 a2 a3 : Bool),
    Reads (BitVec.ofNat 32 n.val) (BitVec.ofBool s) (BitVec.ofBool a0) (BitVec.ofBool a1) (BitVec.ofBool a2)
      (BitVec.ofBool a3) := by
  decide +kernel

/-- A one-bit word is one of the two booleans. -/
theorem exists_ofBool (x : BitVec 1) : ∃ b : Bool, x = BitVec.ofBool b := by
  rcases BitVec.eq_zero_or_eq_one x with rfl | rfl
  · exact ⟨false, rfl⟩
  · exact ⟨true, rfl⟩

/-- A 32-bit word whose signed value lies in `[0, 512)` is the word of a natural number below 512. -/
theorem exists_ofNat_of_toInt (r : BitVec 32) (hr0 : 0 ≤ r.toInt) (hr1 : r.toInt < 512) :
    ∃ n : Nat, n < 512 ∧ r = BitVec.ofNat 32 n := by
  have hlt := r.isLt
  rw [BitVec.toInt_eq_toNat_cond] at hr0 hr1
  refine ⟨r.toNat, ?_, ?_⟩
  · split at hr1 <;> omega
  · apply BitVec.eq_of_toNat_eq
    rw [BitVec.toNat_ofNat, Nat.mod_eq_of_lt hlt]

/-- Every field reads back, for any number in `[0, 512)` and any five flags. -/
theorem reads (r : BitVec 32) (s a0 a1 a2 a3 : BitVec 1) (hr0 : 0 ≤ r.toInt) (hr1 : r.toInt < 512) :
    Reads r s a0 a1 a2 a3 := by
  obtain ⟨n, hn, rfl⟩ := exists_ofNat_of_toInt r hr0 hr1
  obtain ⟨bs, rfl⟩ := exists_ofBool s
  obtain ⟨b0, rfl⟩ := exists_ofBool a0
  obtain ⟨b1, rfl⟩ := exists_ofBool a1
  obtain ⟨b2, rfl⟩ := exists_ofBool a2
  obtain ⟨b3, rfl⟩ := exists_ofBool a3
  exact reads_fin ⟨n, hn⟩ bs b0 b1 b2 b3

section
variable (u u' : ArithUnit) (r : BitVec 32) (s a0 a1 a2 a3 : BitVec 1) (hr0 : 0 ≤ r.toInt) (hr1 : r.toInt < 512)
include hr0 hr1

/-- Bit 9 of the packed word is the flag `s`. -/
theorem read_s : IntOp.andi (IntOp.shrsi u' (pack r s a0 a1 a2 a3 u) 9#32) 1#32 = s.setWidth 32 := by
  rw [shrsi_of_lt u' _ 9#32 (by decide), pack_eq_packBits]; exact (reads r s a0 a1 a2 a3 hr0 hr1).1

/-- The low nine bits of the packed word are the number `r`. -/
theorem read_r : IntOp.andi (pack r s a0 a1 a2 a3 u) 511#32 = r := by
  rw [pack_eq_packBits]; exact (reads r s a0 a1 a2 a3 hr0 hr1).2.1

/-- Bit 10 of the packed word is the flag `a0`. -/
theorem read_a0 : IntOp.andi (IntOp.shrsi u' (pack r s a0 a1 a2 a3 u) 10#32) 1#32 = a0.setWidth 32 := by
  rw [shrsi_of_lt u' _ 10#32 (by decide), pack_eq_packBits]; exact (reads r s a0 a1 a2 a3 hr0 hr1).2.2.1

/-- Bit 11 of the packed word is the flag `a1`. -/
theorem read_a1 : IntOp.andi (IntOp.shrsi u' (pack r s a0 a1 a2 a3 u) 11#32) 1#32 = a1.setWidth 32 := by
  rw [shrsi_of_lt u' _ 11#32 (by decide), pack_eq_packBits]; exact (reads r s a0 a1 a2 a3 hr0 hr1).2.2.2.1

/-- Bit 12 of the packed word is the flag `a2`. -/
theorem read_a2 : IntOp.andi (IntOp.shrsi u' (pack r s a0 a1 a2 a3 u) 12#32) 1#32 = a2.setWidth 32 := by
  rw [shrsi_of_lt u' _ 12#32 (by decide), pack_eq_packBits]; exact (reads r s a0 a1 a2 a3 hr0 hr1).2.2.2.2.1

/-- Bit 13 of the packed word is the flag `a3`. -/
theorem read_a3 : IntOp.andi (IntOp.shrsi u' (pack r s a0 a1 a2 a3 u) 13#32) 1#32 = a3.setWidth 32 := by
  rw [shrsi_of_lt u' _ 13#32 (by decide), pack_eq_packBits]; exact (reads r s a0 a1 a2 a3 hr0 hr1).2.2.2.2.2

end

/-- The conjunction of two widened bits is positive exactly when both bits are set. -/
theorem cmpi_sgt_andi_setWidth (x y : BitVec 1) :
    IntOp.cmpi .sgt (IntOp.andi (x.setWidth 32) (y.setWidth 32)) 0#32 = IntOp.andi x y := by
  rcases BitVec.eq_zero_or_eq_one x with rfl | rfl <;> rcases BitVec.eq_zero_or_eq_one y with rfl | rfl <;> decide

/-- A widened bit is positive exactly when the bit is set. -/
theorem cmpi_sgt_setWidth (x : BitVec 1) : IntOp.cmpi .sgt (x.setWidth 32) 0#32 = x := by
  rcases BitVec.eq_zero_or_eq_one x with rfl | rfl <;> decide

/-- The difference of two numbers in `[0, 512)` does not wrap: its signed value is the difference of the values. -/
theorem toInt_subi (r r' : BitVec 32) (h0 : 0 ≤ r.toInt) (h1 : r.toInt < 512) (h0' : 0 ≤ r'.toInt)
    (h1' : r'.toInt < 512) : (IntOp.subi r r').toInt = r.toInt - r'.toInt := by
  unfold IntOp.subi
  rw [BitVec.toInt_sub, Int.bmod_def]
  norm_num
  omega

/-- The two's-complement absolute value of a word whose signed value lies strictly between `-512` and `512` has
    the absolute value of that value as its signed value (no wrap: the word is not the least integer). -/
theorem toInt_absi (x : BitVec 32) (h0 : -512 < x.toInt) (h1 : x.toInt < 512) :
    (IntOp.absi x).toInt = |x.toInt| := by
  unfold IntOp.absi
  rw [BitVec.msb_eq_toInt]
  by_cases h : x.toInt < 0
  · simp only [h, decide_true, if_true]
    rw [BitVec.toInt_neg, Int.bmod_def, abs_of_neg h]
    norm_num
    omega
  · simp only [h, decide_false]
    rw [abs_of_nonneg (by omega)]
    simp

/-- The absolute value of the difference of two numbers in `[0, 512)` is their distance. -/
theorem toInt_absi_subi (r r' : BitVec 32) (h0 : 0 ≤ r.toInt) (h1 : r.toInt < 512) (h0' : 0 ≤ r'.toInt)
    (h1' : r'.toInt < 512) : (IntOp.absi (IntOp.subi r r')).toInt = |r.toInt - r'.toInt| := by
  have hs := toInt_subi r r' h0 h1 h0' h1'
  rw [toInt_absi _ (by omega) (by omega), hs]

end Idealize.ShloMosaic.PackedWord
-- ==== Proof.KBridge.lean ====
/-
  The kernel program's three results, as its pure stages applied to the four argument arrays, read at one pair (and one
  alternative) and compared with the specification.

  Under the two range hypotheses (every pair-table word names an atom of the table; every residue number lies in
  [0, 500)) the gathered word of a pair's first or second atom is that atom's packed word and the gathered point its
  coordinates; the sulfur bit, the residue number and the four alternative bits read back out of the packed words, so
  the sulfur flag, the pair energy and the masked energies are the specification's.
-/
import proofs.«400768_j49443663511892_3_alg».proof.Proof.KReadPre
import proofs.«400768_j49443663511892_3_alg».proof.Proof.KReadPost
import proofs.«400768_j49443663511892_3_alg».proof.Proof.LibPackedWord
import proofs.«400768_j49443663511892_3_alg».proof.Proof.KGrid
import proofs.«400768_j49443663511892_3_alg».proof.Proof.Spec
import Idealize.ShloMosaic.Lib.ValueIdx
import Mathlib.Data.EReal.Basic
import Mathlib.Data.EReal.Operations

noncomputable section

namespace Cert.KernelIdeal.Hand

open Cert.KernelIdeal Cert.KernelIdeal.Facts₀ Cert.KernelIdeal.Facts Idealize.ShloMosaic Idealize.ShloMosaic.ValueIdx
open Idealize.ShloMosaic.PackedWord

/-! ## Two small facts -/

/-- The absolute value of the difference of two integers, taken in the extended reals, is the integers' distance. -/
theorem absE_int_sub (a b : Int) :
    Cert.Spec.absE (((a : ℝ) : EReal) - ((b : ℝ) : EReal)) = (((|a - b| : Int) : ℝ) : EReal) := by
  unfold Cert.Spec.absE
  rw [← EReal.coe_sub, ← EReal.coe_neg, ← EReal.coe_strictMono.monotone.map_max, Int.cast_abs, Int.cast_sub, abs_eq_max_neg]

/-- A word equal to one whose signed value lies inside the atom table names, read signed, the atom the
    specification reads from that word. -/
theorem atom_eq (w v : BitVec 32) (hw : w = v) (h0 : 0 ≤ v.toInt) (h1 : v.toInt < 500000)
    (hlt : w.toInt.toNat < 500000) : (⟨w.toInt.toNat, hlt⟩ : Fin 500000) = Cert.Spec.atomOf v := by
  subst hw
  refine Fin.ext ?_
  show w.toInt.toNat = min w.toInt.toNat 499999
  omega

/-! ## Positions -/

/-- Pair p as a position of the padded vectors. -/
abbrev padPos (p : Fin 4000000) : Fin 4063232 := ⟨p.val, by have := p.isLt; omega⟩
/-- The row of pair p in the [31744, 128] layout. -/
abbrev gridRow (p : Fin 4000000) : Fin 31744 := ⟨p.val / 128, by have := p.isLt; omega⟩
/-- The lane of pair p in the [31744, 128] layout. -/
abbrev gridLane (p : Fin 4000000) : Fin 128 := ⟨p.val % 128, Nat.mod_lt _ (by decide)⟩

/-- Row and lane of pair p address position p. -/
theorem rowLane (p : Fin 4000000) (h : 128 * (gridRow p).val + (gridLane p).val < 4063232) :
    (⟨128 * (gridRow p).val + (gridLane p).val, h⟩ : Fin 4063232) = padPos p := by
  refine Fin.ext ?_
  show 128 * (p.val / 128) + p.val % 128 = p.val
  omega

/-- The first 4,000,000 entries of a padded vector. -/
abbrev headOf {α : Type} (x : S4063232.Idx → α) : S4000000.Idx → α :=
  extractStridedSlice S4000000 ![0] x slices_S4063232_S4000000_0

section Arrays

variable (A0 : FVec Ideal S500000x3 .f32) (A1 : IVec S500000x4 32) (A2 : IVec S4000000x2 32) (A3 : IVec S500000x4 1)

/-! ## The kernel program's gathered arrays -/

/-- The packed words of every padded pair's first atom. -/
abbrev kWordsI : IVec S4063232 32 := takeWords (packed A1 A3) (padIdx (pairCol0 A2))
/-- The packed words of every padded pair's second atom. -/
abbrev kWordsJ : IVec S4063232 32 := takeWords (packed A1 A3) (padIdx (pairCol1 A2))
/-- The coordinates of every padded pair's first atom. -/
abbrev kPtsI : FVec Ideal S3x4063232 .f32 := takeCoords (coordsT A0) (padIdx (pairCol0 A2))
/-- The coordinates of every padded pair's second atom. -/
abbrev kPtsJ : FVec Ideal S3x4063232 .f32 := takeCoords (coordsT A0) (padIdx (pairCol1 A2))

/-- The region's result on the gathered arrays laid out as rows of lanes. -/
abbrev kGrid : FVec Ideal S31744x128 .f32 :=
  netGrid (shapeCast S31744x128 (kWordsI A1 A2 A3) shapeCasts_S4063232_S31744x128)
    (shapeCast S31744x128 (kWordsJ A1 A2 A3) shapeCasts_S4063232_S31744x128)
    (shapeCast S3x31744x128 (kPtsI A0 A2) shapeCasts_S3x4063232_S3x31744x128)
    (shapeCast S3x31744x128 (kPtsJ A0 A2) shapeCasts_S3x4063232_S3x31744x128)

/-- Atom a's packed word: residue number, sulfur flag, four alternative flags. -/
abbrev wordOf (a : Fin 500000) : BitVec 32 :=
  pack (A1 (ix2 a (1 : Fin 4))) (IntOp.cmpi .eq (A1 (ix2 a (0 : Fin 4))) 7#32) (A3 (ix2 a (0 : Fin 4)))
    (A3 (ix2 a (1 : Fin 4))) (A3 (ix2 a (2 : Fin 4))) (A3 (ix2 a (3 : Fin 4))) .host

/-! ## The padded index vectors at a pair -/

theorem padCol0_apply (p : Fin 4000000) : padIdx (pairCol0 A2) (ix1 (padPos p)) = A2 (ix2 p (0 : Fin 2)) :=
  (padIdx_apply _ _).trans ((dif_pos p.isLt).trans (pairCol0_apply A2 p))

theorem padCol1_apply (p : Fin 4000000) : padIdx (pairCol1 A2) (ix1 (padPos p)) = A2 (ix2 p (1 : Fin 2)) :=
  (padIdx_apply _ _).trans ((dif_pos p.isLt).trans (pairCol1_apply A2 p))

/-! ## The gathered words and points at a pair -/

section Ranges

variable (hP : ∀ (p : Fin 4000000) (k : Fin 2), 0 ≤ (A2 (ix2 p k)).toInt ∧ (A2 (ix2 p k)).toInt < 500000)
include hP

/-- The gathered word of pair p's first atom is that atom's packed word. -/
theorem kWordsI_apply (p : Fin 4000000) :
    kWordsI A1 A2 A3 (ix1 (padPos p)) = wordOf A1 A3 (Cert.Spec.iAt A2 p) := by
  have hq := padCol0_apply A2 p
  have h0 : 0 ≤ (padIdx (pairCol0 A2) (ix1 (padPos p))).toInt := by rw [hq]; exact (hP p 0).1
  have h1 : (padIdx (pairCol0 A2) (ix1 (padPos p))).toInt < 500000 := by rw [hq]; exact (hP p 0).2
  refine (takeWords_apply _ _ _ h0 h1).trans ?_
  exact (congrArg (fun a => packed A1 A3 (ix1 a)) (atom_eq _ _ hq (hP p 0).1 (hP p 0).2 _)).trans
    (packed_apply A1 A3 _)

/-- The gathered word of pair p's second atom is that atom's packed word. -/
theorem kWordsJ_apply (p : Fin 4000000) :
    kWordsJ A1 A2 A3 (ix1 (padPos p)) = wordOf A1 A3 (Cert.Spec.jAt A2 p) := by
  have hq := padCol1_apply A2 p
  have h0 : 0 ≤ (padIdx (pairCol1 A2) (ix1 (padPos p))).toInt := by rw [hq]; exact (hP p 1).1
  have h1 : (padIdx (pairCol1 A2) (ix1 (padPos p))).toInt < 500000 := by rw [hq]; exact (hP p 1).2
  refine (takeWords_apply _ _ _ h0 h1).trans ?_
  exact (congrArg (fun a => packed A1 A3 (ix1 a)) (atom_eq _ _ hq (hP p 1).1 (hP p 1).2 _)).trans
    (packed_apply A1 A3 _)

/-- The gathered point of pair p's first atom is that atom's coordinates. -/
theorem kPtsI_apply (k : Fin 3) (p : Fin 4000000) :
    kPtsI A0 A2 (ix2 k (padPos p)) = A0 (ix2 (Cert.Spec.iAt A2 p) k) := by
  have hq := padCol0_apply A2 p
  have h0 : 0 ≤ (padIdx (pairCol0 A2) (ix1 (padPos p))).toInt := by rw [hq]; exact (hP p 0).1
  have h1 : (padIdx (pairCol0 A2) (ix1 (padPos p))).toInt < 500000 := by rw [hq]; exact (hP p 0).2
  refine (takeCoords_apply _ _ k _ h0 h1).trans ?_
  exact (congrArg (fun a => coordsT A0 (ix2 k a)) (atom_eq _ _ hq (hP p 0).1 (hP p 0).2 _)).trans
    (coordsT_apply A0 k _)

/-- The gathered point of pair p's second atom is that atom's coordinates. -/
theorem kPtsJ_apply (k : Fin 3) (p : Fin 4000000) :
    kPtsJ A0 A2 (ix2 k (padPos p)) = A0 (ix2 (Cert.Spec.jAt A2 p) k) := by
  have hq := padCol1_apply A2 p
  have h0 : 0 ≤ (padIdx (pairCol1 A2) (ix1 (padPos p))).toInt := by rw [hq]; exact (hP p 1).1
  have h1 : (padIdx (pairCol1 A2) (ix1 (padPos p))).toInt < 500000 := by rw [hq]; exact (hP p 1).2
  refine (takeCoords_apply _ _ k _ h0 h1).trans ?_
  exact (congrArg (fun a => coordsT A0 (ix2 k a)) (atom_eq _ _ hq (hP p 1).1 (hP p 1).2 _)).trans
    (coordsT_apply A0 k _)

/-- The first atom's word, read from the head of the padded vector. -/
theorem kHeadI_apply (p : Fin 4000000) :
    headOf (kWordsI A1 A2 A3) (ix1 p) = wordOf A1 A3 (Cert.Spec.iAt A2 p) :=
  (slice_head_apply _ p).trans (kWordsI_apply A1 A2 A3 hP p)

/-- The second atom's word, read from the head of the padded vector. -/
theorem kHeadJ_apply (p : Fin 4000000) :
    headOf (kWordsJ A1 A2 A3) (ix1 p) = wordOf A1 A3 (Cert.Spec.jAt A2 p) :=
  (slice_head_apply _ p).trans (kWordsJ_apply A1 A2 A3 hP p)

/-- The first atom's word, read at pair p's row and lane. -/
theorem kRowsI_apply (p : Fin 4000000) :
    shapeCast S31744x128 (kWordsI A1 A2 A3) shapeCasts_S4063232_S31744x128 (ix2 (gridRow p) (gridLane p))
      = wordOf A1 A3 (Cert.Spec.iAt A2 p) :=
  (shapeCast_rows_apply _ _ _).trans
    ((congrArg (fun q => kWordsI A1 A2 A3 (ix1 q)) (rowLane p _)).trans (kWordsI_apply A1 A2 A3 hP p))

/-- The second atom's word, read at pair p's row and lane. -/
theorem kRowsJ_apply (p : Fin 4000000) :
    shapeCast S31744x128 (kWordsJ A1 A2 A3) shapeCasts_S4063232_S31744x128 (ix2 (gridRow p) (gridLane p))
      = wordOf A1 A3 (Cert.Spec.jAt A2 p) :=
  (shapeCast_rows_apply _ _ _).trans
    ((congrArg (fun q => kWordsJ A1 A2 A3 (ix1 q)) (rowLane p _)).trans (kWordsJ_apply A1 A2 A3 hP p))

/-- The first atom's point, read at pair p's row and lane. -/
theorem kRows3I_apply (k : Fin 3) (p : Fin 4000000) :
    shapeCast S3x31744x128 (kPtsI A0 A2) shapeCasts_S3x4063232_S3x31744x128 (ix3 k (gridRow p) (gridLane p))
      = A0 (ix2 (Cert.Spec.iAt A2 p) k) :=
  (shapeCast_rows3_apply _ _ _ _).trans
    ((congrArg (fun q => kPtsI A0 A2 (ix2 k q)) (rowLane p _)).trans (kPtsI_apply A0 A2 hP k p))

/-- The second atom's point, read at pair p's row and lane. -/
theorem kRows3J_apply (k : Fin 3) (p : Fin 4000000) :
    shapeCast S3x31744x128 (kPtsJ A0 A2) shapeCasts_S3x4063232_S3x31744x128 (ix3 k (gridRow p) (gridLane p))
      = A0 (ix2 (Cert.Spec.jAt A2 p) k) :=
  (shapeCast_rows3_apply _ _ _ _).trans
    ((congrArg (fun q => kPtsJ A0 A2 (ix2 k q)) (rowLane p _)).trans (kPtsJ_apply A0 A2 hP k p))

end Ranges

/-! ## Reading a packed word -/

section Reads

variable (hR : ∀ a : Fin 500000, 0 ≤ (A1 (ix2 a (1 : Fin 4))).toInt ∧ (A1 (ix2 a (1 : Fin 4))).toInt < 500)
include hR

/-- Bit 9 of an atom's word is its sulfur flag, on either unit. -/
theorem wordOf_bit9 (u' : ArithUnit) (a : Fin 500000) :
    IntOp.andi (IntOp.shrsi u' (wordOf A1 A3 a) 9#32) 1#32
      = (IntOp.cmpi .eq (A1 (ix2 a (0 : Fin 4))) 7#32).setWidth 32 :=
  read_s .host u' _ _ _ _ _ _ (hR a).1 (by have := (hR a).2; omega)

/-- The low nine bits of an atom's word are its residue number. -/
theorem wordOf_low (a : Fin 500000) : IntOp.andi (wordOf A1 A3 a) 511#32 = A1 (ix2 a (1 : Fin 4)) :=
  read_r .host _ _ _ _ _ _ (hR a).1 (by have := (hR a).2; omega)

/-- Bit 10 + c of an atom's word is positive exactly when the atom has alternative c. -/
theorem wordOf_alt (a : Fin 500000) (c : Fin 4) :
    IntOp.cmpi .sgt (IntOp.andi (IntOp.shrsi .host (wordOf A1 A3 a) (BitVec.ofNat 32 (10 + c.val))) 1#32) 0#32
      = A3 (ix2 a c) := by
  have h0 := (hR a).1
  have h1 : (A1 (ix2 a (1 : Fin 4))).toInt < 512 := by have := (hR a).2; omega
  match c with
  | ⟨0, _⟩ =>
    exact (congrArg (IntOp.cmpi .sgt · 0#32) (read_a0 .host .host _ _ _ _ _ _ h0 h1)).trans (cmpi_sgt_setWidth _)
  | ⟨1, _⟩ =>
    exact (congrArg (IntOp.cmpi .sgt · 0#32) (read_a1 .host .host _ _ _ _ _ _ h0 h1)).trans (cmpi_sgt_setWidth _)
  | ⟨2, _⟩ =>
    exact (congrArg (IntOp.cmpi .sgt · 0#32) (read_a2 .host .host _ _ _ _ _ _ h0 h1)).trans (cmpi_sgt_setWidth _)
  | ⟨3, _⟩ =>
    exact (congrArg (IntOp.cmpi .sgt · 0#32) (read_a3 .host .host _ _ _ _ _ _ h0 h1)).trans (cmpi_sgt_setWidth _)

/-- The body's sulfur test on two atoms' words is the specification's on their name codes. -/
theorem wordsSulfur_wordOf (a b : Fin 500000) :
    wordsSulfur (wordOf A1 A3 a) (wordOf A1 A3 b)
      = Cert.Spec.bothSulfur (A1 (ix2 a (0 : Fin 4))) (A1 (ix2 b (0 : Fin 4))) := by
  unfold wordsSulfur
  rw [wordOf_bit9 A1 A3 hR .vector a, wordOf_bit9 A1 A3 hR .vector b]
  exact cmpi_sgt_andi_setWidth _ _

/-- The body's residue gap on two atoms' words is the specification's on their residue numbers. -/
theorem wordsGap_wordOf (a b : Fin 500000) :
    wordsGap (wordOf A1 A3 a) (wordOf A1 A3 b)
      = Cert.Spec.resGap (A1 (ix2 a (1 : Fin 4))) (A1 (ix2 b (1 : Fin 4))) := by
  unfold wordsGap
  rw [wordOf_low A1 A3 hR a, wordOf_low A1 A3 hR b]
  exact absE_int_sub _ _

end Reads

/-! ## The three results -/

section Results

variable (hP : ∀ (p : Fin 4000000) (k : Fin 2), 0 ≤ (A2 (ix2 p k)).toInt ∧ (A2 (ix2 p k)).toInt < 500000)
  (hR : ∀ a : Fin 500000, 0 ≤ (A1 (ix2 a (1 : Fin 4))).toInt ∧ (A1 (ix2 a (1 : Fin 4))).toInt < 500)
include hP hR

/-- The kernel program's sulfur flag of pair p is the specification's. -/
theorem kSulfur_apply (p : Fin 4000000) :
    sulfurOf (headOf (kWordsI A1 A2 A3)) (headOf (kWordsJ A1 A2 A3)) (ix1 p) = Cert.Spec.sulfurAt A1 A2 p := by
  rw [sulfurOf_apply, kHeadI_apply A1 A2 A3 hP p, kHeadJ_apply A1 A2 A3 hP p,
    wordOf_bit9 A1 A3 hR .host, wordOf_bit9 A1 A3 hR .host]
  exact cmpi_sgt_andi_setWidth _ _

/-- The kernel program's energy of pair p is the specification's. -/
theorem kNet_apply (p : Fin 4000000) :
    netOf (kGrid A0 A1 A2 A3) (ix1 p) = Cert.Spec.netAt A0 A1 A2 p := by
  refine (netOf_apply _ p).trans ?_
  refine (netGrid_apply _ _ _ _ (gridRow p) (gridLane p)).trans ?_
  have c1 : (fun k => shapeCast S3x31744x128 (kPtsI A0 A2) shapeCasts_S3x4063232_S3x31744x128 (ix3 k (gridRow p) (gridLane p)))
      = fun k => A0 (ix2 (Cert.Spec.iAt A2 p) k) := funext fun k => kRows3I_apply A0 A2 hP k p
  have c2 : (fun k => shapeCast S3x31744x128 (kPtsJ A0 A2) shapeCasts_S3x4063232_S3x31744x128 (ix3 k (gridRow p) (gridLane p)))
      = fun k => A0 (ix2 (Cert.Spec.jAt A2 p) k) := funext fun k => kRows3J_apply A0 A2 hP k p
  rw [kRowsI_apply A1 A2 A3 hP p, kRowsJ_apply A1 A2 A3 hP p, c1, c2]
  unfold netCell
  rw [wordsSulfur_wordOf A1 A3 hR, wordsGap_wordOf A1 A3 hR]
  rfl

/-- The kernel program's masked energy of pair p and alternative a is the specification's. -/
theorem kWeights_apply (p : Fin 4000000) (a : Fin 4) :
    weights (F := Ideal) (pairAlt (headOf (kWordsI A1 A2 A3)) (headOf (kWordsJ A1 A2 A3))) (netOf (kGrid A0 A1 A2 A3)) (ix2 p a)
      = Cert.Spec.wAt A0 A1 A2 A3 p a := by
  rw [weights_apply, pairAlt_apply, kSulfur_apply A1 A2 A3 hP hR p, kNet_apply A0 A1 A2 A3 hP hR p,
    altOf_apply, altOf_apply, kHeadI_apply A1 A2 A3 hP p, kHeadJ_apply A1 A2 A3 hP p,
    wordOf_alt A1 A3 hR, wordOf_alt A1 A3 hR]
  rfl

end Results

end Arrays

end Cert.KernelIdeal.Hand

end
-- ==== Proof.RefRun.lean ====
/-
  The reference program's run and its read-at-an-index lemmas, gathered under one name for the modules that
  compare the two programs' results.
-/
import proofs.«400768_j49443663511892_3_alg».proof.Proof.ReferenceRun
import proofs.«400768_j49443663511892_3_alg».proof.Proof.ReferenceRead
-- ==== Proof.RefMask.lean ====
/-
  The reference's sulfur mask and its per-alternative weights, read at an index.

  An element gather `table[i, k]` reads the table at the start index's two components, each read as a signed
  integer and clamped into its axis; a row gather `table[i]` reads row (the clamped start index) at the result's own
  column; two [n, 1] columns laid side by side are read column by column. Under the hypothesis that no pair-table
  word is negative the reference's wrap of a negative index is the identity, so every gathered row is the atom the
  pair-table word names, and the sulfur mask and the weights are the specification's functions of the four arrays.
-/
import proofs.«400768_j49443663511892_3_alg».proof.Proof.RefRun
import proofs.«400768_j49443663511892_3_alg».proof.Proof.Spec
import Idealize.ShloMosaic.Lib.ValueIdx
import Idealize.ShloMosaic.Lib.StableHlo.Predicate
import Idealize.ShloMosaic.Lib.Pipeline.Value

noncomputable section

namespace Cert.ReferenceIdeal.Hand

open Cert.ReferenceIdeal Cert.ReferenceIdeal.Gen Cert.ReferenceIdeal.Read Idealize.ShloMosaic Idealize.ShloMosaic.ValueIdx

/-! ## Words and indices -/

/-- A word that is not negative is not below zero: the signed comparison's bit is clear. -/
theorem slt_zero_of_nonneg (w : BitVec 32) (h : 0 ≤ w.toInt) : IntOp.cmpi .slt w 0#32 = 0#1 := by
  have h0 : w.slt 0#32 = false := by
    simp only [BitVec.slt, BitVec.toInt_zero]
    exact decide_eq_false (by omega)
  simp only [IntOp.cmpi, h0]
  rfl

/-- The wrap of a negative index by the table length leaves a word that is not negative as it is. -/
theorem wrap_of_nonneg (w L : BitVec 32) (h : 0 ≤ w.toInt) :
    Scalar.select (IntOp.cmpi .slt w 0#32) (IntOp.addi w L) w = w := by
  rw [slt_zero_of_nonneg w h, select_zero]

/-- A rank-1 index with coordinate `p` is `ix1 p`. -/
theorem idx1_eq {n : Nat} (i : (⟨1, ![n]⟩ : Shape).Idx) (p : Fin n) (h : (i 0).val = p.val) : i = ix1 p := by
  funext d
  match d with
  | ⟨0, _⟩ => exact Fin.ext h

/-- A rank-2 index with coordinates `a`, `b` is `ix2 a b`. -/
theorem idx2_eq {n0 n1 : Nat} (i : (⟨2, ![n0, n1]⟩ : Shape).Idx) (a : Fin n0) (b : Fin n1)
    (h0 : (i 0).val = a.val) (h1 : (i 1).val = b.val) : i = ix2 a b := by
  funext d
  match d with
  | ⟨0, _⟩ => exact Fin.ext h0
  | ⟨1, _⟩ => exact Fin.ext h1

/-! ## The element gather `table[i, k]` of a [500000, 4] table at a [4000000, 2] array of index vectors -/

/-- Result element `p` reads the table at row (the first component of index vector `p`, signed, clamped into
    [0, 499999]) and column (the second, clamped into [0, 3]): both operand axes are collapsed and start-indexed, the
    result's one axis is its batch axis, the index vector lies along axis 1 of the start indices. -/
theorem gather_elem {α : Type} (x1 : S500000x4.Idx → α) (idx2 : IVec S4000000x2 32) (p : Fin 4000000) :
    Host.gather gather_S500000x4_S4000000x2_S4000000_n_01_n_n_01_1_11 x1 idx2 (ix1 p)
      = x1 (ix2 ⟨min (idx2 (ix2 p (0 : Fin 2))).toInt.toNat 499999, by omega⟩
               ⟨min (idx2 (ix2 p (1 : Fin 2))).toInt.toNat 3, by omega⟩) := by
  unfold Host.gather
  congr 1
  funext a
  refine Fin.ext ?_
  match a with
  | ⟨0, _⟩ =>
    show GatherDims.start _ (ix1 p) idx2 0 + GatherDims.batchCoord _ (ix1 p) 0 + GatherDims.offCoord _ (ix1 p) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin S500000x4.rank) ∈ gather_S500000x4_S4000000x2_S4000000_n_01_n_n_01_1_11.startIndexMap by decide)]
    have hsi : gather_S500000x4_S4000000x2_S4000000_n_01_n_n_01_1_11.siIdx (ix1 p)
        ⟨List.idxOf (0 : Fin S500000x4.rank) gather_S500000x4_S4000000x2_S4000000_n_01_n_n_01_1_11.startIndexMap,
          List.idxOf_lt_length_iff.2 (by decide)⟩ = ix2 p (0 : Fin 2) := by
      funext b; refine Fin.ext ?_
      match b with
      | ⟨0, _⟩ => rfl
      | ⟨1, _⟩ => rfl
    rw [hsi]
    rfl
  | ⟨1, _⟩ =>
    show GatherDims.start _ (ix1 p) idx2 1 + GatherDims.batchCoord _ (ix1 p) 1 + GatherDims.offCoord _ (ix1 p) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin S500000x4.rank) ∈ gather_S500000x4_S4000000x2_S4000000_n_01_n_n_01_1_11.startIndexMap by decide)]
    have hsi : gather_S500000x4_S4000000x2_S4000000_n_01_n_n_01_1_11.siIdx (ix1 p)
        ⟨List.idxOf (1 : Fin S500000x4.rank) gather_S500000x4_S4000000x2_S4000000_n_01_n_n_01_1_11.startIndexMap,
          List.idxOf_lt_length_iff.2 (by decide)⟩ = ix2 p (1 : Fin 2) := by
      funext b; refine Fin.ext ?_
      match b with
      | ⟨0, _⟩ => rfl
      | ⟨1, _⟩ => rfl
    rw [hsi]
    rfl

/-- The same read, at a row and a column known by their values. -/
theorem gather_elem_at {α : Type} (x1 : S500000x4.Idx → α) (idx2 : IVec S4000000x2 32) (p : Fin 4000000)
    (r : Fin 500000) (c : Fin 4)
    (hr : min (idx2 (ix2 p (0 : Fin 2))).toInt.toNat 499999 = r.val)
    (hc : min (idx2 (ix2 p (1 : Fin 2))).toInt.toNat 3 = c.val) :
    Host.gather gather_S500000x4_S4000000x2_S4000000_n_01_n_n_01_1_11 x1 idx2 (ix1 p) = x1 (ix2 r c) := by
  rw [gather_elem]
  congr 1
  exact idx2_eq _ r c hr hc

/-! ## The row gather `table[i]` of a [500000, 4] table at a [4000000, 1] column of row numbers -/

/-- Result element `(p, a)` reads the table at row (entry `p` of the column, signed, clamped into [0, 499999]) and
    column `a`: operand axis 0 is collapsed and start-indexed, operand axis 1 is the result's offset axis. -/
theorem gather_row {α : Type} (x3 : S500000x4.Idx → α) (col : IVec S4000000x1 32) (p : Fin 4000000) (a : Fin 4) :
    Host.gather gather_S500000x4_S4000000x1_S4000000x4_1_0_n_n_0_1_14 x3 col (ix2 p a)
      = x3 (ix2 ⟨min (col (ix2 p (0 : Fin 1))).toInt.toNat 499999, by omega⟩ a) := by
  unfold Host.gather
  congr 1
  funext c
  refine Fin.ext ?_
  match c with
  | ⟨0, _⟩ =>
    show GatherDims.start _ (ix2 p a) col 0 + GatherDims.batchCoord _ (ix2 p a) 0 + GatherDims.offCoord _ (ix2 p a) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin S500000x4.rank) ∈ gather_S500000x4_S4000000x1_S4000000x4_1_0_n_n_0_1_14.startIndexMap by decide)]
    have hsi : gather_S500000x4_S4000000x1_S4000000x4_1_0_n_n_0_1_14.siIdx (ix2 p a)
        ⟨List.idxOf (0 : Fin S500000x4.rank) gather_S500000x4_S4000000x1_S4000000x4_1_0_n_n_0_1_14.startIndexMap,
          List.idxOf_lt_length_iff.2 (by decide)⟩ = ix2 p (0 : Fin 1) := by
      funext b; refine Fin.ext ?_
      match b with
      | ⟨0, _⟩ => rfl
      | ⟨1, _⟩ => rfl
    rw [hsi]
    rfl
  | ⟨1, _⟩ =>
    show GatherDims.start _ (ix2 p a) col 1 + GatherDims.batchCoord _ (ix2 p a) 1 + GatherDims.offCoord _ (ix2 p a) 1 = _
    rw [GatherDims.batchCoord_eq_zero _ _ _ List.not_mem_nil]
    unfold GatherDims.start
    rw [dif_neg (show (1 : Fin S500000x4.rank) ∉ gather_S500000x4_S4000000x1_S4000000x4_1_0_n_n_0_1_14.startIndexMap by decide)]
    unfold GatherDims.offCoord
    rw [dif_pos (show (1 : Fin S500000x4.rank) ∈ gather_S500000x4_S4000000x1_S4000000x4_1_0_n_n_0_1_14.sKept by decide)]
    simp only [Nat.zero_add]
    rfl

/-- The same read, at a row known by its value. -/
theorem gather_row_at {α : Type} (x3 : S500000x4.Idx → α) (col : IVec S4000000x1 32) (p : Fin 4000000) (a : Fin 4)
    (r : Fin 500000) (hr : min (col (ix2 p (0 : Fin 1))).toInt.toNat 499999 = r.val) :
    Host.gather gather_S500000x4_S4000000x1_S4000000x4_1_0_n_n_0_1_14 x3 col (ix2 p a) = x3 (ix2 r a) := by
  rw [gather_row]
  congr 1
  exact idx2_eq _ r a hr rfl

/-! ## Two [4000000, 1] columns laid side by side -/

/-- Column 0 of the concatenation is the first column. -/
theorem concat_col0 {α : Type} (A B : S4000000x1.Idx → α) (p : Fin 4000000) :
    concatenate S4000000x2 1 [⟨S4000000x1, A⟩, ⟨S4000000x1, B⟩] concatenates_S4000000x1_S4000000x1_S4000000x2_d1 (ix2 p (0 : Fin 2))
      = A (ix2 p (0 : Fin 1)) :=
  concatenate_pair_apply_left (t := S4000000x2) 1 A B concatenates_S4000000x1_S4000000x1_S4000000x2_d1 (ix2 p (0 : Fin 2)) rfl (ix2 p (0 : Fin 1)) (fun b => by
    match b with
    | ⟨0, _⟩ => rfl
    | ⟨1, _⟩ => rfl)

/-- Column 1 of the concatenation is the second column. -/
theorem concat_col1 {α : Type} (A B : S4000000x1.Idx → α) (p : Fin 4000000) :
    concatenate S4000000x2 1 [⟨S4000000x1, A⟩, ⟨S4000000x1, B⟩] concatenates_S4000000x1_S4000000x1_S4000000x2_d1 (ix2 p (1 : Fin 2))
      = B (ix2 p (0 : Fin 1)) :=
  concatenate_pair_apply_right (t := S4000000x2) 1 A B concatenates_S4000000x1_S4000000x1_S4000000x2_d1 (ix2 p (1 : Fin 2)) rfl rfl (ix2 p (0 : Fin 1))
    (fun b hb => by
      match b with
      | ⟨0, _⟩ => rfl
      | ⟨1, _⟩ => exact absurd rfl hb)
    rfl

/-! ## The reference's stages at a pair -/

section Stages

variable (x0 : FVec Ideal S500000x3 .f32) (x1 : IVec S500000x4 32) (x2 : IVec S4000000x2 32) (x3 : IVec S500000x4 1)
variable (hP : ∀ (p : Fin 4000000) (k : Fin 2), 0 ≤ (x2 (ix2 p k)).toInt ∧ (x2 (ix2 p k)).toInt < 500000)
include hP

omit hP in
/-- Stage 1 is the pair table's first column. -/
theorem v1_at (p : Fin 4000000) : val_main_v1 (F := Ideal) x2 (ix1 p) = x2 (ix2 p (0 : Fin 2)) := by
  rw [val_main_v1_apply, val_main_v0_apply]
  congr 1
  exact idx2_eq _ p (0 : Fin 2) (Nat.div_one _) rfl

omit hP in
/-- Stage 3 is the pair table's second column. -/
theorem v3_at (p : Fin 4000000) : val_main_v3 (F := Ideal) x2 (ix1 p) = x2 (ix2 p (1 : Fin 2)) := by
  rw [val_main_v3_apply, val_main_v2_apply]
  congr 1
  exact idx2_eq _ p (1 : Fin 2) (Nat.div_one _) rfl

/-- The wrapped first column (stage 8) is the first column. -/
theorem v8_at (p : Fin 4000000) : val_main_v8 (F := Ideal) x2 (ix1 p) = x2 (ix2 p (0 : Fin 2)) := by
  rw [val_main_v8_apply, val_main_v5_apply, val_main_v7_apply, val_main_v4_apply, val_main_c_apply, v1_at]
  exact wrap_of_nonneg _ _ (hP p 0).1

/-- The wrapped second column (stage 21) is the second column. -/
theorem v21_at (p : Fin 4000000) : val_main_v21 (F := Ideal) x2 (ix1 p) = x2 (ix2 p (1 : Fin 2)) := by
  rw [val_main_v21_apply, val_main_v18_apply, val_main_v20_apply, val_main_v17_apply, val_main_c_3_apply, v3_at]
  exact wrap_of_nonneg _ _ (hP p 1).1

/-- The wrapped first column again (stage 100). -/
theorem v100_at (p : Fin 4000000) : val_main_v100 (F := Ideal) x2 (ix1 p) = x2 (ix2 p (0 : Fin 2)) := by
  rw [val_main_v100_apply, val_main_v97_apply, val_main_v99_apply, val_main_v96_apply, val_main_c_26_apply, v1_at]
  exact wrap_of_nonneg _ _ (hP p 0).1

/-- The wrapped second column again (stage 109). -/
theorem v109_at (p : Fin 4000000) : val_main_v109 (F := Ideal) x2 (ix1 p) = x2 (ix2 p (1 : Fin 2)) := by
  rw [val_main_v109_apply, val_main_v106_apply, val_main_v108_apply, val_main_v105_apply, val_main_c_28_apply, v3_at]
  exact wrap_of_nonneg _ _ (hP p 1).1

/-- The first atom's name code (stage 14): the table at row `i`, column 0. -/
theorem v14_at (p : Fin 4000000) :
    val_main_v14 (F := Ideal) x1 x2 (ix1 p) = x1 (ix2 (Cert.Spec.iAt x2 p) (0 : Fin 4)) := by
  have h0 : val_main_v13 (F := Ideal) x2 (ix2 p (0 : Fin 2)) = x2 (ix2 p (0 : Fin 2)) := by
    unfold val_main_v13
    rw [concat_col0, val_main_v11_apply, idx1_eq (idx_main_v11 _) p rfl, v8_at x2 hP]
  have h1 : val_main_v13 (F := Ideal) x2 (ix2 p (1 : Fin 2)) = 0#32 := by
    unfold val_main_v13
    rw [concat_col1, val_main_v12_apply, val_main_v10_apply, val_main_v9_apply, val_main_c_1_apply]
  unfold val_main_v14
  exact gather_elem_at x1 _ p (Cert.Spec.iAt x2 p) (0 : Fin 4) (by rw [h0]; rfl) (by rw [h1]; rfl)

/-- The second atom's name code (stage 27): the table at row `j`, column 0. -/
theorem v27_at (p : Fin 4000000) :
    val_main_v27 (F := Ideal) x1 x2 (ix1 p) = x1 (ix2 (Cert.Spec.jAt x2 p) (0 : Fin 4)) := by
  have h0 : val_main_v26 (F := Ideal) x2 (ix2 p (0 : Fin 2)) = x2 (ix2 p (1 : Fin 2)) := by
    unfold val_main_v26
    rw [concat_col0, val_main_v24_apply, idx1_eq (idx_main_v24 _) p rfl, v21_at x2 hP]
  have h1 : val_main_v26 (F := Ideal) x2 (ix2 p (1 : Fin 2)) = 0#32 := by
    unfold val_main_v26
    rw [concat_col1, val_main_v25_apply, val_main_v23_apply, val_main_v22_apply, val_main_c_5_apply]
  unfold val_main_v27
  exact gather_elem_at x1 _ p (Cert.Spec.jAt x2 p) (0 : Fin 4) (by rw [h0]; rfl) (by rw [h1]; rfl)

/-- THE SULFUR MASK at pair `p`: both atoms' name codes are the sulfur code. -/
theorem sulfur_apply (p : Fin 4000000) :
    val_main_v30 (F := Ideal) x1 x2 (ix1 p) = Cert.Spec.sulfurAt x1 x2 p := by
  rw [val_main_v30_apply, val_main_v16_apply, val_main_v29_apply, v14_at x1 x2 hP, v27_at x1 x2 hP,
    val_main_v15_apply, val_main_c_2_apply, val_main_v28_apply, val_main_c_6_apply]
  rfl

/-- The first atom's alternative mask (stage 102) at alternative `a`. -/
theorem v102_at (p : Fin 4000000) (a : Fin 4) :
    val_main_v102 (F := Ideal) x2 x3 (ix2 p a) = x3 (ix2 (Cert.Spec.iAt x2 p) a) := by
  have h0 : val_main_v101 (F := Ideal) x2 (ix2 p (0 : Fin 1)) = x2 (ix2 p (0 : Fin 2)) := by
    rw [val_main_v101_apply, idx1_eq (idx_main_v101 _) p rfl, v100_at x2 hP]
  unfold val_main_v102
  exact gather_row_at x3 _ p a (Cert.Spec.iAt x2 p) (by rw [h0]; rfl)

/-- The second atom's alternative mask (stage 111) at alternative `a`. -/
theorem v111_at (p : Fin 4000000) (a : Fin 4) :
    val_main_v111 (F := Ideal) x2 x3 (ix2 p a) = x3 (ix2 (Cert.Spec.jAt x2 p) a) := by
  have h0 : val_main_v110 (F := Ideal) x2 (ix2 p (0 : Fin 1)) = x2 (ix2 p (1 : Fin 2)) := by
    rw [val_main_v110_apply, idx1_eq (idx_main_v110 _) p rfl, v109_at x2 hP]
  unfold val_main_v111
  exact gather_row_at x3 _ p a (Cert.Spec.jAt x2 p) (by rw [h0]; rfl)

/-- THE WEIGHTS at pair `p`, alternative `a`: the pair's energy where the pair is a sulfur pair and both atoms have
    the alternative, zero elsewhere. The energy's value at the pair is the hypothesis `hnet`. -/
theorem weights_apply (p : Fin 4000000) (a : Fin 4)
    (hnet : val_main_v94 (F := Ideal) x0 x1 x2 (ix1 p) = Cert.Spec.netAt x0 x1 x2 p) :
    val_main_v114 (F := Ideal) x0 x1 x2 x3 (ix2 p a) = Cert.Spec.wAt x0 x1 x2 x3 p a := by
  rw [val_main_v114_apply, val_main_v112_apply, val_main_v104_apply, val_main_v103_apply, val_main_v95_apply,
    idx1_eq (idx_main_v95 _) p rfl, sulfur_apply x1 x2 hP, v102_at x2 x3 hP, v111_at x2 x3 hP,
    val_main_call3_v1_apply, val_main_v113_apply, idx1_eq (idx_main_v113 _) p rfl, hnet,
    val_main_call3_v2_apply, val_main_call3_v0_apply, val_main_cst_30_apply]
  rfl

end Stages

end Cert.ReferenceIdeal.Hand

end
-- ==== Proof.RefNet.lean ====
/-
  The reference program's pair energy, read pair by pair.

  For a pair `p` the reference gathers the two atoms' coordinate rows and residue numbers, forms the shifted
  Euclidean distance and the residue gap, and from them the pair's energy. Each gather reads its table at the start
  index read signed and clamped into the table; the pair table's entries are row numbers inside the atom tables, so
  the wrap of a negative index that precedes each gather is the identity and the clamped row is the atom the
  specification names. The residue numbers lie in [0, 500), so their 32-bit difference does not wrap and its
  two's-complement absolute value is the absolute value of the integer difference.
  * `gather_row`, `gather_elem`: the two gathers at an index (a whole row of the coordinate table; one element of
    the description table at a (row, column) index vector).
  * `concat_col0`, `concat_col1`: the two columns of the (row, column) index vector.
  * `dist_apply`, `gap_apply`, `net_apply`: the distance, the residue gap and the pair energy at pair `p` are
    the specification's.
-/
import proofs.«400768_j49443663511892_3_alg».proof.Proof.RefRun
import proofs.«400768_j49443663511892_3_alg».proof.Proof.Spec
import Idealize.ShloMosaic.Lib.ValueIdx
import Idealize.ShloMosaic.Lib.StableHlo.Predicate
import Idealize.ShloMosaic.Lib.Pipeline.Value
import Idealize.ShloMosaic.PureOps.Ideal.Laws

noncomputable section

namespace Cert.ReferenceIdeal.HandNet

open Cert.ReferenceIdeal Cert.ReferenceIdeal.Gen Cert.ReferenceIdeal.Read Idealize.ShloMosaic Idealize.ShloMosaic.ValueIdx

/-! ## Words -/

/-- The wrap of a negative index by the table length leaves a nonnegative index alone. -/
theorem wrap_id (w : BitVec 32) (h : 0 ≤ w.toInt) :
    Scalar.select (IntOp.cmpi .slt w 0#32) (IntOp.addi w 500000#32) w = w := by
  have hc : IntOp.cmpi .slt w 0#32 = 0#1 := by
    unfold IntOp.cmpi
    have : w.slt 0#32 = false := by
      rw [BitVec.slt]
      exact decide_eq_false (by rw [show (0#32 : BitVec 32).toInt = 0 from rfl]; omega)
    simp only [this]
    rfl
  rw [hc]
  exact select_zero _ _

/-- Two residue numbers in [0, 500): their 32-bit difference does not wrap, and its two's-complement absolute
    value is the absolute value of the integer difference. -/
theorem absi_subi_toInt (a b : BitVec 32) (ha0 : 0 ≤ a.toInt) (ha : a.toInt < 500)
    (hb0 : 0 ≤ b.toInt) (hb : b.toInt < 500) :
    (IntOp.absi (IntOp.subi a b)).toInt = |a.toInt - b.toInt| := by
  have hd : (a - b).toInt = a.toInt - b.toInt := by
    rw [BitVec.toInt_sub, Int.bmod_def]
    norm_num
    omega
  unfold IntOp.absi IntOp.subi
  rw [BitVec.msb_eq_toInt, hd]
  by_cases h : a.toInt - b.toInt < 0
  · rw [decide_eq_true h, if_pos rfl, BitVec.toInt_neg, hd, abs_of_neg h, Int.bmod_def]
    norm_num
    omega
  · rw [decide_eq_false h, if_neg (by simp), hd, abs_of_nonneg (by omega)]

/-! ## The gathers at an index -/

/-- THE ROW GATHER `x[i]` of the [500000 × 3] table at an [n × 1] column of row numbers: element `(p, k)` is the
    table's at row `col[p, 0]`, read signed and clamped into [0, 499999], and column `k`. Axis 0 of the table is
    collapsed and start-indexed (the clamped start, no batching or offset part); axis 1 is the one offset axis
    (start 0, the result's coordinate `k`). -/
theorem gather_row {α : Type} {w : Nat} (x : S500000x3.Idx → α) (col : IVec S4000000x1 w)
    (p : Fin 4000000) (k : Fin 3) :
    Host.gather gather_S500000x3_S4000000x1_S4000000x3_1_0_n_n_0_1_13 x col (ix2 p k)
      = x (ix2 ⟨min (col (ix2 p (0 : Fin 1))).toInt.toNat 499999, by omega⟩ k) := by
  unfold Host.gather
  congr 1
  funext a
  refine Fin.ext ?_
  match a with
  | ⟨0, _⟩ =>
    show GatherDims.start _ (ix2 p k) col 0 + GatherDims.batchCoord _ (ix2 p k) 0 + GatherDims.offCoord _ (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S500000x3_S4000000x1_S4000000x3_1_0_n_n_0_1_13.startIndexMap from List.mem_singleton.mpr rfl)]
    have hsi : gather_S500000x3_S4000000x1_S4000000x3_1_0_n_n_0_1_13.siIdx (ix2 p k)
        ⟨List.idxOf (0 : Fin 2) gather_S500000x3_S4000000x1_S4000000x3_1_0_n_n_0_1_13.startIndexMap,
          List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show GatherDims.start _ (ix2 p k) col 1 + GatherDims.batchCoord _ (ix2 p k) 1 + GatherDims.offCoord _ (ix2 p k) 1 = k.val
    rw [GatherDims.batchCoord_eq_zero _ _ _ List.not_mem_nil]
    unfold GatherDims.start
    rw [dif_neg (show (1 : Fin 2) ∉ gather_S500000x3_S4000000x1_S4000000x3_1_0_n_n_0_1_13.startIndexMap by decide)]
    simp only [Nat.add_zero, Nat.zero_add]
    rfl

/-- The row gather with its start index named. -/
theorem gather_row_of {α : Type} {w : Nat} (x : S500000x3.Idx → α) (col : IVec S4000000x1 w)
    (p : Fin 4000000) (k : Fin 3) (r : BitVec w) (hr : col (ix2 p (0 : Fin 1)) = r) :
    Host.gather gather_S500000x3_S4000000x1_S4000000x3_1_0_n_n_0_1_13 x col (ix2 p k)
      = x (ix2 ⟨min r.toInt.toNat 499999, by omega⟩ k) := by
  subst hr; exact gather_row x col p k

/-- THE ELEMENT GATHER `x[i, c]` of the [500000 × 4] table at an [n × 2] array of (row, column) index vectors:
    element `p` is the table's at row `iv[p, 0]` clamped into [0, 499999] and column `iv[p, 1]` clamped into
    [0, 3]. Both axes of the table are collapsed and start-indexed. -/
theorem gather_elem {α : Type} {w : Nat} (x : S500000x4.Idx → α) (iv : IVec S4000000x2 w) (p : Fin 4000000) :
    Host.gather gather_S500000x4_S4000000x2_S4000000_n_01_n_n_01_1_11 x iv (ix1 p)
      = x (ix2 ⟨min (iv (ix2 p (0 : Fin 2))).toInt.toNat 499999, by omega⟩
              ⟨min (iv (ix2 p (1 : Fin 2))).toInt.toNat 3, by omega⟩) := by
  unfold Host.gather
  congr 1
  funext a
  refine Fin.ext ?_
  match a with
  | ⟨0, _⟩ =>
    show GatherDims.start _ (ix1 p) iv 0 + GatherDims.batchCoord _ (ix1 p) 0 + GatherDims.offCoord _ (ix1 p) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S500000x4_S4000000x2_S4000000_n_01_n_n_01_1_11.startIndexMap by decide)]
    have hsi : gather_S500000x4_S4000000x2_S4000000_n_01_n_n_01_1_11.siIdx (ix1 p)
        ⟨List.idxOf (0 : Fin 2) gather_S500000x4_S4000000x2_S4000000_n_01_n_n_01_1_11.startIndexMap,
          List.idxOf_lt_length_iff.2 (by decide)⟩ = ix2 p (0 : Fin 2) := by
      funext b; refine Fin.ext ?_
      match b with
      | ⟨0, _⟩ => rfl
      | ⟨1, _⟩ => rfl
    rw [hsi]
    rfl
  | ⟨1, _⟩ =>
    show GatherDims.start _ (ix1 p) iv 1 + GatherDims.batchCoord _ (ix1 p) 1 + GatherDims.offCoord _ (ix1 p) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S500000x4_S4000000x2_S4000000_n_01_n_n_01_1_11.startIndexMap by decide)]
    have hsi : gather_S500000x4_S4000000x2_S4000000_n_01_n_n_01_1_11.siIdx (ix1 p)
        ⟨List.idxOf (1 : Fin 2) gather_S500000x4_S4000000x2_S4000000_n_01_n_n_01_1_11.startIndexMap,
          List.idxOf_lt_length_iff.2 (by decide)⟩ = ix2 p (1 : Fin 2) := by
      funext b; refine Fin.ext ?_
      match b with
      | ⟨0, _⟩ => rfl
      | ⟨1, _⟩ => rfl
    rw [hsi]
    rfl

/-- The element gather with its two start-index components named. -/
theorem gather_elem_of {α : Type} {w : Nat} (x : S500000x4.Idx → α) (iv : IVec S4000000x2 w) (p : Fin 4000000)
    (r c : BitVec w) (hr : iv (ix2 p (0 : Fin 2)) = r) (hc : iv (ix2 p (1 : Fin 2)) = c) :
    Host.gather gather_S500000x4_S4000000x2_S4000000_n_01_n_n_01_1_11 x iv (ix1 p)
      = x (ix2 ⟨min r.toInt.toNat 499999, by omega⟩ ⟨min c.toInt.toNat 3, by omega⟩) := by
  subst hr; subst hc; exact gather_elem x iv p

/-- Column 0 of two [n × 1] columns joined along axis 1 is the first column. -/
theorem concat_col0 {α : Type} (a b : S4000000x1.Idx → α) (p : Fin 4000000) :
    concatenate S4000000x2 1 [⟨S4000000x1, a⟩, ⟨S4000000x1, b⟩] concatenates_S4000000x1_S4000000x1_S4000000x2_d1
      (ix2 p (0 : Fin 2)) = a (ix2 p (0 : Fin 1)) :=
  concatenate_pair_apply_left (1 : Fin 2) a b concatenates_S4000000x1_S4000000x1_S4000000x2_d1 (ix2 p (0 : Fin 2)) rfl
    (ix2 p (0 : Fin 1)) (fun c => match c with | ⟨0, _⟩ => rfl | ⟨1, _⟩ => rfl)

/-- Column 1 of two [n × 1] columns joined along axis 1 is the second column. -/
theorem concat_col1 {α : Type} (a b : S4000000x1.Idx → α) (p : Fin 4000000) :
    concatenate S4000000x2 1 [⟨S4000000x1, a⟩, ⟨S4000000x1, b⟩] concatenates_S4000000x1_S4000000x1_S4000000x2_d1
      (ix2 p (1 : Fin 2)) = b (ix2 p (0 : Fin 1)) :=
  concatenate_pair_apply_right (1 : Fin 2) a b concatenates_S4000000x1_S4000000x1_S4000000x2_d1 (ix2 p (1 : Fin 2)) rfl rfl
    (ix2 p (0 : Fin 1)) (fun c => match c with | ⟨0, _⟩ => fun _ => rfl | ⟨1, _⟩ => fun h => absurd rfl h) rfl

/-! ## The pair table's two columns and the wrapped indices -/

section Stages

variable (x0 : (⟨S500000x3, .f32⟩ : BufTy).Contents (Elt Ideal)) (x1 : (⟨S500000x4, .i32⟩ : BufTy).Contents (Elt Ideal)) (x2 : (⟨S4000000x2, .i32⟩ : BufTy).Contents (Elt Ideal))

/-- Stage 1 at `p`: the pair's first atom word. -/
theorem v1_at (p : Fin 4000000) : val_main_v1 (F := Ideal) x2 (ix1 p) = x2 (ix2 p (0 : Fin 2)) := by
  rw [val_main_v1_apply, val_main_v0_apply]
  congr 1
  funext a
  match a with
  | ⟨0, _⟩ => exact Fin.ext (Nat.div_one _)
  | ⟨1, _⟩ => rfl

/-- Stage 3 at `p`: the pair's second atom word. -/
theorem v3_at (p : Fin 4000000) : val_main_v3 (F := Ideal) x2 (ix1 p) = x2 (ix2 p (1 : Fin 2)) := by
  rw [val_main_v3_apply, val_main_v2_apply]
  congr 1
  funext a
  match a with
  | ⟨0, _⟩ => exact Fin.ext (Nat.div_one _)
  | ⟨1, _⟩ => rfl

/-- An [n × 1] column's row `p` is the vector's entry `p`. -/
theorem col_idx (p : Fin 4000000) : idx_main_v36 (ix2 p (0 : Fin 1)) = ix1 p := by
  funext a; match a with | ⟨0, _⟩ => rfl

variable (hP : ∀ (p : Fin 4000000) (k : Fin 2), 0 ≤ (x2 (ix2 p k)).toInt ∧ (x2 (ix2 p k)).toInt < 500000)
include hP

/-- The four wrapped copies of the pair's atom words the distance and the residue gap read. -/
theorem v35_at (p : Fin 4000000) : val_main_v35 (F := Ideal) x2 (ix1 p) = x2 (ix2 p (0 : Fin 2)) := by
  rw [val_main_v35_apply, val_main_v32_apply, val_main_v34_apply, val_main_v31_apply, val_main_v33_apply,
    val_main_c_7_apply, val_main_c_8_apply, v1_at]
  exact wrap_id _ (hP p 0).1

theorem v42_at (p : Fin 4000000) : val_main_v42 (F := Ideal) x2 (ix1 p) = x2 (ix2 p (1 : Fin 2)) := by
  rw [val_main_v42_apply, val_main_v39_apply, val_main_v41_apply, val_main_v38_apply, val_main_v40_apply,
    val_main_c_9_apply, val_main_c_10_apply, v3_at]
  exact wrap_id _ (hP p 1).1

theorem v53_at (p : Fin 4000000) : val_main_v53 (F := Ideal) x2 (ix1 p) = x2 (ix2 p (0 : Fin 2)) := by
  rw [val_main_v53_apply, val_main_v50_apply, val_main_v52_apply, val_main_v49_apply, val_main_v51_apply,
    val_main_c_11_apply, val_main_c_12_apply, v1_at]
  exact wrap_id _ (hP p 0).1

theorem v64_at (p : Fin 4000000) : val_main_v64 (F := Ideal) x2 (ix1 p) = x2 (ix2 p (1 : Fin 2)) := by
  rw [val_main_v64_apply, val_main_v61_apply, val_main_v63_apply, val_main_v60_apply, val_main_v62_apply,
    val_main_c_14_apply, val_main_c_15_apply, v3_at]
  exact wrap_id _ (hP p 1).1

/-! ## The distance -/

/-- Stage 37 at `(p, k)`: coordinate `k` of the pair's first atom. -/
theorem v37_at (p : Fin 4000000) (k : Fin 3) :
    val_main_v37 (F := Ideal) x0 x2 (ix2 p k) = x0 (ix2 (Cert.Spec.iAt x2 p) k) := by
  unfold val_main_v37
  rw [gather_row_of x0 (val_main_v36 (F := Ideal) x2) p k (x2 (ix2 p (0 : Fin 2)))
    (by rw [val_main_v36_apply, col_idx, v35_at x2 hP])]
  rfl

/-- Stage 44 at `(p, k)`: coordinate `k` of the pair's second atom. -/
theorem v44_at (p : Fin 4000000) (k : Fin 3) :
    val_main_v44 (F := Ideal) x0 x2 (ix2 p k) = x0 (ix2 (Cert.Spec.jAt x2 p) k) := by
  unfold val_main_v44
  rw [gather_row_of x0 (val_main_v43 (F := Ideal) x2) p k (x2 (ix2 p (1 : Fin 2)))
    (by rw [val_main_v43_apply, show idx_main_v43 (ix2 p (0 : Fin 1)) = ix1 p from col_idx p, v42_at x2 hP])]
  rfl

/-- THE DISTANCE at pair `p` is the specification's. -/
theorem dist_apply (p : Fin 4000000) :
    val_main_v48 (F := Ideal) x0 x2 (ix1 p) = Cert.Spec.distAt x0 x2 p := by
  rw [val_main_v48_apply, val_main_call0_v1_apply]
  unfold Cert.Spec.distAt Cert.Spec.dist
  rw [Ideal.hostUnary_sqrt_def, val_main_call0_cst_apply, Ideal.ofBits_def, Ideal.ofBits_zero_f32, zero_add]
  congr 1
  refine Finset.sum_congr rfl fun k _ => ?_
  have hk : idx_main_call0_v1 (ix1 p) k = ix2 p k := by
    funext a; match a with | ⟨0, _⟩ => rfl | ⟨1, _⟩ => rfl
  rw [hk, val_main_call0_v0_apply, val_main_v47_apply, val_main_v45_apply, val_main_v46_apply, val_main_cst_apply,
    v37_at x0 x2 hP, v44_at x0 x2 hP]
  rfl

/-! ## The residue gap -/

/-- Stage 59 at `p`: the first atom's residue number. -/
theorem v59_at (p : Fin 4000000) :
    val_main_v59 (F := Ideal) x1 x2 (ix1 p) = x1 (ix2 (Cert.Spec.iAt x2 p) (1 : Fin 4)) := by
  unfold val_main_v59
  rw [gather_elem_of x1 (val_main_v58 (F := Ideal) x2) p (x2 (ix2 p (0 : Fin 2))) 1#32
    (by unfold val_main_v58
        rw [concat_col0, val_main_v56_apply, show idx_main_v56 (ix2 p (0 : Fin 1)) = ix1 p from col_idx p, v53_at x2 hP])
    (by unfold val_main_v58
        rw [concat_col1, val_main_v57_apply, val_main_v55_apply, val_main_v54_apply, val_main_c_13_apply])]
  rfl

/-- Stage 70 at `p`: the second atom's residue number. -/
theorem v70_at (p : Fin 4000000) :
    val_main_v70 (F := Ideal) x1 x2 (ix1 p) = x1 (ix2 (Cert.Spec.jAt x2 p) (1 : Fin 4)) := by
  unfold val_main_v70
  rw [gather_elem_of x1 (val_main_v69 (F := Ideal) x2) p (x2 (ix2 p (1 : Fin 2))) 1#32
    (by unfold val_main_v69
        rw [concat_col0, val_main_v67_apply, show idx_main_v67 (ix2 p (0 : Fin 1)) = ix1 p from col_idx p, v64_at x2 hP])
    (by unfold val_main_v69
        rw [concat_col1, val_main_v68_apply, val_main_v66_apply, val_main_v65_apply, val_main_c_16_apply])]
  rfl

variable (hR : ∀ a : Fin 500000, 0 ≤ (x1 (ix2 a (1 : Fin 4))).toInt ∧ (x1 (ix2 a (1 : Fin 4))).toInt < 500)
include hR

/-- THE RESIDUE GAP at pair `p` is the specification's. -/
theorem gap_apply (p : Fin 4000000) :
    val_main_v73 (F := Ideal) x1 x2 (ix1 p) = Cert.Spec.gapAt x1 x2 p := by
  rw [val_main_v73_apply, val_main_v72_apply, val_main_v71_apply, v59_at x1 x2 hP, v70_at x1 x2 hP]
  unfold Cert.Spec.gapAt Cert.Spec.resGap
  show (((IntOp.absi (IntOp.subi _ _)).toInt : ℝ) : EReal) = _
  rw [absi_subi_toInt _ _ (hR _).1 (hR _).2 (hR _).1 (hR _).2]

/-! ## The pair energy -/

/-- THE PAIR ENERGY at pair `p` is the specification's, given the sulfur flag. -/
theorem net_apply (p : Fin 4000000)
    (hs : val_main_v30 (F := Ideal) x1 x2 (ix1 p) = Cert.Spec.sulfurAt x1 x2 p) :
    val_main_v94 (F := Ideal) x0 x1 x2 (ix1 p) = Cert.Spec.netAt x0 x1 x2 p := by
  rw [val_main_v94_apply, val_main_v93_apply, val_main_v92_apply, val_main_cst_24_apply,
    val_main_v91_apply, val_main_v85_apply, val_main_v84_apply, val_main_cst_21_apply,
    val_main_v83_apply, val_main_v82_apply, val_main_cst_20_apply,
    val_main_v81_apply, val_main_v80_apply, val_main_cst_19_apply,
    val_main_v79_apply, val_main_v78_apply, val_main_v77_apply, val_main_v76_apply, val_main_v75_apply,
    val_main_v74_apply, val_main_cst_17_apply, val_main_call1_v1_apply, val_main_call1_v0_apply, val_main_cst_18_apply,
    val_main_v90_apply, val_main_v89_apply, val_main_cst_23_apply, val_main_v88_apply, val_main_v87_apply,
    val_main_v86_apply, val_main_cst_22_apply, val_main_call2_v1_apply, val_main_call2_v0_apply, val_main_cst_25_apply,
    hs, gap_apply x1 x2 hP hR p, dist_apply x0 x2 hP p]
  rfl

end Stages

end Cert.ReferenceIdeal.HandNet

end
-- ==== Proof.LibScatterRows.lean ====
/-
  The host's accumulating float scatter of ROWS, read at an index, at the ideal instance.

  Adding the rows of `upd : [n, C]` into the rows of `x : [N, C]` that the row numbers `idx : [n]` name
  (`x[idx[p], :] += upd[p, :]` for every `p`, repeated row numbers accumulating) is
  `stablehlo.scatter` with update_window_dims `[1]`, inserted_window_dims `[0]`,
  scatter_dims_to_operand_dims `[0]` and index_vector_dim `1` over the indices as an `[n, 1]` column.
  Update element `(p, c)` lands on operand element `(idx[p], c)` — the row number read SIGNED and NOT
  clamped — and is dropped when that row is outside `[0, N)`. At the ideal instance the result at `(r, c)`
  is therefore `x[r, c] + ∑ p, [idx[p] = r] · upd[p, c]`, an exact sum in the extended reals; and since that
  sum splits over a concatenation of the updates, two such scatters one after the other are ONE scatter
  over the concatenated row numbers and the concatenated updates.
-/
import Idealize.ShloMosaic.PureOps.Ideal
import Idealize.ShloMosaic.Lib.ValueIdx
import Idealize.ShloMosaic.Lib.Pipeline.Value
import proofs.«400768_j49443663511892_3_alg».proof.KernelIdeal
import proofs.«400768_j49443663511892_3_alg».proof.ReferenceIdeal

noncomputable section

open scoped BigOperators

namespace Idealize.ShloMosaic.ScatterRows

open Idealize.ShloMosaic Idealize.ShloMosaic.ValueIdx

/-- The dimension numbers of a scatter of ROWS: operand `[N, C]`, scatter indices `[n, 1]` (one row number
    per update row), updates `[n, C]`; the updates' axis 1 is the window axis, the operand's axis 0 is the
    inserted one and the one the row number addresses. Their conditions `wf` are decided on a program's
    literal shapes. -/
abbrev rowsDims (N n C : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

section
variable {N n C w : Nat} (wf : ScatterDims.WF ⟨2, ![N, C]⟩ ⟨2, ![n, 1]⟩ ⟨2, ![n, C]⟩ [1] [0] [0] 1)

/-- Dimension numbers over these shapes with these four fields ARE `rowsDims`: their conditions are a
    proposition, so any proof of them serves. -/
theorem eq_rowsDims (d : ScatterDims ⟨2, ![N, C]⟩ ⟨2, ![n, 1]⟩ ⟨2, ![n, C]⟩)
    (h1 : d.updateWindowDims = [1]) (h2 : d.insertedWindowDims = [0])
    (h3 : d.scatterDimsToOperandDims = [0]) (h4 : d.indexVectorDim = 1) :
    ∃ wf', d = rowsDims N n C wf' := by
  obtain ⟨uw, iw, sd, iv, wf'⟩ := d
  dsimp only at h1 h2 h3 h4
  subst h1 h2 h3 h4
  exact ⟨wf', rfl⟩

/-- On the operand's ROW axis the window of update element `(p, c)` starts at the row number `idx[p, 0]`,
    read as a signed integer. -/
theorem rowsDims_start0 (idx : IVec ⟨2, ![n, 1]⟩ w) (p : Fin n) (c : Fin C) :
    (rowsDims N n C wf).start (ix2 p c) idx 0 = (idx (ix2 p 0)).toInt := by
  unfold ScatterDims.start
  rw [dif_pos (show (0 : Fin 2) ∈ (rowsDims N n C wf).scatterDimsToOperandDims from List.mem_singleton.mpr rfl)]
  have hsi : (rowsDims N n C wf).siIdx (ix2 p c) ⟨List.idxOf (0 : Fin 2) (rowsDims N n C wf).scatterDimsToOperandDims,
      List.idxOf_lt_length_iff.2 (List.mem_singleton.mpr rfl)⟩ = ix2 p 0 := by
    funext b; refine Fin.ext ?_
    match b with
    | ⟨0, _⟩ => rfl
    | ⟨1, _⟩ => rfl
  rw [hsi]

/-- On the operand's COLUMN axis every window starts at `0`: no scatter index addresses that axis. -/
theorem rowsDims_start1 (idx : IVec ⟨2, ![n, 1]⟩ w) (j : (⟨2, ![n, C]⟩ : Shape).Idx) :
    (rowsDims N n C wf).start j idx 1 = 0 := by
  unfold ScatterDims.start
  rw [dif_neg (show (1 : Fin 2) ∉ ([0] : List (Fin 2)) by decide)]

/-- The window coordinate on the operand's row axis is `0`: that axis is inserted. -/
theorem rowsDims_window0 (j : (⟨2, ![n, C]⟩ : Shape).Idx) :
    (rowsDims N n C wf).window j 0 = 0 := by
  have h : (0 : Fin 2) ∉ (rowsDims N n C wf).sKept := by
    show (0 : Fin 2) ∉ ([1] : List (Fin 2)); decide
  unfold ScatterDims.window
  rw [dif_neg h]

/-- The window coordinate of update element `(p, c)` on the operand's column axis is its column `c`. -/
theorem rowsDims_window1 (p : Fin n) (c : Fin C) :
    (rowsDims N n C wf).window (ix2 p c) 1 = c.val := by
  unfold ScatterDims.window
  have h : (1 : Fin 2) ∈ (rowsDims N n C wf).sKept := by
    show (1 : Fin 2) ∈ ([1] : List (Fin 2)); decide
  rw [dif_pos h]
  rfl

/-- WHERE AN UPDATE LANDS: update element `(p, c)` lands on operand element `(r, c')` exactly when its row
    number `idx[p, 0]`, read signed, IS `r` (so it is in `[0, N)`) and `c = c'`; a row number outside
    `[0, N)` lands nowhere. -/
theorem rowsDims_resultIdx?_eq_some_iff (idx : IVec ⟨2, ![n, 1]⟩ w) (p : Fin n) (c c' : Fin C) (r : Fin N) :
    (rowsDims N n C wf).resultIdx? (ix2 p c) idx = some (ix2 r c') ↔
      ((idx (ix2 p 0)).toInt = (r.val : Int) ∧ c = c') := by
  have hs0 := rowsDims_start0 wf idx p c
  have hs1 := rowsDims_start1 wf idx (ix2 p c)
  have hw0 := rowsDims_window0 wf (ix2 p c)
  have hw1 := rowsDims_window1 wf p c
  have hr0 : ((ix2 r c' : (⟨2, ![N, C]⟩ : Shape).Idx) 0).val = r.val := rfl
  have hr1 : ((ix2 r c' : (⟨2, ![N, C]⟩ : Shape).Idx) 1).val = c'.val := rfl
  have hN : (⟨2, ![N, C]⟩ : Shape).size 0 = N := rfl
  have hC : (⟨2, ![N, C]⟩ : Shape).size 1 = C := rfl
  unfold ScatterDims.resultIdx?
  split
  · next h =>
    rw [Option.some.injEq]
    constructor
    · intro hf
      have e0 := congrArg Fin.val (congrFun hf 0)
      have e1 := congrArg Fin.val (congrFun hf 1)
      have h0 := (h 0).1
      simp only [hs0, hs1, hw0, hw1, hr0, hr1] at e0 e1 h0
      refine ⟨by omega, Fin.ext (by omega)⟩
    · rintro ⟨hr, rfl⟩
      funext a
      revert a
      rw [Fin.forall_fin_two]
      refine ⟨Fin.ext ?_, Fin.ext ?_⟩
      · show ((rowsDims N n C wf).start (ix2 p c) idx 0 + ((rowsDims N n C wf).window (ix2 p c) 0 : Nat)).toNat = r.val
        rw [hs0, hw0, hr]; omega
      · show ((rowsDims N n C wf).start (ix2 p c) idx 1 + ((rowsDims N n C wf).window (ix2 p c) 1 : Nat)).toNat = c.val
        rw [hs1, hw1]; omega
  · next h =>
    constructor
    · intro hf; cases hf
    · rintro ⟨hr, rfl⟩
      exfalso; apply h
      rw [Fin.forall_fin_two]
      have h1 := r.isLt; have h2 := c.isLt
      refine ⟨?_, ?_⟩
      · rw [hs0, hw0, hr, hN]; clear hr0 hr1 hN hC h hs0 hs1 hw0 hw1 hr; omega
      · rw [hs1, hw1, hC]; clear hr0 hr1 hN hC h hs0 hs1 hw0 hw1 hr; omega

/-- THE SCATTER OF ROWS READ AT `(r, c)`: the operand's element plus the exact sum, over the update rows
    `p` whose row number `idx[p, 0]` (signed) is `r`, of `upd[p, c]`. -/
theorem scatterAdd_rows_apply {φ : FTy} (x : FVec Ideal ⟨2, ![N, C]⟩ φ) (idx : IVec ⟨2, ![n, 1]⟩ w)
    (upd : FVec Ideal ⟨2, ![n, C]⟩ φ) (r : Fin N) (c : Fin C) :
    Host.scatterAdd (rowsDims N n C wf) x idx upd (ix2 r c) =
      x (ix2 r c) + ∑ p : Fin n, (if (idx (ix2 p 0)).toInt = (r.val : Int) then upd (ix2 p c) else 0) := by
  show x (ix2 r c) + ∑ j ∈ Finset.univ.filter
    (fun j => (rowsDims N n C wf).resultIdx? j idx = some (ix2 r c)), upd j = _
  congr 1
  rw [Finset.sum_filter, sum_idx2]
  refine Finset.sum_congr rfl fun p _ => ?_
  simp only [rowsDims_resultIdx?_eq_some_iff]
  by_cases hA : (idx (ix2 p 0)).toInt = (r.val : Int)
  · simp only [hA, true_and]
    rw [Finset.sum_ite_eq']
    simp
  · simp [hA]

end

/-! ## Two scatters of rows in sequence are one scatter over the concatenation -/

section Pair
variable {N n C w : Nat}

/-- TWO SCATTERS ARE ONE, by positions: if the `n + n` row numbers `idx₂` and updates `upd₂` read, at the
    first `n` positions, the row numbers `idxa` and updates `upda`, and at the last `n` positions `idxb`
    and `updb`, then scattering `upd₂` at `idx₂` is scattering `upda` at `idxa` and then `updb` at `idxb`:
    the sum over `Fin (n + n)` splits into the two sums, and addition of extended reals is associative. -/
theorem scatterAdd_rows_append {φ : FTy}
    (wf : ScatterDims.WF ⟨2, ![N, C]⟩ ⟨2, ![n, 1]⟩ ⟨2, ![n, C]⟩ [1] [0] [0] 1)
    (wf₂ : ScatterDims.WF ⟨2, ![N, C]⟩ ⟨2, ![n + n, 1]⟩ ⟨2, ![n + n, C]⟩ [1] [0] [0] 1)
    (x : FVec Ideal ⟨2, ![N, C]⟩ φ)
    (idx₂ : IVec ⟨2, ![n + n, 1]⟩ w) (idxa idxb : IVec ⟨2, ![n, 1]⟩ w)
    (upd₂ : FVec Ideal ⟨2, ![n + n, C]⟩ φ) (upda updb : FVec Ideal ⟨2, ![n, C]⟩ φ)
    (hia : ∀ p : Fin n, idx₂ (ix2 (Fin.castAdd n p) 0) = idxa (ix2 p 0))
    (hib : ∀ p : Fin n, idx₂ (ix2 (Fin.natAdd n p) 0) = idxb (ix2 p 0))
    (hua : ∀ (p : Fin n) (c : Fin C), upd₂ (ix2 (Fin.castAdd n p) c) = upda (ix2 p c))
    (hub : ∀ (p : Fin n) (c : Fin C), upd₂ (ix2 (Fin.natAdd n p) c) = updb (ix2 p c)) :
    Host.scatterAdd (rowsDims N (n + n) C wf₂) x idx₂ upd₂ =
      Host.scatterAdd (rowsDims N n C wf) (Host.scatterAdd (rowsDims N n C wf) x idxa upda) idxb updb := by
  funext t
  obtain ⟨r, c, rfl⟩ : ∃ r c, t = ix2 r c := ⟨t 0, t 1, eq_ix2 t⟩
  rw [scatterAdd_rows_apply, scatterAdd_rows_apply, scatterAdd_rows_apply, Fin.sum_univ_add, add_assoc]
  congr 1
  congr 1
  · refine Finset.sum_congr rfl fun p _ => ?_
    rw [hia, hua]
  · refine Finset.sum_congr rfl fun p _ => ?_
    rw [hib, hub]

/-- A vector as an `[m, 1]` column reads, at `(p, 0)`, the vector at `p`. -/
theorem column_apply {α : Type} {m : Nat} (hb : (⟨1, ![m]⟩ : Shape).BroadcastsInDim ⟨2, ![m, 1]⟩ ![0])
    (v : (⟨1, ![m]⟩ : Shape).Idx → α) (p : Fin m) (q : Fin 1) :
    broadcastInDim ⟨2, ![m, 1]⟩ ![0] hb v (ix2 p q) = v (ix1 p) := by
  simp only [broadcastInDim]
  congr 1
  funext a
  obtain rfl : a = 0 := Subsingleton.elim _ _
  apply Fin.ext
  have hp := p.isLt
  split
  · next h1 => change m = 1 at h1; show (0 : Nat) = p.val; omega
  · rfl

/-- A concatenation of two `[n]` vectors reads the FIRST at a position below `n`. -/
theorem concat1_left {α : Type} (a b : (⟨1, ![n]⟩ : Shape).Idx → α)
    (hc : Shape.Concatenates [⟨1, ![n]⟩, ⟨1, ![n]⟩] ⟨1, ![n + n]⟩ 0) (p : Fin n) :
    concatenate ⟨1, ![n + n]⟩ 0 [⟨⟨1, ![n]⟩, a⟩, ⟨⟨1, ![n]⟩, b⟩] hc (ix1 (Fin.castAdd n p)) = a (ix1 p) :=
  concatenate_pair_apply_left 0 a b hc _ rfl (ix1 p) (fun q => by
    obtain rfl : q = 0 := Subsingleton.elim _ _
    rfl)

/-- A concatenation of two `[n]` vectors reads the SECOND, `n` positions earlier, at a position from `n` on. -/
theorem concat1_right {α : Type} (a b : (⟨1, ![n]⟩ : Shape).Idx → α)
    (hc : Shape.Concatenates [⟨1, ![n]⟩, ⟨1, ![n]⟩] ⟨1, ![n + n]⟩ 0) (p : Fin n) :
    concatenate ⟨1, ![n + n]⟩ 0 [⟨⟨1, ![n]⟩, a⟩, ⟨⟨1, ![n]⟩, b⟩] hc (ix1 (Fin.natAdd n p)) = b (ix1 p) :=
  concatenate_pair_apply_right 0 a b hc _ rfl rfl (ix1 p)
    (fun q hq => by
      obtain rfl : q = 0 := Subsingleton.elim _ _
      exact absurd rfl hq)
    (by show p.val + n = n + p.val; omega)

/-- A concatenation of two `[n, C]` arrays along the rows reads the FIRST at a row below `n`. -/
theorem concat2_left {α : Type} (a b : (⟨2, ![n, C]⟩ : Shape).Idx → α)
    (hc : Shape.Concatenates [⟨2, ![n, C]⟩, ⟨2, ![n, C]⟩] ⟨2, ![n + n, C]⟩ 0) (p : Fin n) (c : Fin C) :
    concatenate ⟨2, ![n + n, C]⟩ 0 [⟨⟨2, ![n, C]⟩, a⟩, ⟨⟨2, ![n, C]⟩, b⟩] hc (ix2 (Fin.castAdd n p) c) = a (ix2 p c) :=
  concatenate_pair_apply_left 0 a b hc _ rfl (ix2 p c) (fun q => by
    match q with
    | ⟨0, _⟩ => rfl
    | ⟨1, _⟩ => rfl)

/-- A concatenation of two `[n, C]` arrays along the rows reads the SECOND, `n` rows earlier, at a row from
    `n` on. -/
theorem concat2_right {α : Type} (a b : (⟨2, ![n, C]⟩ : Shape).Idx → α)
    (hc : Shape.Concatenates [⟨2, ![n, C]⟩, ⟨2, ![n, C]⟩] ⟨2, ![n + n, C]⟩ 0) (p : Fin n) (c : Fin C) :
    concatenate ⟨2, ![n + n, C]⟩ 0 [⟨⟨2, ![n, C]⟩, a⟩, ⟨⟨2, ![n, C]⟩, b⟩] hc (ix2 (Fin.natAdd n p) c) = b (ix2 p c) :=
  concatenate_pair_apply_right 0 a b hc _ rfl rfl (ix2 p c)
    (fun q hq => by
      match q with
      | ⟨0, _⟩ => exact absurd rfl hq
      | ⟨1, _⟩ => rfl)
    (by show p.val + n = n + p.val; omega)

/-- TWO SCATTERS ARE ONE: with `n₂ = n + n`, scattering the updates `W` twice over (the concatenation of
    `W` with itself along the rows) at the row numbers `gs ∘ (i ++ j)`, laid out as an `[n₂, 1]` column, is
    scattering `W` at `gs ∘ i` and then `W` again at `gs ∘ j`. `gs` is any map on index words, applied
    elementwise before the vector becomes a column. -/
theorem scatterAdd_rows_concat {φ : FTy} {w' n₂ : Nat} (h₂ : n₂ = n + n)
    (wf : ScatterDims.WF ⟨2, ![N, C]⟩ ⟨2, ![n, 1]⟩ ⟨2, ![n, C]⟩ [1] [0] [0] 1)
    (wf₂ : ScatterDims.WF ⟨2, ![N, C]⟩ ⟨2, ![n₂, 1]⟩ ⟨2, ![n₂, C]⟩ [1] [0] [0] 1)
    (hb : (⟨1, ![n]⟩ : Shape).BroadcastsInDim ⟨2, ![n, 1]⟩ ![0])
    (hb₂ : (⟨1, ![n₂]⟩ : Shape).BroadcastsInDim ⟨2, ![n₂, 1]⟩ ![0])
    (hc : Shape.Concatenates [⟨1, ![n]⟩, ⟨1, ![n]⟩] ⟨1, ![n₂]⟩ 0)
    (hc' : Shape.Concatenates [⟨2, ![n, C]⟩, ⟨2, ![n, C]⟩] ⟨2, ![n₂, C]⟩ 0)
    (gs : BitVec w → BitVec w')
    (x : FVec Ideal ⟨2, ![N, C]⟩ φ) (i j : IVec ⟨1, ![n]⟩ w) (W : FVec Ideal ⟨2, ![n, C]⟩ φ) :
    Host.scatterAdd (rowsDims N n₂ C wf₂) x
        (broadcastInDim ⟨2, ![n₂, 1]⟩ ![0] hb₂
          (fun q => gs (concatenate ⟨1, ![n₂]⟩ 0 [⟨⟨1, ![n]⟩, i⟩, ⟨⟨1, ![n]⟩, j⟩] hc q)))
        (concatenate ⟨2, ![n₂, C]⟩ 0 [⟨⟨2, ![n, C]⟩, W⟩, ⟨⟨2, ![n, C]⟩, W⟩] hc') =
      Host.scatterAdd (rowsDims N n C wf)
        (Host.scatterAdd (rowsDims N n C wf) x (broadcastInDim ⟨2, ![n, 1]⟩ ![0] hb (fun q => gs (i q))) W)
        (broadcastInDim ⟨2, ![n, 1]⟩ ![0] hb (fun q => gs (j q))) W := by
  subst h₂
  refine scatterAdd_rows_append wf wf₂ x _ _ _ _ _ _ ?_ ?_ ?_ ?_
  · intro p; rw [column_apply, column_apply, concat1_left]
  · intro p; rw [column_apply, column_apply, concat1_right]
  · intro p c; rw [concat2_left]
  · intro p c; rw [concat2_right]

end Pair

/-! ## The normalisation of a possibly negative index, as a map on index words -/

section Wrap

/-- The normalisation of an index word against an extent `K`: a word that is negative when read signed has
    `K` added (wrapping), any other word is kept. -/
def wrapIdx (K : BitVec 32) (v : BitVec 32) : BitVec 32 :=
  Scalar.select (IntOp.cmpi .slt v 0#32) (IntOp.addi v K) v

/-- The elementwise chain — compare with a splat `0`, add a splat `K`, select between the sum and the word —
    IS `wrapIdx K` applied elementwise. -/
theorem select_wrap_eq {s : Shape} (K : BitVec 32)
    (h0 : (⟨0, ![]⟩ : Shape).BroadcastsInDim s (![] : Fin 0 → Fin s.rank)) (v : IVec s 32) :
    select (cmpi .slt v (broadcastInDim s ![] h0 (constantI ⟨0, ![]⟩ 32 0#32)))
      (addi v (broadcastInDim s ![] h0 (constantI ⟨0, ![]⟩ 32 K))) v = fun q => wrapIdx K (v q) := rfl

end Wrap

end Idealize.ShloMosaic.ScatterRows

end

/-! ## The instance: 4000000 + 4000000 updates of 4 columns into 500000 rows -/

namespace Cert.ScatterPair

open Idealize.ShloMosaic Idealize.ShloMosaic.ScatterRows

/-- The one scatter of the `8000000` concatenated updates, at the normalised concatenated row numbers, is
    the two scatters of `4000000` updates each, one after the other: both are
    `x[r, c] + ∑ p, [i'[p] = r] · W[p, c] + ∑ p, [j'[p] = r] · W[p, c]` with `i'`, `j'` the normalised row
    numbers. The shape relations are propositions: any proofs of them serve. -/
theorem scatter_concat_eq_scatter_scatter [Cert.KernelIdeal.Facts₀] [Cert.ReferenceIdeal.Facts₀]
    (hz₈ : (⟨0, ![]⟩ : Shape).BroadcastsInDim ⟨1, ![8000000]⟩ (![] : Fin 0 → Fin 1))
    (hz₄ : (⟨0, ![]⟩ : Shape).BroadcastsInDim ⟨1, ![4000000]⟩ (![] : Fin 0 → Fin 1))
    (hb₈ : (⟨1, ![8000000]⟩ : Shape).BroadcastsInDim ⟨2, ![8000000, 1]⟩ ![0])
    (hb₄ : (⟨1, ![4000000]⟩ : Shape).BroadcastsInDim ⟨2, ![4000000, 1]⟩ ![0])
    (hc : Shape.Concatenates [⟨1, ![4000000]⟩, ⟨1, ![4000000]⟩] ⟨1, ![8000000]⟩ 0)
    (hc' : Shape.Concatenates [⟨2, ![4000000, 4]⟩, ⟨2, ![4000000, 4]⟩] ⟨2, ![8000000, 4]⟩ 0)
    (x : FVec Ideal ⟨2, ![500000, 4]⟩ .f32) (i j : IVec ⟨1, ![4000000]⟩ 32)
    (W : FVec Ideal ⟨2, ![4000000, 4]⟩ .f32) :
    Host.scatterAdd Cert.KernelIdeal.scatter_S500000x4_S8000000x1_S8000000x4_1_0_0_1 x
        (broadcastInDim ⟨2, ![8000000, 1]⟩ ![0] hb₈
          (select
            (cmpi .slt (concatenate ⟨1, ![8000000]⟩ 0 [⟨⟨1, ![4000000]⟩, i⟩, ⟨⟨1, ![4000000]⟩, j⟩] hc)
              (broadcastInDim ⟨1, ![8000000]⟩ ![] hz₈ (constantI ⟨0, ![]⟩ 32 0#32)))
            (addi (concatenate ⟨1, ![8000000]⟩ 0 [⟨⟨1, ![4000000]⟩, i⟩, ⟨⟨1, ![4000000]⟩, j⟩] hc)
              (broadcastInDim ⟨1, ![8000000]⟩ ![] hz₈ (constantI ⟨0, ![]⟩ 32 500000#32)))
            (concatenate ⟨1, ![8000000]⟩ 0 [⟨⟨1, ![4000000]⟩, i⟩, ⟨⟨1, ![4000000]⟩, j⟩] hc)))
        (concatenate ⟨2, ![8000000, 4]⟩ 0 [⟨⟨2, ![4000000, 4]⟩, W⟩, ⟨⟨2, ![4000000, 4]⟩, W⟩] hc') =
      Host.scatterAdd Cert.ReferenceIdeal.scatter_S500000x4_S4000000x1_S4000000x4_1_0_0_1
        (Host.scatterAdd Cert.ReferenceIdeal.scatter_S500000x4_S4000000x1_S4000000x4_1_0_0_1 x
          (broadcastInDim ⟨2, ![4000000, 1]⟩ ![0] hb₄
            (select (cmpi .slt i (broadcastInDim ⟨1, ![4000000]⟩ ![] hz₄ (constantI ⟨0, ![]⟩ 32 0#32)))
              (addi i (broadcastInDim ⟨1, ![4000000]⟩ ![] hz₄ (constantI ⟨0, ![]⟩ 32 500000#32))) i))
          W)
        (broadcastInDim ⟨2, ![4000000, 1]⟩ ![0] hb₄
          (select (cmpi .slt j (broadcastInDim ⟨1, ![4000000]⟩ ![] hz₄ (constantI ⟨0, ![]⟩ 32 0#32)))
            (addi j (broadcastInDim ⟨1, ![4000000]⟩ ![] hz₄ (constantI ⟨0, ![]⟩ 32 500000#32))) j))
        W := by
  have hk : Cert.KernelIdeal.scatter_S500000x4_S8000000x1_S8000000x4_1_0_0_1 =
      rowsDims 500000 8000000 4 Cert.KernelIdeal.Facts₀.scatter_S500000x4_S8000000x1_S8000000x4_1_0_0_1_wf := rfl
  have hr : Cert.ReferenceIdeal.scatter_S500000x4_S4000000x1_S4000000x4_1_0_0_1 =
      rowsDims 500000 4000000 4 Cert.ReferenceIdeal.Facts₀.scatter_S500000x4_S4000000x1_S4000000x4_1_0_0_1_wf := rfl
  rw [hk, hr, select_wrap_eq, select_wrap_eq, select_wrap_eq]
  exact scatterAdd_rows_concat (by norm_num) _ _ hb₄ hb₈ hc hc' (wrapIdx 500000#32) x i j W

end Cert.ScatterPair
-- ==== Proof.Agree.lean ====
/-
  The kernel program's results are the reference program's, at the ideal instance, under the precondition's facts:
  every pair-table entry is an atom number below 500,000 and every residue number is below 500.

  * The sulfur mask: at pair `p` both programs have "both atoms carry the sulfur name code" — the kernel reads it
    off bit 9 of the two packed words it gathered, the reference off the two gathered name codes.
  * The masked pair energies: at pair `p` and alternative `a` both have the specification's weight — the kernel's
    energy is the region's cell for that pair, computed from the packed words' low bits and the gathered coordinates;
    the reference's from the gathered residue numbers and coordinates.
  * The atoms' energies: the kernel scatters the weights once over the two index vectors joined end to end, the
    reference twice, one vector after the other; the sum over the joined vector splits into the two sums.
  * The residues' energies: both apply the same sum over atoms to equal atoms' energies.
-/
import proofs.«400768_j49443663511892_3_alg».proof.Proof.KTerm
import proofs.«400768_j49443663511892_3_alg».proof.Proof.KRegion
import proofs.«400768_j49443663511892_3_alg».proof.Proof.KBlock
import proofs.«400768_j49443663511892_3_alg».proof.Proof.KBridge
import proofs.«400768_j49443663511892_3_alg».proof.Proof.RefMask
import proofs.«400768_j49443663511892_3_alg».proof.Proof.RefNet
import proofs.«400768_j49443663511892_3_alg».proof.Proof.LibScatterRows

set_option maxRecDepth 16384

noncomputable section

namespace Cert.Agree

open Idealize.ShloMosaic Idealize.ShloMosaic.TcCoe Idealize.ShloMosaic.ValueIdx
open Idealize.SL Idealize.SL.Sem
open Cert.KernelIdeal Cert.KernelIdeal.Gen Cert.KernelIdeal.Hand

variable (m : (ℓ : Loc nD τ sig) → Buf (Elt Ideal) ℓ) (c : Dev nD)

/-- The range facts the precondition gives, of the arrays core `c` was launched with. -/
structure InRange : Prop where
  pairs : ∀ (p : Fin 4000000) (k : Fin 2), 0 ≤ (inPairs m c (ix2 p k)).toInt ∧ (inPairs m c (ix2 p k)).toInt < 500000
  resnum : ∀ a : Fin 500000, 0 ≤ (inAtoms m c (ix2 a (1 : Fin 4))).toInt ∧ (inAtoms m c (ix2 a (1 : Fin 4))).toInt < 500

/-- The region's result is the grid of pair energies of the gathered words and coordinates. -/
theorem region_eq : (dats m 0 c).arrAt 4 cfg0.N = kGrid (inCoords m c) (inAtoms m c) (inPairs m c) (inAlts m c) := by
  rw [region_value m (fun x0 x1 x2 x3 r l => blockOut_apply x0 x1 x2 x3 r l) c, V_v44, V_v45, V_v46, V_v47]

variable (h : InRange m c)
include h

/-- The two programs' sulfur masks agree. -/
theorem sulfur_eq : sulfurOf (V m c main_v42) (V m c main_v43)
    = Cert.ReferenceIdeal.Read.val_main_v30 (F := Ideal) (inAtoms m c) (inPairs m c) := by
  rw [V_v42, V_v43]
  funext i
  obtain ⟨p, rfl⟩ : ∃ p : Fin 4000000, i = ix1 p := ⟨i 0, eq_ix1 i⟩
  exact (kSulfur_apply (inAtoms m c) (inPairs m c) (inAlts m c) h.pairs h.resnum p).trans
    (Cert.ReferenceIdeal.Hand.sulfur_apply (inAtoms m c) (inPairs m c) h.pairs p).symm

/-- The two programs' masked pair energies agree. -/
theorem weights_eq : pairWeights m c
    = Cert.ReferenceIdeal.Read.val_main_v114 (F := Ideal) (inCoords m c) (inAtoms m c) (inPairs m c) (inAlts m c) := by
  dsimp only [pairWeights]
  rw [V_v42, V_v43, region_eq]
  funext i
  obtain ⟨p, a, rfl⟩ : ∃ (p : Fin 4000000) (a : Fin 4), i = ix2 p a := ⟨i 0, i 1, eq_ix2 i⟩
  exact (kWeights_apply (inCoords m c) (inAtoms m c) (inPairs m c) (inAlts m c) h.pairs h.resnum p a).trans
    (Cert.ReferenceIdeal.Hand.weights_apply (inCoords m c) (inAtoms m c) (inPairs m c) (inAlts m c) h.pairs p a
      (Cert.ReferenceIdeal.HandNet.net_apply (inCoords m c) (inAtoms m c) (inPairs m c) h.pairs h.resnum p
        (Cert.ReferenceIdeal.Hand.sulfur_apply (inAtoms m c) (inPairs m c) h.pairs p))).symm

/-- The two programs' atoms' energies agree: one scatter over the joined index vectors is the two scatters in turn. -/
theorem atoms_eq : atomEnergy (V m c main_v1) (V m c main_v3) (pairWeights m c)
    = Cert.ReferenceIdeal.Read.val_main_v129 (F := Ideal) (inCoords m c) (inAtoms m c) (inPairs m c) (inAlts m c) := by
  rw [V_v1, V_v3, weights_eq m c h]
  unfold atomEnergy bothIdx
  refine (Cert.ScatterPair.scatter_concat_eq_scatter_scatter _ Cert.ReferenceIdeal.Gen.bcast_S_S4000000 _ Cert.ReferenceIdeal.Gen.bcast_S4000000_S4000000x1_0 _ _ _
    (pairCol0 (inPairs m c)) (pairCol1 (inPairs m c)) _).trans ?_
  rfl

/-- The two programs' residues' energies agree. -/
theorem resi_eq : resiEnergy (inAtoms m c) (atomEnergy (V m c main_v1) (V m c main_v3) (pairWeights m c))
    = Cert.ReferenceIdeal.Read.val_main_v145 (F := Ideal) (inCoords m c) (inAtoms m c) (inPairs m c) (inAlts m c) := by
  rw [atoms_eq m c h]
  rfl

end Cert.Agree

end
-- ==== Proof.PreFacts.lean ====
/-
  The printed precondition, decoded. The precondition is a conjunction of six `all`-reductions folded by AND into one
  one-bit scalar; the claim states that the scalar is 1. Then each conjunct is 1, each reduction that is 1 had a 1 at every
  element, and each element is a signed comparison of a word with a constant: every entry of the [4000000 × 2] pair table
  lies in [0, 500000), and every entry of column 1 of the [500000 × 4] table lies in [0, 500). The two float conjuncts
  (finiteness) are split off and not read.
-/
import proofs.«400768_j49443663511892_3_alg».proof.Pre_finite_inputs
import proofs.«400768_j49443663511892_3_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value

namespace Cert.PreFacts

open Idealize.ShloMosaic Idealize.ShloMosaic.ValueIdx Cert.Pre_finite_inputs

/-- The scalar shape has one index. -/
instance : Subsingleton S_.Idx := ⟨fun a b => funext fun d => d.elim0⟩

variable {F : FTy → Type} [FloatOps F]
variable {a0 : FVec F S500000x3 .f32} {a1 : IVec S500000x4 32} {a2 : IVec S4000000x2 32}
  {a3 : IVec S500000x4 1} {a4 : FVec F S500000 .f32}

/-- An AND of two one-bit scalars that is 1 has both operands 1. -/
private theorem and_split {x y : IVec S_ 1} (h : andi x y ix0 = 1#1) : x ix0 = 1#1 ∧ y ix0 = 1#1 :=
  IntOp.andi_eq_one.1 h

/-- Column 1 of the [500000 × 4] table, sliced out as a [500000 × 1] column and reshaped to a vector, reads at `a` the
    table at (a, 1): the reshape keeps the row-major position `a * 1 + 0 = a`, the slice shifts the column by its offset 1. -/
private theorem col1_apply (hs : S500000x4.Slices ![0, 1] S500000x1) (hc : S500000x1.ShapeCasts S500000) (a : Fin 500000) :
    shapeCast S500000 (extractStridedSlice S500000x1 ![0, 1] a1 hs) hc (ix1 a) = a1 (ix2 a (1 : Fin 4)) := by
  refine (shapeCast_apply _ hc (ix1 a) (ix2 a (0 : Fin 1)) ?_).trans ?_
  · rw [Shape.rowMajor_val_two, Shape.rowMajor_val_one]
    show a.val * 1 + 0 = a.val
    omega
  · refine extractStridedSlice_apply _ a1 hs _ _ fun b => ?_
    match b with
    | ⟨0, _⟩ => show a.val = 0 + a.val; omega
    | ⟨1, _⟩ => rfl

/-- The precondition's four integer conjuncts, each read at one element as a signed comparison of words. -/
theorem conjuncts (h : fn (F := F) a0 a1 a2 a3 a4 = fun _ => 1#1) :
    (∀ i : S4000000x2.Idx, IntOp.cmpi .sge (a2 i) 0#32 = 1#1) ∧
    (∀ i : S4000000x2.Idx, IntOp.cmpi .slt (a2 i) 500000#32 = 1#1) ∧
    (∀ a : Fin 500000, IntOp.cmpi .sge (a1 (ix2 a (1 : Fin 4))) 0#32 = 1#1) ∧
    (∀ a : Fin 500000, IntOp.cmpi .slt (a1 (ix2 a (1 : Fin 4))) 500#32 = 1#1) := by
  have h0 := congrFun h ix0
  dsimp only [fn, fn_part1] at h0
  obtain ⟨h1, hr_lt⟩ := and_split h0
  obtain ⟨h2, hr_ge⟩ := and_split h1
  obtain ⟨h3, hp_lt⟩ := and_split h2
  obtain ⟨_, hp_ge⟩ := and_split h3
  refine ⟨fun i => ?_, fun i => ?_, fun a => ?_, fun a => ?_⟩
  · exact Host.reduce_andi_all _ _ _ _ ix0 hp_ge i
  · exact Host.reduce_andi_all _ _ _ _ ix0 hp_lt i
  · have e := Host.reduce_andi_all _ _ _ _ ix0 hr_ge (ix1 a)
    rw [← col1_apply (a1 := a1) Facts.slices_S500000x4_S500000x1_0_1 Facts.shapeCasts_S500000x1_S500000 a]
    exact e
  · have e := Host.reduce_andi_all _ _ _ _ ix0 hr_lt (ix1 a)
    rw [← col1_apply (a1 := a1) Facts.slices_S500000x4_S500000x1_0_1 Facts.shapeCasts_S500000x1_S500000 a]
    exact e

/-- Every entry of the pair table is a row number of the [500000 × …] tables. -/
theorem pairs_inb (h : fn (F := F) a0 a1 a2 a3 a4 = fun _ => 1#1) (p : Fin 4000000) (k : Fin 2) :
    0 ≤ (a2 (ix2 p k)).toInt ∧ (a2 (ix2 p k)).toInt < 500000 := by
  obtain ⟨hge, hlt, _, _⟩ := conjuncts h
  have e1 := IntOp.cmpi_sge.1 (hge (ix2 p k))
  have e2 := IntOp.cmpi_slt.1 (hlt (ix2 p k))
  have z : (0#32 : BitVec 32).toInt = 0 := by decide
  have c : (500000#32 : BitVec 32).toInt = 500000 := by decide
  rw [z] at e1; rw [c] at e2
  exact ⟨e1, e2⟩

/-- Every entry of column 1 of the [500000 × 4] table lies in [0, 500). -/
theorem resnum_inb (h : fn (F := F) a0 a1 a2 a3 a4 = fun _ => 1#1) (a : Fin 500000) :
    0 ≤ (a1 (ix2 a (1 : Fin 4))).toInt ∧ (a1 (ix2 a (1 : Fin 4))).toInt < 500 := by
  obtain ⟨_, _, hge, hlt⟩ := conjuncts h
  have e1 := IntOp.cmpi_sge.1 (hge a)
  have e2 := IntOp.cmpi_slt.1 (hlt a)
  have z : (0#32 : BitVec 32).toInt = 0 := by decide
  have c : (500#32 : BitVec 32).toInt = 500 := by decide
  rw [z] at e1; rw [c] at e2
  exact ⟨e1, e2⟩

end Cert.PreFacts
-- ==== Proof.lean ====
/-
  The pair-energy kernel against its jnp reference: frames, idealization, and equality of results over the extended reals.

  Both programs take atom coordinates, an atom table (name code, residue number, batch, chain), a table of atom pairs,
  a mask of alternatives and an unused accessibility vector, and return the residues' energies, the atoms' energies
  and the mask of sulfur pairs. The precondition says the floats are finite, every pair-table entry is an atom number
  in [0, 500000) and every residue number is in [0, 500).

  * Frames. The kernel program (at the word level and idealized) is host operations, one pipelined region of 31 grid
    points whose body stores one pointwise function of its four input blocks, and host operations; it runs to the end
    and writes none of its arguments. The reference is a straight line of host operations.
  * Idealization. The ideal pass rewrote nothing: the idealized kernel is the kernel's own text read at extended reals.
  * Results. The kernel packs each atom's residue number, sulfur flag and alternative flags into one word and gathers
    words; the reference gathers the table's columns. With residue numbers below 512 every field reads back exactly,
    and with pair entries inside the table the kernel's fill-mode `take` and the reference's clamping index read the
    same atoms, so the sulfur mask, the pair energies and the masked weights agree pair by pair. The kernel scatters
    the weights once over the two index vectors joined end to end where the reference scatters twice: the same sum.
    The residues' energies are the same sum over atoms of equal atoms' energies.
-/
import proofs.«400768_j49443663511892_3_alg».proof.Defs
import proofs.«400768_j49443663511892_3_alg».proof.Proof.Gen.Kernel
import proofs.«400768_j49443663511892_3_alg».proof.Proof.Gen.KernelIdeal
import proofs.«400768_j49443663511892_3_alg».proof.Proof.Gen.ReferenceIdeal
import proofs.«400768_j49443663511892_3_alg».proof.Proof.Gen.Pre_finite_inputs
import proofs.«400768_j49443663511892_3_alg».proof.Proof.KFrame
import proofs.«400768_j49443663511892_3_alg».proof.Proof.KIFrame
import proofs.«400768_j49443663511892_3_alg».proof.Proof.KTerm
import proofs.«400768_j49443663511892_3_alg».proof.Proof.Agree
import proofs.«400768_j49443663511892_3_alg».proof.Proof.PreFacts
import proofs.«400768_j49443663511892_3_alg».proof.Proof.RefRun
import Idealize.ShloMosaic.Adequacy
import Idealize.ShloMosaic.Init

noncomputable section

namespace Cert.Proof

open Idealize.ShloMosaic Idealize.SL.Sem
open Cert.KernelIdeal.Hand (inCoords inAtoms inPairs inAlts)

/-- The word-level kernel program runs to the end and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From memories agreeing on the arguments both programs end with the reference's three stages of the kernel's
    arguments: the kernel's by the comparison of the two programs stage by stage, the reference's by its run. -/
theorem algebraic : Cert.algebraic_KernelIdeal_ReferenceIdeal := by
  intro m ρ m' ρ' hpre hagree
  have hin : ∀ c, Cert.Agree.InRange m c := fun c =>
    ⟨fun p k => Cert.PreFacts.pairs_inb (hpre c) p k, fun a => Cert.PreFacts.resnum_inb (hpre c) a⟩
  refine ⟨fun c => Cert.ReferenceIdeal.Read.val_main_v145 (F := Ideal) (inCoords m c) (inAtoms m c) (inPairs m c) (inAlts m c),
    fun c => Cert.ReferenceIdeal.Read.val_main_v129 (F := Ideal) (inCoords m c) (inAtoms m c) (inPairs m c) (inAlts m c),
    fun c => Cert.ReferenceIdeal.Read.val_main_v30 (F := Ideal) (inAtoms m c) (inPairs m c), ?_, ?_⟩
  · exact (θ_run Cert.KernelIdeal.defs _ _).mono (fun _ h c =>
      ⟨(h c).1.trans (Cert.Agree.resi_eq m c (hin c)), (h c).2.1.trans (Cert.Agree.atoms_eq m c (hin c)),
        (h c).2.2.1.trans (Cert.Agree.sulfur_eq m c (hin c)), (h c).2.2.2⟩)
      (Cert.KernelIdeal.Hand.run_values m ρ)
  · refine (θ_run Cert.ReferenceIdeal.defs _ _).mono (fun _ h c => ⟨?_, ?_, ?_, (h c).2.2.2⟩)
      (Cert.ReferenceIdeal.Value.run (F := Ideal) m' ρ')
    · rw [(h c).1, Cert.ReferenceIdeal.Read.val_main_v145_eq, (hagree c).1, (hagree c).2.1, (hagree c).2.2.1, (hagree c).2.2.2.1]
    · rw [(h c).2.1, Cert.ReferenceIdeal.Read.val_main_v129_eq, (hagree c).1, (hagree c).2.1, (hagree c).2.2.1, (hagree c).2.2.2.1]
    · rw [(h c).2.2.1, Cert.ReferenceIdeal.Read.val_main_v30_eq, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
